-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S1x4x16 : Shape := ⟨3, ![1, 4, 16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S1x4x16 : S_.BroadcastsInDim S1x4x16 (![] : Fin 0 → Fin S1x4x16.rank)
  reducesTo_S1x4x16_S_d0_1_2 : S1x4x16.ReducesTo [0, 1, 2] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S800000 32) (main_arg6 : FVec F S64x64 .f32) (main_v13 : IVec S_ 1) (main_v16 : IVec S1x4x16 1) : IVec S_ 1 :=
  let main_c_5 : IVec S_ 1 := constantI S_ 1 1#1
  let main_v17 : IVec S_ 1 := (fun x v => Host.reduce IntOp.andi x v reducesTo_S1x4x16_S_d0_1_2 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_c_8 : IVec S_ 32 := constantI S_ 32 0#32
  let main_v24 : IVec S800000 32 := broadcastInDim S800000 ![] bcast_S_S800000 main_c_8
  let main_v25 : IVec S800000 1 := cmpi .sge main_arg1 main_v24
  let main_c_9 : IVec S_ 32 := constantI S_ 32 50000#32
  let main_v26 : IVec S800000 32 := broadcastInDim S800000 ![] bcast_S_S800000 main_c_9
  let main_v27 : IVec S800000 1 := cmpi .slt main_arg1 main_v26
  let main_v28 : IVec S800000 1 := andi main_v25 main_v27
  let main_c_10 : IVec S_ 1 := constantI S_ 1 1#1
  let main_v29 : IVec S_ 1 := (fun x v => Host.reduce IntOp.andi x v reducesTo_S800000_S_d0 h_S_) main_v28 main_c_10
  let main_v30 : IVec S_ 1 := andi main_v23 main_v29
  main_v30

def fn {F : FTy → Type} [FloatOps F] (main_arg0 : FVec F S50000x64 .f32) (main_arg1 : IVec S800000 32) (main_arg2 : IVec S800000 32) (main_arg3 : FVec F S64x64 .f32) (main_arg4 : FVec F S1x4x16 .f32) (main_arg5 : FVec F S1x4x16 .f32) (main_arg6 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S1x4x16 .f32 := Host.absf main_arg4
  let main_cst_2 : FVec F S_ .f32 := constant S_ .f32 0x7F800000#32
  let main_v10 : FVec F S1x4x16 .f32 := broadcastInDim S1x4x16 ![] bcast_S_S1x4x16 main_cst_2
  let main_v11 : IVec S1x4x16 1 := cmpf .olt main_v9 main_v10
  let main_c_3 : IVec S_ 1 := constantI S_ 1 1#1
  let main_v12 : IVec S_ 1 := (fun x v => Host.reduce IntOp.andi x v reducesTo_S1x4x16_S_d0_1_2 h_S_) main_v11 main_c_3
  let main_v13 : IVec S_ 1 := andi main_v8 main_v12
  let main_v14 : FVec F S1x4x16 .f32 := Host.absf main_arg5
  let main_cst_4 : FVec F S_ .f32 := constant S_ .f32 0x7F800000#32
  let main_v15 : FVec F S1x4x16 .f32 := broadcastInDim S1x4x16 ![] bcast_S_S1x4x16 main_cst_4
  let main_v16 : IVec S1x4x16 1 := cmpf .olt main_v14 main_v15
  fn_part1 (F := F) main_arg1 main_arg6 main_v13 main_v16
-- ==== Kernel.lean ====
abbrev S50000x64 : Shape := ⟨2, ![50000, 64]⟩
abbrev S800000 : Shape := ⟨1, ![800000]⟩
abbrev S64x64 : Shape := ⟨2, ![64, 64]⟩
abbrev S1x4x16 : Shape := ⟨3, ![1, 4, 16]⟩
abbrev S64 : Shape := ⟨1, ![64]⟩
abbrev S_ : Shape := ⟨0, ![]⟩
abbrev S64x1 : Shape := ⟨2, ![64, 1]⟩
abbrev S4 : Shape := ⟨1, ![4]⟩
abbrev S1x4 : Shape := ⟨2, ![1, 4]⟩
abbrev S64x4 : Shape := ⟨2, ![64, 4]⟩
abbrev S4x64 : Shape := ⟨2, ![4, 64]⟩
abbrev S50000x4 : Shape := ⟨2, ![50000, 4]⟩
abbrev S2000x64 : Shape := ⟨2, ![2000, 64]⟩
abbrev S2000x4 : Shape := ⟨2, ![2000, 4]⟩
abbrev S800000x1 : Shape := ⟨2, ![800000, 1]⟩
abbrev S1 : Shape := ⟨1, ![1]⟩
abbrev S1x1 : Shape := ⟨2, ![1, 1]⟩
abbrev S800000x4 : Shape := ⟨2, ![800000, 4]⟩
abbrev S800000x64 : Shape := ⟨2, ![800000, 64]⟩
abbrev S4000x4 : Shape := ⟨2, ![4000, 4]⟩
abbrev S4000x64 : Shape := ⟨2, ![4000, 64]⟩
abbrev S4000 : Shape := ⟨1, ![4000]⟩
abbrev S4000x1 : Shape := ⟨2, ![4000, 1]⟩
abbrev S50000x4x16 : Shape := ⟨3, ![50000, 4, 16]⟩

abbrev nBuf : Space → Nat
  | .hbm => 122
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S1x4x16, .f32⟩
  | .hbm, ⟨5, _⟩ => ⟨S1x4x16, .f32⟩
  | .hbm, ⟨6, _⟩ => ⟨S64x64, .f32⟩
  | .hbm, ⟨7, _⟩ => ⟨S64, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S64x1, .i32⟩
  | .hbm, ⟨27, _⟩ => ⟨S4, .i32⟩
  | .hbm, ⟨28, _⟩ => ⟨S1x4, .i32⟩
  | .hbm, ⟨29, _⟩ => ⟨S64x4, .i32⟩
  | .hbm, ⟨30, _⟩ => ⟨S64x4, .i32⟩
  | .hbm, ⟨31, _⟩ => ⟨S64x4, .i1⟩
  | .hbm, ⟨32, _⟩ => ⟨S64x4, .f32⟩
  | .hbm, ⟨33, _⟩ => ⟨S64, .f32⟩
  | .hbm, ⟨34, _⟩ => ⟨S64x1, .f32⟩
  | .hbm, ⟨35, _⟩ => ⟨S64x4, .f32⟩
  | .hbm, ⟨36, _⟩ => ⟨S64x4, .f32⟩
  | .hbm, ⟨37, _⟩ => ⟨S64, .f32⟩
  | .hbm, ⟨38, _⟩ => ⟨S64x1, .f32⟩
  | .hbm, ⟨39, _⟩ => ⟨S64x4, .f32⟩
  | .hbm, ⟨40, _⟩ => ⟨S64x4, .f32⟩
  | .hbm, ⟨41, _⟩ => ⟨S4x64, .f32⟩
  | .hbm, ⟨42, _⟩ => ⟨S50000x64, .f32⟩
  | .hbm, ⟨43, _⟩ => ⟨S50000x4, .f32⟩
  | .hbm, ⟨44, _⟩ => ⟨S50000x4, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S1, .i32⟩
  | .hbm, ⟨55, _⟩ => ⟨S_, .i32⟩
  | .hbm, ⟨56, _⟩ => ⟨S800000x1, .i32⟩
  | .hbm, ⟨57, _⟩ => ⟨S800000x1, .i1⟩
  | .hbm, ⟨58, _⟩ => ⟨S1x1, .i32⟩
  | .hbm, ⟨59, _⟩ => ⟨S800000x1, .i32⟩
  | .hbm, ⟨60, _⟩ => ⟨S800000x1, .i1⟩
  | .hbm, ⟨61, _⟩ => ⟨S800000x1, .i1⟩
  | .hbm, ⟨62, _⟩ => ⟨S_, .i1⟩
  | .hbm, ⟨63, _⟩ => ⟨S800000, .i1⟩
  | .hbm, ⟨64, _⟩ => ⟨S800000x4, .f32⟩
  | .hbm, ⟨65, _⟩ => ⟨S800000x4, .i1⟩
  | .hbm, ⟨66, _⟩ => ⟨S_, .f32⟩
  | .hbm, ⟨67, _⟩ => ⟨S800000x4, .f32⟩
  | .hbm, ⟨68, _⟩ => ⟨S800000x4, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S1, .i32⟩
  | .hbm, ⟨78, _⟩ => ⟨S_, .i32⟩
  | .hbm, ⟨79, _⟩ => ⟨S800000x1, .i32⟩
  | .hbm, ⟨80, _⟩ => ⟨S800000x1, .i1⟩
  | .hbm, ⟨81, _⟩ => ⟨S1x1, .i32⟩
  | .hbm, ⟨82, _⟩ => ⟨S800000x1, .i32⟩
  | .hbm, ⟨83, _⟩ => ⟨S800000x1, .i1⟩
  | .hbm, ⟨84, _⟩ => ⟨S800000x1, .i1⟩
  | .hbm, ⟨85, _⟩ => ⟨S_, .i1⟩
  | .hbm, ⟨86, _⟩ => ⟨S800000, .i1⟩
  | .hbm, ⟨87, _⟩ => ⟨S800000x4, .f32⟩
  | .hbm, ⟨88, _⟩ => ⟨S800000x4, .i1⟩
  | .hbm, ⟨89, _⟩ => ⟨S_, .f32⟩
  | .hbm, ⟨90, _⟩ => ⟨S800000x4, .f32⟩
  | .hbm, ⟨91, _⟩ => ⟨S800000x4, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S1, .i32⟩
  | .hbm, ⟨101, _⟩ => ⟨S_, .i32⟩
  | .hbm, ⟨102, _⟩ => ⟨S800000x1, .i32⟩
  | .hbm, ⟨103, _⟩ => ⟨S800000x1, .i1⟩
  | .hbm, ⟨104, _⟩ => ⟨S1x1, .i32⟩
  | .hbm, ⟨105, _⟩ => ⟨S800000x1, .i32⟩
  | .hbm, ⟨106, _⟩ => ⟨S800000x1, .i1⟩
  | .hbm, ⟨107, _⟩ => ⟨S800000x1, .i1⟩
  | .hbm, ⟨108, _⟩ => ⟨S_, .i1⟩
  | .hbm, ⟨109, _⟩ => ⟨S800000, .i1⟩
  | .hbm, ⟨110, _⟩ => ⟨S800000x64, .f32⟩
  | .hbm, ⟨111, _⟩ => ⟨S800000x64, .i1⟩
  | .hbm, ⟨112, _⟩ => ⟨S_, .f32⟩
  | .hbm, ⟨113, _⟩ => ⟨S800000x64, .f32⟩
  | .hbm, ⟨114, _⟩ => ⟨S800000x64, .f32⟩
  | .hbm, ⟨115, _⟩ => ⟨S800000x64, .f32⟩
  | .hbm, ⟨116, _⟩ => ⟨S_, .f32⟩
  | .hbm, ⟨117, _⟩ => ⟨S50000x64, .f32⟩
  | .hbm, ⟨118, _⟩ => ⟨S800000x1, .i32⟩
  | .hbm, ⟨119, _⟩ => ⟨S50000x64, .f32⟩
  | .hbm, ⟨120, _⟩ => ⟨S50000x64, .f32⟩
  | .hbm, ⟨121, _⟩ => ⟨S50000x4x16, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64x64, .f32⟩
  | .local _ .vmem, ⟨4, _⟩ => ⟨S64x4, .f32⟩
  | .local _ .vmem, ⟨5, _⟩ => ⟨S64x4, .f32⟩
  | .local _ .vmem, ⟨6, _⟩ => ⟨S2000x64, .f32⟩
  | .local _ .vmem, ⟨7, _⟩ => ⟨S2000x64, .f32⟩
  | .local _ .vmem, ⟨8, _⟩ => ⟨S2000x4, .f32⟩
  | .local _ .vmem, ⟨9, _⟩ => ⟨S2000x4, .f32⟩
  | .local _ .vmem, ⟨10, _⟩ => ⟨S2000x4, .f32⟩
  | .local _ .vmem, ⟨11, _⟩ => ⟨S2000x4, .f32⟩
  | .local _ .vmem, ⟨12, _⟩ => ⟨S2000x64, .f32⟩
  | .local _ .vmem, ⟨13, _⟩ => ⟨S2000x64, .f32⟩
  | .local _ .vmem, ⟨14, _⟩ => ⟨S4000x4, .f32⟩
  | .local _ .vmem, ⟨15, _⟩ => ⟨S4000x4, .f32⟩
  | .local _ .vmem, ⟨16, _⟩ => ⟨S4000x4, .f32⟩
  | .local _ .vmem, ⟨17, _⟩ => ⟨S4000x4, .f32⟩
  | .local _ .vmem, ⟨18, _⟩ => ⟨S4000x64, .f32⟩
  | .local _ .vmem, ⟨19, _⟩ => ⟨S4000x64, .f32⟩
  | .local _ .vmem, ⟨20, _⟩ => ⟨S4x64, .f32⟩
  | .local _ .vmem, ⟨21, _⟩ => ⟨S4000x64, .f32⟩
  | .local _ .vmem, ⟨22, _⟩ => ⟨S4000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v18_2 : Ref sig .tc := ⟨.hbm, 44, rfl⟩
abbrev main_v18_3 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v19 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v20 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v21 : Ref sig .tc := ⟨.hbm, 114, rfl⟩
abbrev main_v22 : Ref sig .tc := ⟨.hbm, 115, rfl⟩
abbrev main_cst : Ref sig .tc := ⟨.hbm, 116, rfl⟩
abbrev main_v23 : Ref sig .tc := ⟨.hbm, 117, rfl⟩
abbrev main_v24 : Ref sig .tc := ⟨.hbm, 118, rfl⟩
abbrev main_v25 : Ref sig .tc := ⟨.hbm, 119, rfl⟩
abbrev main_v26 : Ref sig .tc := ⟨.hbm, 120, rfl⟩
abbrev main_v27 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S4_S1x4_1 : S4.BroadcastsInDim S1x4 (![1] : Fin 1 → Fin S1x4.rank)
  bcast_S64x1_S64x4_0_1 : S64x1.BroadcastsInDim S64x4 (![0, 1] : Fin 2 → Fin S64x4.rank)
  bcast_S1x4_S64x4_0_1 : S1x4.BroadcastsInDim S64x4 (![0, 1] : Fin 2 → Fin S64x4.rank)
  shapeCasts_S1x4x16_S64 : S1x4x16.ShapeCasts S64
  transposes_S64x4_S4x64_1_0 : S64x4.Transposes [1, 0] S4x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S2000x4_S2000x4_0_0 : ∀ a, (![0, 0] : Fin 2 → Nat) a + S2000x4.size a ≤ S2000x4.size a
  h_S2000x4 : 0 < S2000x4.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x4_0 : S800000.BroadcastsInDim S800000x4 (![0] : Fin 1 → Fin S800000x4.rank)
  bcast_S_S800000x4 : S_.BroadcastsInDim S800000x4 (![] : Fin 0 → Fin S800000x4.rank)
  bcast_S800000_S800000x64_0 : S800000.BroadcastsInDim S800000x64 (![0] : Fin 1 → Fin S800000x64.rank)
  bcast_S_S800000x64 : S_.BroadcastsInDim S800000x64 (![] : Fin 0 → Fin S800000x64.rank)
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  reduces_S4000x4_S4000 : S4000x4.Reduces [1] S4000
  shapeCasts_S4000_S4000x1 : S4000.ShapeCasts S4000x1
  broadcasts_S4000x1_S4000x4 : S4000x1.Broadcasts S4000x4
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bcast_S_S50000x64 : S_.BroadcastsInDim S50000x64 (![] : Fin 0 → Fin S50000x64.rank)
  shapeCasts_S50000x64_S50000x4x16 : S50000x64.ShapeCasts S50000x4x16
  dot_S2000x64_S64x64_S2000x64_1_0_0_1_n_n_wf : DotDims.WF S2000x64 S64x64 S2000x64 [1] [0] [0] [1] [] []
  dot_S2000x64_S64x4_S2000x4_1_0_0_1_n_n_wf : DotDims.WF S2000x64 S64x4 S2000x4 [1] [0] [0] [1] [] []
  gather_S50000x4_S800000x1_S800000x4_1_0_n_n_0_1_14_wf : GatherDims.WF S50000x4 S800000x1 S800000x4 [1] [0] [] [0] [] 1 ![1, 4]
  gather_S50000x64_S800000x1_S800000x64_1_0_n_n_0_1_164_wf : GatherDims.WF S50000x64 S800000x1 S800000x64 [1] [0] [] [0] [] 1 ![1, 64]
  dot_S4000x4_S4x64_S4000x64_1_0_0_1_n_n_wf : DotDims.WF S4000x4 S4x64 S4000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4.size a ≤ S64x4.size a
  hwx0_4 : ∀ i : grid0.Coords, EltTy.bits .f32 = 32 ∨ (Rect.block (s := S64x4) S64x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x4.size a ≤ S50000x4.size a
  hwx0_6 : ∀ i : grid0.Coords, EltTy.bits .f32 = 32 ∨ (Rect.block (s := S50000x4) S2000x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x4.size a ≤ S50000x4.size a
  hwx0_7 : ∀ i : grid0.Coords, EltTy.bits .f32 = 32 ∨ (Rect.block (s := S50000x4) S2000x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .f32 = 32 ∨ (Rect.block (s := S50000x64) S2000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x4.size a ≤ S800000x4.size a
  hwx1_0 : ∀ i : grid1.Coords, EltTy.bits .f32 = 32 ∨ (Rect.block (s := S800000x4) S4000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x4.size a ≤ S800000x4.size a
  hwx1_1 : ∀ i : grid1.Coords, EltTy.bits .f32 = 32 ∨ (Rect.block (s := S800000x4) S4000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S800000x64.size a
  hwx1_2 : ∀ i : grid1.Coords, EltTy.bits .f32 = 32 ∨ (Rect.block (s := S800000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .f32 = 32 ∨ (Rect.block (s := S4x64) S4x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S800000x64.size a
  hwx1_4 : ∀ i : grid1.Coords, EltTy.bits .f32 = 32 ∨ (Rect.block (s := S800000x64) S4000x64.size (cc1_transform_4 i) (hinb1_4 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x4_S2000x4_1_0_0_1_n_n : DotDims S2000x64 S64x4 S2000x4 where
  lhsContracting := [1]
  rhsContracting := [0]
  lhsNonContracting := [0]
  rhsNonContracting := [1]
  lhsBatch := []
  rhsBatch := []
  wf := dot_S2000x64_S64x4_S2000x4_1_0_0_1_n_n_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x4_S4x64_S4000x64_1_0_0_1_n_n : DotDims S4000x4 S4x64 S4000x64 where
  lhsContracting := [1]
  rhsContracting := [0]
  lhsNonContracting := [0]
  rhsNonContracting := [1]
  lhsBatch := []
  rhsBatch := []
  wf := dot_S4000x4_S4x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_0) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_1) S2000x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_2) S2000x4.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_3) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v19) S4000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S4x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S1x4x16 : Shape := ⟨3, ![1, 4, 16]⟩
abbrev S50000x4x16 : Shape := ⟨3, ![50000, 4, 16]⟩
abbrev S_ : Shape := ⟨0, ![]⟩
abbrev S50000x4 : Shape := ⟨2, ![50000, 4]⟩
abbrev S800000x1 : Shape := ⟨2, ![800000, 1]⟩
abbrev S800000x4 : Shape := ⟨2, ![800000, 4]⟩
abbrev S800000x4x16 : Shape := ⟨3, ![800000, 4, 16]⟩
abbrev S800000x4x1 : Shape := ⟨3, ![800000, 4, 1]⟩

abbrev nBuf : Space → Nat
  | .hbm => 77
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S1x4x16, .f32⟩
  | .hbm, ⟨5, _⟩ => ⟨S1x4x16, .f32⟩
  | .hbm, ⟨6, _⟩ => ⟨S64x64, .f32⟩
  | .hbm, ⟨7, _⟩ => ⟨S50000x64, .f32⟩
  | .hbm, ⟨8, _⟩ => ⟨S50000x4x16, .f32⟩
  | .hbm, ⟨9, _⟩ => ⟨S50000x4x16, .f32⟩
  | .hbm, ⟨10, _⟩ => ⟨S50000x4x16, .f32⟩
  | .hbm, ⟨11, _⟩ => ⟨S_, .f32⟩
  | .hbm, ⟨12, _⟩ => ⟨S50000x4, .f32⟩
  | .hbm, ⟨13, _⟩ => ⟨S50000x4x16, .f32⟩
  | .hbm, ⟨14, _⟩ => ⟨S50000x4x16, .f32⟩
  | .hbm, ⟨15, _⟩ => ⟨S_, .f32⟩
  | .hbm, ⟨16, _⟩ => ⟨S50000x4, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x4, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x4, .f32⟩
  | .hbm, ⟨35, _⟩ => ⟨S800000x4, .f32⟩
  | .hbm, ⟨36, _⟩ => ⟨S_, .f32⟩
  | .hbm, ⟨37, _⟩ => ⟨S_, .f32⟩
  | .hbm, ⟨38, _⟩ => ⟨S800000x4, .f32⟩
  | .hbm, ⟨39, _⟩ => ⟨S800000x4, .i1⟩
  | .hbm, ⟨40, _⟩ => ⟨S_, .f32⟩
  | .hbm, ⟨41, _⟩ => ⟨S800000x4, .f32⟩
  | .hbm, ⟨42, _⟩ => ⟨S800000x4, .f32⟩
  | .hbm, ⟨43, _⟩ => ⟨S800000x4, .f32⟩
  | .hbm, ⟨44, _⟩ => ⟨S_, .f32⟩
  | .hbm, ⟨45, _⟩ => ⟨S800000, .f32⟩
  | .hbm, ⟨46, _⟩ => ⟨S_, .f32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S800000x4, .f32⟩
  | .hbm, ⟨51, _⟩ => ⟨S800000x4, .f32⟩
  | .hbm, ⟨52, _⟩ => ⟨S800000x4, .f32⟩
  | .hbm, ⟨53, _⟩ => ⟨S_, .f32⟩
  | .hbm, ⟨54, _⟩ => ⟨S800000, .f32⟩
  | .hbm, ⟨55, _⟩ => ⟨S800000x1, .f32⟩
  | .hbm, ⟨56, _⟩ => ⟨S800000x4, .f32⟩
  | .hbm, ⟨57, _⟩ => ⟨S800000x4, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x4x16, .f32⟩
  | .hbm, ⟨67, _⟩ => ⟨S800000x4x1, .f32⟩
  | .hbm, ⟨68, _⟩ => ⟨S800000x4x16, .f32⟩
  | .hbm, ⟨69, _⟩ => ⟨S800000x4x16, .f32⟩
  | .hbm, ⟨70, _⟩ => ⟨S_, .f32⟩
  | .hbm, ⟨71, _⟩ => ⟨S50000x4x16, .f32⟩
  | .hbm, ⟨72, _⟩ => ⟨S800000x1, .i32⟩
  | .hbm, ⟨73, _⟩ => ⟨S50000x4x16, .f32⟩
  | .hbm, ⟨74, _⟩ => ⟨S50000x64, .f32⟩
  | .hbm, ⟨75, _⟩ => ⟨S50000x4x16, .f32⟩
  | .hbm, ⟨76, _⟩ => ⟨S50000x4x16, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]

class Facts₀ : Prop where
  shapeCasts_S50000x64_S50000x4x16 : S50000x64.ShapeCasts S50000x4x16
  bcast_S1x4x16_S50000x4x16_0_1_2 : S1x4x16.BroadcastsInDim S50000x4x16 (![0, 1, 2] : Fin 3 → Fin S50000x4x16.rank)
  reducesTo_S50000x4x16_S50000x4_d2 : S50000x4x16.ReducesTo [2] S50000x4
  h_S_ : 0 < S_.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x4 : S_.BroadcastsInDim S800000x4 (![] : Fin 0 → Fin S800000x4.rank)
  reducesTo_S800000x4_S800000_d1 : S800000x4.ReducesTo [1] S800000
  bcast_S800000x1_S800000x4_0_1 : S800000x1.BroadcastsInDim S800000x4 (![0, 1] : Fin 2 → Fin S800000x4.rank)
  bcast_S800000x4_S800000x4x1_0_1 : S800000x4.BroadcastsInDim S800000x4x1 (![0, 1] : Fin 2 → Fin S800000x4x1.rank)
  bcast_S800000x4x1_S800000x4x16_0_1_2 : S800000x4x1.BroadcastsInDim S800000x4x16 (![0, 1, 2] : Fin 3 → Fin S800000x4x16.rank)
  bcast_S_S50000x4x16 : S_.BroadcastsInDim S50000x4x16 (![] : Fin 0 → Fin S50000x4x16.rank)
  dot_S50000x64_S64x64_S50000x64_1_0_0_1_n_n_wf : DotDims.WF S50000x64 S64x64 S50000x64 [1] [0] [0] [1] [] []
  gather_S50000x4_S800000x1_S800000x4_1_0_n_n_0_1_14_wf : GatherDims.WF S50000x4 S800000x1 S800000x4 [1] [0] [] [0] [] 1 ![1, 4]
  gather_S50000x4x16_S800000x1_S800000x4x16_12_0_n_n_0_1_1416_wf : GatherDims.WF S50000x4x16 S800000x1 S800000x4x16 [1, 2] [0] [] [0] [] 1 ![1, 4, 16]
  scatter_S50000x4x16_S800000x1_S800000x4x16_12_0_0_1_wf : ScatterDims.WF S50000x4x16 S800000x1 S800000x4x16 [1, 2] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def gather_S50000x4x16_S800000x1_S800000x4x16_12_0_n_n_0_1_1416 : GatherDims S50000x4x16 S800000x1 S800000x4x16 where
  offsetDims := [1, 2]
  collapsedSliceDims := [0]
  operandBatchingDims := []
  startIndicesBatchingDims := []
  startIndexMap := [0]
  indexVectorDim := 1
  sliceSizes := ![1, 4, 16]
  wf := gather_S50000x4x16_S800000x1_S800000x4x16_12_0_n_n_0_1_1416_wf
def scatter_S50000x4x16_S800000x1_S800000x4x16_12_0_0_1 : ScatterDims S50000x4x16 S800000x1 S800000x4x16 where
  updateWindowDims := [1, 2]
  insertedWindowDims := [0]
  scatterDimsToOperandDims := [0]
  indexVectorDim := 1
  wf := scatter_S50000x4x16_S800000x1_S800000x4x16_12_0_0_1_wf

class Facts : Prop extends Facts₀ where

variable [Facts]
-- ==== Proof.GatSpec.lean ====
/-
  The mathematics both programs compute: one graph-attention layer over 50000 nodes, 800000 edges, 4 heads of 16 lanes.

  A node's features x[n, .] are projected twice, x W (the messages' source) and x Wr (the residual). Lane c of a
  projected row belongs to head c / 16. A node's logit for head hd against an attention vector a is the sum over the
  head's 16 lanes of the projected row times a. An edge e from node s to node t has, per head, the score
  leaky (logit_l s + logit_r t); the four scores are normalised by a softmax ACROSS THE HEADS (shifted by their maximum),
  and the edge's message on lane c is the source's projected lane times the weight of lane c's head. A node's result is
  the sum of the messages of the edges that END at it, plus its residual projection.

  An edge's endpoint is a 32-bit word read signed; the row it reads is that integer clamped into the table.
-/
import Idealize.ShloMosaic.PureOps.Ideal
import Idealize.ShloMosaic.Lib.ValueIdx

noncomputable section

open scoped BigOperators

namespace Cert.Gat

open Idealize.ShloMosaic Idealize.ShloMosaic.ValueIdx

abbrev SN64 : Shape := ⟨2, ![50000, 64]⟩
abbrev SN4 : Shape := ⟨2, ![50000, 4]⟩
abbrev SW : Shape := ⟨2, ![64, 64]⟩
abbrev SA : Shape := ⟨3, ![1, 4, 16]⟩
abbrev SE : Shape := ⟨1, ![800000]⟩
abbrev SE4 : Shape := ⟨2, ![800000, 4]⟩
abbrev SE64 : Shape := ⟨2, ![800000, 64]⟩
abbrev SL : Shape := ⟨2, ![64, 4]⟩
abbrev SR : Shape := ⟨2, ![4, 64]⟩
abbrev SO : Shape := ⟨3, ![50000, 4, 16]⟩

/-- Lane 16 hd + d: lane d of head hd. -/
def lane (hd : Fin 4) (d : Fin 16) : Fin 64 := ⟨16 * hd.val + d.val, by omega⟩
/-- The head a lane belongs to. -/
def headOf (c : Fin 64) : Fin 4 := ⟨c.val / 16, by omega⟩
/-- A lane's position inside its head. -/
def dimOf (c : Fin 64) : Fin 16 := ⟨c.val % 16, by omega⟩

theorem headOf_lane (hd : Fin 4) (d : Fin 16) : headOf (lane hd d) = hd := by
  apply Fin.ext; simp only [headOf, lane]; omega
theorem dimOf_lane (hd : Fin 4) (d : Fin 16) : dimOf (lane hd d) = d := by
  apply Fin.ext; simp only [dimOf, lane]; omega
theorem lane_head_dim (c : Fin 64) : lane (headOf c) (dimOf c) = c := by
  apply Fin.ext; simp only [headOf, dimOf, lane]; omega

/-- The table row an endpoint word reads: the word as a signed integer, clamped into [0, 49999]. -/
def node (v : BitVec 32) : Fin 50000 := ⟨min v.toInt.toNat 49999, by omega⟩

/-- An endpoint word that names a node. -/
def InRange (v : BitVec 32) : Prop := 0 ≤ v.toInt ∧ v.toInt < 50000

/-- The negative slope of the leaky rectifier, as the f32 word both programs carry. -/
def slope : EReal := Ideal.ofBits .f32 0x3E4CCCCD#32
/-- The word of minus infinity that both maxima start from. -/
def negInf : EReal := Ideal.ofBits .f32 0xFF800000#32

/-- The projection x W at node n, lane c. -/
def proj (x : SN64.Idx → EReal) (W : SW.Idx → EReal) (n : Fin 50000) (c : Fin 64) : EReal :=
  ∑ k : Fin 64, x (ix2 n k) * W (ix2 k c)

/-- Node n's logit for head hd against the attention vector a. -/
def logit (x : SN64.Idx → EReal) (W : SW.Idx → EReal) (a : SA.Idx → EReal) (n : Fin 50000) (hd : Fin 4) : EReal :=
  ∑ d : Fin 16, proj x W n (lane hd d) * a (ix3 (0 : Fin 1) hd d)

/-- The leaky rectifier. -/
def leaky (s : EReal) : EReal := if 0 < s then s else slope * s

/-- The largest of four scores, from minus infinity. -/
def rowMax (v : Fin 4 → EReal) : EReal := (Finset.univ : Finset (Fin 4)).fold max negInf v

/-- The softmax over the four heads, shifted by the largest score. -/
def attn (v : Fin 4 → EReal) (hd : Fin 4) : EReal :=
  Ideal.div (Ideal.exp (v hd - rowMax v)) (∑ h' : Fin 4, Ideal.exp (v h' - rowMax v))

/-- Edge e's score for head hd. -/
def score (x : SN64.Idx → EReal) (W : SW.Idx → EReal) (al ar : SA.Idx → EReal) (src dst : SE.Idx → BitVec 32)
    (e : Fin 800000) (hd : Fin 4) : EReal :=
  leaky (logit x W al (node (src (ix1 e))) hd + logit x W ar (node (dst (ix1 e))) hd)

/-- Edge e's message on lane c. -/
def msg (x : SN64.Idx → EReal) (W : SW.Idx → EReal) (al ar : SA.Idx → EReal) (src dst : SE.Idx → BitVec 32)
    (e : Fin 800000) (c : Fin 64) : EReal :=
  proj x W (node (src (ix1 e))) c * attn (score x W al ar src dst e) (headOf c)

/-- Node n's result on lane c: the messages of the edges ending at n, plus the residual projection. -/
def out (x : SN64.Idx → EReal) (src dst : SE.Idx → BitVec 32) (W : SW.Idx → EReal) (al ar : SA.Idx → EReal)
    (Wr : SW.Idx → EReal) (n : Fin 50000) (c : Fin 64) : EReal :=
  (∑ e ∈ Finset.univ.filter (fun e : Fin 800000 => (dst (ix1 e)).toInt = (n.val : ℤ)), msg x W al ar src dst e c)
    + proj x Wr n c

/-- The layer's result, as the array [50000, 4, 16] both programs return. -/
def G (x : SN64.Idx → EReal) (src dst : SE.Idx → BitVec 32) (W : SW.Idx → EReal) (al ar : SA.Idx → EReal)
    (Wr : SW.Idx → EReal) : SO.Idx → EReal :=
  fun i => out x src dst W al ar Wr ⟨(i 0).val, (i 0).isLt⟩ (lane ⟨(i 1).val, (i 1).isLt⟩ ⟨(i 2).val, (i 2).isLt⟩)

theorem G_ix3 (x : SN64.Idx → EReal) (src dst : SE.Idx → BitVec 32) (W : SW.Idx → EReal) (al ar : SA.Idx → EReal)
    (Wr : SW.Idx → EReal) (n : Fin 50000) (hd : Fin 4) (d : Fin 16) :
    G x src dst W al ar Wr (ix3 n hd d) = out x src dst W al ar Wr n (lane hd d) := rfl

/-- An in-range endpoint reads its own row. -/
theorem node_of_inRange {v : BitVec 32} (h : InRange v) : (node v).val = v.toInt.toNat := by
  obtain ⟨h0, h1⟩ := h
  simp only [node]; omega

/-- Whether lane c belongs to head hd, as a number. -/
def onehot (c : Fin 64) (hd : Fin 4) : EReal := if headOf c = hd then 1 else 0

/-- The matrix [64, 4] that carries an attention vector's lane c in the column of c's head, zero in the other columns. -/
def selMat (a : SA.Idx → EReal) : SL.Idx → EReal :=
  fun j => onehot ⟨(j 0).val, (j 0).isLt⟩ ⟨(j 1).val, (j 1).isLt⟩
    * a (ix3 (0 : Fin 1) (headOf ⟨(j 0).val, (j 0).isLt⟩) (dimOf ⟨(j 0).val, (j 0).isLt⟩))

theorem selMat_ix2 (a : SA.Idx → EReal) (c : Fin 64) (hd : Fin 4) :
    selMat a (ix2 c hd) = onehot c hd * a (ix3 (0 : Fin 1) (headOf c) (dimOf c)) := rfl

/-- The matrix [4, 64] that repeats a head's weight over the head's lanes. -/
def repMat : SR.Idx → EReal := fun j => onehot ⟨(j 1).val, (j 1).isLt⟩ ⟨(j 0).val, (j 0).isLt⟩

theorem repMat_ix2 (hd : Fin 4) (c : Fin 64) : repMat (ix2 hd c) = onehot c hd := rfl

/-- The projection as an array [50000, 64]. -/
def projArr (x : SN64.Idx → EReal) (W : SW.Idx → EReal) : SN64.Idx → EReal :=
  fun i => proj x W ⟨(i 0).val, (i 0).isLt⟩ ⟨(i 1).val, (i 1).isLt⟩

theorem projArr_ix2 (x : SN64.Idx → EReal) (W : SW.Idx → EReal) (n : Fin 50000) (c : Fin 64) :
    projArr x W (ix2 n c) = proj x W n c := rfl

/-- A [50000, 64] array times a [64, 4] matrix: per node and head, the sum over all 64 lanes. -/
def headSum (f : SN64.Idx → EReal) (L : SL.Idx → EReal) : SN4.Idx → EReal :=
  fun i => ∑ cc : Fin 64, f (ix2 ⟨(i 0).val, (i 0).isLt⟩ cc) * L (ix2 cc ⟨(i 1).val, (i 1).isLt⟩)

theorem headSum_ix2 (f : SN64.Idx → EReal) (L : SL.Idx → EReal) (n : Fin 50000) (hd : Fin 4) :
    headSum f L (ix2 n hd) = ∑ cc : Fin 64, f (ix2 n cc) * L (ix2 cc hd) := rfl

end Cert.Gat

end
-- ==== Proof.KHostA.lean ====
/- The host operations before the first kernel launch: the one-hot head-selection matrices. -/
import proofs.«405722_j15779709845542_2_alg».proof.Proof.Gen.KernelIdeal.Launch
import proofs.«405722_j15779709845542_2_alg».proof.Proof.GatSpec
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout

noncomputable section

namespace Cert.KernelIdeal.HostA

open Idealize.ShloMosaic Idealize.ShloMosaic.TcCoe Idealize.ShloMosaic.ValueIdx Idealize.SL.Sem
open Cert.KernelIdeal Cert.KernelIdeal.Gen

/-- The buffer contents after the three stretches of host operations that precede the first launch. -/
abbrev afterA (W : Valuation τ sig (Elt Ideal)) : Valuation τ sig (Elt Ideal) :=
  StableHlo.after (hostOps0_2 (F := Ideal)) (StableHlo.after (hostOps0_1 (F := Ideal)) (StableHlo.after (hostOps0 (F := Ideal)) W))

/-! ## The integer part: floor division of the lane number by sixteen -/

/-- The sign of a 32-bit word, as a word: 0, 1 or -1. -/
def sgnW (x : BitVec 32) : BitVec 32 := if x = 0 then 0 else if x.msb then -1 else 1

/-- Floor division of x by y on one lane, as the seventeen word operations compute it: the quotient rounded toward
    zero, lowered by one when the signs differ and the remainder is not zero. -/
def floorDivW (x y : BitVec 32) : BitVec 32 :=
  Scalar.select
    (IntOp.andi (IntOp.cmpi .ne (sgnW x) (sgnW y)) (IntOp.cmpi .ne (IntOp.remsi .host x y) 0#32))
    (IntOp.subi (IntOp.divsi .host x y) 1#32) (IntOp.divsi .host x y)

/-- On a lane number below 64 the divisor sixteen gives the natural quotient: the signs agree, so nothing is lowered. -/
theorem floorDivW_lane : ∀ c : Fin 64, floorDivW (BitVec.ofNat 32 c.val) 16#32 = BitVec.ofNat 32 (c.val / 16) := by
  decide

/-- The same seventeen operations on whole vectors: x of 64 lanes, the divisor a scalar k. -/
def floorDivVec (x : S64.Idx → BitVec 32) (k : S_.Idx → BitVec 32) : S64.Idx → BitVec 32 :=
  select
    (andi (cmpi .ne (signi x) (broadcastInDim S64 ![] bcast_S_S64 (signi k)))
      (cmpi .ne (Host.remsi x (broadcastInDim S64 ![] bcast_S_S64 k)) (broadcastInDim S64 ![] bcast_S_S64 (constantI S_ 32 0#32))))
    (subi (Host.divsi x (broadcastInDim S64 ![] bcast_S_S64 k)) (broadcastInDim S64 ![] bcast_S_S64 (constantI S_ 32 1#32)))
    (Host.divsi x (broadcastInDim S64 ![] bcast_S_S64 k))

/-- A lane of the vector form is the scalar form of that lane. -/
theorem floorDivVec_apply (x : S64.Idx → BitVec 32) (k : S_.Idx → BitVec 32) (c : Fin 64) :
    floorDivVec x k (ix1 c) = floorDivW (x (ix1 c)) (k ix0) := by
  have e : ∀ (f : S_.Idx → BitVec 32) (j : S64.Idx), broadcastInDim S64 ![] bcast_S_S64 f j = f ix0 :=
    fun f j => broadcastInDim_scalar_apply bcast_S_S64 f j
  simp only [floorDivVec, floorDivW, select, andi, cmpi, subi, signi, Host.divsi, Host.remsi, e, constantI, sgnW]

/-- The first stretch leaves the iota of the 64 lanes in its buffer. -/
theorem after0_v0 (W : Valuation τ sig (Elt Ideal)) :
    (StableHlo.after (hostOps0 (F := Ideal)) W (Proc.devRef .tc main_v0) : S64.Idx → BitVec 32) = iotaInDim S64 32 0 := by
  after_results

/-- The first stretch leaves the constant sixteen in its buffer. -/
theorem after0_c (W : Valuation τ sig (Elt Ideal)) :
    (StableHlo.after (hostOps0 (F := Ideal)) W (Proc.devRef .tc main_c) : S_.Idx → BitVec 32) = constantI S_ 32 16#32 := by
  after_results

/-- The second stretch computes the floor division of the one buffer by the other. -/
theorem after1_v1 (W1 : Valuation τ sig (Elt Ideal)) :
    (StableHlo.after (hostOps0_1 (F := Ideal)) W1 (Proc.devRef .tc main_v1) : S64.Idx → BitVec 32)
      = floorDivVec (W1 (Proc.devRef .tc main_v0)) (W1 (Proc.devRef .tc main_c)) := by
  after_results_simp
  rfl

/-- After the first two stretches lane c of the quotient buffer holds c / 16. -/
theorem after01_v1 (W : Valuation τ sig (Elt Ideal)) (c : Fin 64) :
    (StableHlo.after (hostOps0_1 (F := Ideal)) (StableHlo.after (hostOps0 (F := Ideal)) W) (Proc.devRef .tc main_v1) : S64.Idx → BitVec 32) (ix1 c)
      = BitVec.ofNat 32 (c.val / 16) := by
  rw [after1_v1, after0_v0, after0_c, floorDivVec_apply]
  exact floorDivW_lane c

/-! ## The third stretch: the head mask, the two selection matrices and the repeat matrix -/

/-- The mask [64, 4] as the third stretch builds it from the quotient buffer q: the quotient spread along the columns
    is compared with the column number, and the bit is read as a number. -/
def maskF (q : S64.Idx → BitVec 32) : S64x4.Idx → EReal :=
  uitofp (F := Ideal) .f32
    (cmpi .eq
      (broadcastInDim S64x4 ![0, 1] bcast_S64x1_S64x4_0_1 (broadcastInDim S64x1 ![0] bcast_S64_S64x1_0 q))
      (broadcastInDim S64x4 ![0, 1] bcast_S1x4_S64x4_0_1 (broadcastInDim S1x4 ![1] bcast_S4_S1x4_1 (iotaInDim S4 32 0))))

/-- An attention vector [1, 4, 16] laid out as 64 lanes, spread along the columns and multiplied by the mask. -/
def selF (q : S64.Idx → BitVec 32) (a : S1x4x16.Idx → EReal) : S64x4.Idx → EReal :=
  mulf (F := Ideal) (φ := .f32) (maskF q)
    (broadcastInDim S64x4 ![0, 1] bcast_S64x1_S64x4_0_1
      (broadcastInDim S64x1 ![0] bcast_S64_S64x1_0 (shapeCast S64 a shapeCasts_S1x4x16_S64)))

/-- The mask transposed. -/
def repF (q : S64.Idx → BitVec 32) : S4x64.Idx → EReal :=
  transpose S4x64 [1, 0] (maskF q) transposes_S64x4_S4x64_1_0

theorem after2_v12 (W2 : Valuation τ sig (Elt Ideal)) :
    (StableHlo.after (hostOps0_2 (F := Ideal)) W2 (Proc.devRef .tc main_v12) : S64x4.Idx → EReal)
      = selF (W2 (Proc.devRef .tc main_v1)) (W2 (Proc.devRef .tc main_arg4)) := by
  after_results_simp
  rfl

theorem after2_v16 (W2 : Valuation τ sig (Elt Ideal)) :
    (StableHlo.after (hostOps0_2 (F := Ideal)) W2 (Proc.devRef .tc main_v16) : S64x4.Idx → EReal)
      = selF (W2 (Proc.devRef .tc main_v1)) (W2 (Proc.devRef .tc main_arg5)) := by
  after_results_simp
  rfl

theorem after2_v17 (W2 : Valuation τ sig (Elt Ideal)) :
    (StableHlo.after (hostOps0_2 (F := Ideal)) W2 (Proc.devRef .tc main_v17) : S4x64.Idx → EReal)
      = repF (W2 (Proc.devRef .tc main_v1)) := by
  after_results_simp
  rfl

/-! ## The third stretch read at an entry -/

/-- A vector of 64 lanes spread along the four columns reads its lane c at (c, hd). -/
theorem spread_apply {α : Type} (x : S64.Idx → α) (c : Fin 64) (hd : Fin 4) :
    broadcastInDim S64x4 ![0, 1] bcast_S64x1_S64x4_0_1 (broadcastInDim S64x1 ![0] bcast_S64_S64x1_0 x) (ix2 c hd) = x (ix1 c) := by
  rw [broadcastInDim_apply ![0, 1] bcast_S64x1_S64x4_0_1 _ (ix2 c hd) (ix2 c (0 : Fin 1))
    (fun a => match a with | ⟨0, _⟩ => rfl | ⟨1, _⟩ => rfl)]
  exact broadcastInDim_apply ![0] bcast_S64_S64x1_0 x (ix2 c (0 : Fin 1)) (ix1 c) (fun a => match a with | ⟨0, _⟩ => rfl)

/-- The column numbers spread down the 64 rows read the column number hd at (c, hd). -/
theorem cols_apply (c : Fin 64) (hd : Fin 4) :
    broadcastInDim S64x4 ![0, 1] bcast_S1x4_S64x4_0_1 (broadcastInDim S1x4 ![1] bcast_S4_S1x4_1 (iotaInDim S4 32 0)) (ix2 c hd)
      = BitVec.ofNat 32 hd.val := by
  rw [broadcastInDim_apply ![0, 1] bcast_S1x4_S64x4_0_1 _ (ix2 c hd) (ix2 (0 : Fin 1) hd)
    (fun a => match a with | ⟨0, _⟩ => rfl | ⟨1, _⟩ => rfl)]
  exact broadcastInDim_apply ![1] bcast_S4_S1x4_1 (iotaInDim S4 32 0) (ix2 (0 : Fin 1) hd) (ix1 hd) (fun a => match a with | ⟨0, _⟩ => rfl)

/-- The attention vector [1, 4, 16] laid out as 64 lanes reads, at lane c, its entry (0, c / 16, c % 16). -/
theorem lanes_apply (a : S1x4x16.Idx → EReal) (c : Fin 64) :
    shapeCast S64 a shapeCasts_S1x4x16_S64 (ix1 c) = a (ix3 (0 : Fin 1) (Cert.Gat.headOf c) (Cert.Gat.dimOf c)) :=
  shapeCast_apply a shapeCasts_S1x4x16_S64 (ix1 c) (ix3 (0 : Fin 1) (Cert.Gat.headOf c) (Cert.Gat.dimOf c)) (by
    rw [Shape.rowMajor_val_three, Shape.rowMajor_val_one]
    show (0 * 4 + c.val / 16) * 16 + c.val % 16 = c.val
    omega)

/-- The mask at (c, hd): the bit of "the quotient at lane c is hd", as a number. -/
theorem maskF_apply (q : S64.Idx → BitVec 32) (c : Fin 64) (hd : Fin 4) :
    maskF q (ix2 c hd) = (((IntOp.cmpi .eq (q (ix1 c)) (BitVec.ofNat 32 hd.val)).toNat : ℝ) : EReal) := by
  simp only [maskF, uitofp, cmpi]
  rw [spread_apply, cols_apply]
  rfl

/-- The bit of "c / 16 is hd" as a number is the one-hot entry. -/
theorem bit_onehot (c : Fin 64) (hd : Fin 4) :
    (((IntOp.cmpi .eq (BitVec.ofNat 32 (c.val / 16)) (BitVec.ofNat 32 hd.val)).toNat : ℝ) : EReal) = Cert.Gat.onehot c hd := by
  unfold Cert.Gat.onehot
  by_cases h : Cert.Gat.headOf c = hd
  · have hw : BitVec.ofNat 32 (c.val / 16) = BitVec.ofNat 32 hd.val := by rw [← h]; rfl
    rw [if_pos h, hw]
    simp [IntOp.cmpi]
  · have hw : BitVec.ofNat 32 (c.val / 16) ≠ BitVec.ofNat 32 hd.val := by
      intro he
      apply h
      apply Fin.ext
      have hn := congrArg BitVec.toNat he
      simp only [BitVec.toNat_ofNat] at hn
      have h1 := c.isLt
      have h2 := hd.isLt
      show c.val / 16 = hd.val
      omega
    rw [if_neg h]
    simp [IntOp.cmpi, hw]

theorem selF_apply (q : S64.Idx → BitVec 32) (a : S1x4x16.Idx → EReal) (c : Fin 64) (hd : Fin 4) :
    selF q a (ix2 c hd)
      = (((IntOp.cmpi .eq (q (ix1 c)) (BitVec.ofNat 32 hd.val)).toNat : ℝ) : EReal)
          * a (ix3 (0 : Fin 1) (Cert.Gat.headOf c) (Cert.Gat.dimOf c)) := by
  unfold selF
  rw [mulf_apply, maskF_apply, spread_apply, lanes_apply]

theorem repF_apply (q : S64.Idx → BitVec 32) (hd : Fin 4) (c : Fin 64) :
    repF q (ix2 hd c) = (((IntOp.cmpi .eq (q (ix1 c)) (BitVec.ofNat 32 hd.val)).toNat : ℝ) : EReal) := by
  unfold repF
  rw [transpose_ix2_apply, maskF_apply]

/-! ## The buffers the stretches keep -/

/-- The first two stretches write no argument of the program. -/
theorem after01_kept (W : Valuation τ sig (Elt Ideal)) (r : Ref sig .tc)
    (h0 : ∀ op ∈ (hostOps0 (F := Ideal)), (Proc.devRef .tc r : DevRef τ sig) ∉ op.writes)
    (h1 : ∀ op ∈ (hostOps0_1 (F := Ideal)), (Proc.devRef .tc r : DevRef τ sig) ∉ op.writes) :
    StableHlo.after (hostOps0_1 (F := Ideal)) (StableHlo.after (hostOps0 (F := Ideal)) W) (Proc.devRef .tc r) = W (Proc.devRef .tc r) := by
  rw [StableHlo.after_of_forall_not_mem _ _ h1, StableHlo.after_of_forall_not_mem _ _ h0]

theorem after01_arg4 (W : Valuation τ sig (Elt Ideal)) :
    StableHlo.after (hostOps0_1 (F := Ideal)) (StableHlo.after (hostOps0 (F := Ideal)) W) (Proc.devRef .tc main_arg4) = W (Proc.devRef .tc main_arg4) :=
  after01_kept W main_arg4 (List.forall_iff_forall_mem.mp (by
        simp only [hostOps0, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_1, List.Forall, StableHlo.nullary_writes, StableHlo.unary_writes, StableHlo.binary_writes,
          StableHlo.ternary_writes, StableHlo.reshape_writes, Finset.mem_singleton]
        repeat' apply And.intro
        all_goals exact StableHlo.devRef_ne_of_ne (by decide)))

theorem after01_arg5 (W : Valuation τ sig (Elt Ideal)) :
    StableHlo.after (hostOps0_1 (F := Ideal)) (StableHlo.after (hostOps0 (F := Ideal)) W) (Proc.devRef .tc main_arg5) = W (Proc.devRef .tc main_arg5) :=
  after01_kept W main_arg5 (List.forall_iff_forall_mem.mp (by
        simp only [hostOps0, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_1, List.Forall, StableHlo.nullary_writes, StableHlo.unary_writes, StableHlo.binary_writes,
          StableHlo.ternary_writes, StableHlo.reshape_writes, Finset.mem_singleton]
        repeat' apply And.intro
        all_goals exact StableHlo.devRef_ne_of_ne (by decide)))

/-! ## The three results -/

theorem afterA_v12 (W : Valuation τ sig (Elt Ideal)) :
    (afterA W (Proc.devRef .tc main_v12) : S64x4.Idx → EReal) = Cert.Gat.selMat (W (Proc.devRef .tc main_arg4) : S1x4x16.Idx → EReal) := by
  funext j
  obtain ⟨c, hd, rfl⟩ : ∃ (c : Fin 64) (hd : Fin 4), j = ix2 c hd := ⟨j 0, j 1, eq_ix2 j⟩
  rw [Cert.Gat.selMat_ix2]
  refine (congrFun (after2_v12 _) (ix2 c hd)).trans ?_
  rw [selF_apply, after01_v1, after01_arg4, bit_onehot]

theorem afterA_v16 (W : Valuation τ sig (Elt Ideal)) :
    (afterA W (Proc.devRef .tc main_v16) : S64x4.Idx → EReal) = Cert.Gat.selMat (W (Proc.devRef .tc main_arg5) : S1x4x16.Idx → EReal) := by
  funext j
  obtain ⟨c, hd, rfl⟩ : ∃ (c : Fin 64) (hd : Fin 4), j = ix2 c hd := ⟨j 0, j 1, eq_ix2 j⟩
  rw [Cert.Gat.selMat_ix2]
  refine (congrFun (after2_v16 _) (ix2 c hd)).trans ?_
  rw [selF_apply, after01_v1, after01_arg5, bit_onehot]

theorem afterA_v17 (W : Valuation τ sig (Elt Ideal)) :
    (afterA W (Proc.devRef .tc main_v17) : S4x64.Idx → EReal) = Cert.Gat.repMat := by
  funext j
  obtain ⟨hd, c, rfl⟩ : ∃ (hd : Fin 4) (c : Fin 64), j = ix2 hd c := ⟨j 0, j 1, eq_ix2 j⟩
  rw [Cert.Gat.repMat_ix2]
  refine (congrFun (after2_v17 _) (ix2 hd c)).trans ?_
  rw [repF_apply, after01_v1, bit_onehot]

/-- A buffer that no operation of the three stretches writes keeps its contents. -/
theorem afterA_kept (W : Valuation τ sig (Elt Ideal)) (r : Ref sig .tc)
    (h0 : ∀ op ∈ (hostOps0 (F := Ideal)), (Proc.devRef .tc r : DevRef τ sig) ∉ op.writes)
    (h1 : ∀ op ∈ (hostOps0_1 (F := Ideal)), (Proc.devRef .tc r : DevRef τ sig) ∉ op.writes)
    (h2 : ∀ op ∈ (hostOps0_2 (F := Ideal)), (Proc.devRef .tc r : DevRef τ sig) ∉ op.writes) :
    afterA W (Proc.devRef .tc r) = W (Proc.devRef .tc r) := by
  unfold afterA
  rw [StableHlo.after_of_forall_not_mem _ _ h2, StableHlo.after_of_forall_not_mem _ _ h1, StableHlo.after_of_forall_not_mem _ _ h0]

/-- The stretches write none of the program's arguments. -/
theorem afterA_arg0 (W : Valuation τ sig (Elt Ideal)) : afterA W (Proc.devRef .tc main_arg0) = W (Proc.devRef .tc main_arg0) :=
  afterA_kept W main_arg0 (List.forall_iff_forall_mem.mp (by
        simp only [hostOps0, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_1, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_2, List.Forall, StableHlo.nullary_writes, StableHlo.unary_writes, StableHlo.binary_writes,
          StableHlo.ternary_writes, StableHlo.reshape_writes, Finset.mem_singleton]
        repeat' apply And.intro
        all_goals exact StableHlo.devRef_ne_of_ne (by decide)))
theorem afterA_arg1 (W : Valuation τ sig (Elt Ideal)) : afterA W (Proc.devRef .tc main_arg1) = W (Proc.devRef .tc main_arg1) :=
  afterA_kept W main_arg1 (List.forall_iff_forall_mem.mp (by
        simp only [hostOps0, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_1, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_2, List.Forall, StableHlo.nullary_writes, StableHlo.unary_writes, StableHlo.binary_writes,
          StableHlo.ternary_writes, StableHlo.reshape_writes, Finset.mem_singleton]
        repeat' apply And.intro
        all_goals exact StableHlo.devRef_ne_of_ne (by decide)))
theorem afterA_arg2 (W : Valuation τ sig (Elt Ideal)) : afterA W (Proc.devRef .tc main_arg2) = W (Proc.devRef .tc main_arg2) :=
  afterA_kept W main_arg2 (List.forall_iff_forall_mem.mp (by
        simp only [hostOps0, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_1, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_2, List.Forall, StableHlo.nullary_writes, StableHlo.unary_writes, StableHlo.binary_writes,
          StableHlo.ternary_writes, StableHlo.reshape_writes, Finset.mem_singleton]
        repeat' apply And.intro
        all_goals exact StableHlo.devRef_ne_of_ne (by decide)))
theorem afterA_arg3 (W : Valuation τ sig (Elt Ideal)) : afterA W (Proc.devRef .tc main_arg3) = W (Proc.devRef .tc main_arg3) :=
  afterA_kept W main_arg3 (List.forall_iff_forall_mem.mp (by
        simp only [hostOps0, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_1, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_2, List.Forall, StableHlo.nullary_writes, StableHlo.unary_writes, StableHlo.binary_writes,
          StableHlo.ternary_writes, StableHlo.reshape_writes, Finset.mem_singleton]
        repeat' apply And.intro
        all_goals exact StableHlo.devRef_ne_of_ne (by decide)))
theorem afterA_arg6 (W : Valuation τ sig (Elt Ideal)) : afterA W (Proc.devRef .tc main_arg6) = W (Proc.devRef .tc main_arg6) :=
  afterA_kept W main_arg6 (List.forall_iff_forall_mem.mp (by
        simp only [hostOps0, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_1, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))) (List.forall_iff_forall_mem.mp (by
        simp only [hostOps0_2, List.Forall, StableHlo.nullary_writes, StableHlo.unary_writes, StableHlo.binary_writes,
          StableHlo.ternary_writes, StableHlo.reshape_writes, Finset.mem_singleton]
        repeat' apply And.intro
        all_goals exact StableHlo.devRef_ne_of_ne (by decide)))

end Cert.KernelIdeal.HostA

end
-- ==== Proof.KRegion0.lean ====
/- The first launch (node kernel), read as values: what each output array holds once every grid point has been flushed. -/
import proofs.«405722_j15779709845542_2_alg».proof.Proof.Gen.KernelIdeal.Frame
import proofs.«405722_j15779709845542_2_alg».proof.Proof.GatSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen

/-! ## The two products at an index -/

theorem lhsW_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem lhsW_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhsW_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhsW_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

theorem lhsL_0 (i : S2000x4.Idx) (q : dot_S2000x64_S64x4_S2000x4_1_0_0_1_n_n.contr.Idx) :
    (dot_S2000x64_S64x4_S2000x4_1_0_0_1_n_n.lhsIdx i q 0).val = (i 0).val := by
  unfold DotDims.lhsIdx
  rw [dif_neg (show ¬(0 : Fin S2000x64.rank) ∈ dot_S2000x64_S64x4_S2000x4_1_0_0_1_n_n.lhsBatch by decide),
    dif_pos (show (0 : Fin S2000x64.rank) ∈ dot_S2000x64_S64x4_S2000x4_1_0_0_1_n_n.lhsNonContracting by decide)]
  rfl
theorem lhsL_1 (i : S2000x4.Idx) (q : dot_S2000x64_S64x4_S2000x4_1_0_0_1_n_n.contr.Idx) :
    (dot_S2000x64_S64x4_S2000x4_1_0_0_1_n_n.lhsIdx i q 1).val = (q ⟨0, by decide⟩).val :=
  dot_S2000x64_S64x4_S2000x4_1_0_0_1_n_n.lhsIdx_val_of_single rfl i q
theorem rhsL_0 (i : S2000x4.Idx) (q : dot_S2000x64_S64x4_S2000x4_1_0_0_1_n_n.contr.Idx) :
    (dot_S2000x64_S64x4_S2000x4_1_0_0_1_n_n.rhsIdx i q 0).val = (q ⟨0, by decide⟩).val :=
  dot_S2000x64_S64x4_S2000x4_1_0_0_1_n_n.rhsIdx_val_of_single rfl i q
theorem rhsL_1 (i : S2000x4.Idx) (q : dot_S2000x64_S64x4_S2000x4_1_0_0_1_n_n.contr.Idx) :
    (dot_S2000x64_S64x4_S2000x4_1_0_0_1_n_n.rhsIdx i q 1).val = (i 1).val := by
  unfold DotDims.rhsIdx
  rw [dif_neg (show ¬(1 : Fin S64x4.rank) ∈ dot_S2000x64_S64x4_S2000x4_1_0_0_1_n_n.rhsBatch by decide),
    dif_pos (show (1 : Fin S64x4.rank) ∈ dot_S2000x64_S64x4_S2000x4_1_0_0_1_n_n.rhsNonContracting by decide)]
  rfl

/-- The product into a zero accumulator at row p, column q: the sum over the 64 contracted lanes. -/
theorem prodW_apply (a : FVec Ideal S2000x64 .bf16) (b : FVec Ideal S64x64 .bf16) (p : Fin 2000) (q : Fin 64) :
    FloatOps.matmul dot_S2000x64_S64x64_S2000x64_1_0_0_1_n_n none a b (constant (F := Ideal) S2000x64 .f32 0x00000000#32) (ix2 p q)
      = ∑ k : Fin 64, a (ix2 p k) * b (ix2 k q) := by
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhsW_0 _ _
    | ⟨1, _⟩ => exact (lhsW_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhsW_0 _ _).trans hk
    | ⟨1, _⟩ => exact rhsW_1 _ _)
  rw [el, er]

/-- The product into a zero accumulator at row p, column q: the sum over the 64 contracted lanes. -/
theorem prodL_apply (a : FVec Ideal S2000x64 .bf16) (b : FVec Ideal S64x4 .bf16) (p : Fin 2000) (q : Fin 4) :
    FloatOps.matmul dot_S2000x64_S64x4_S2000x4_1_0_0_1_n_n none a b (constant (F := Ideal) S2000x4 .f32 0x00000000#32) (ix2 p q)
      = ∑ k : Fin 64, a (ix2 p k) * b (ix2 k q) := by
  rw [Ideal.matmul_constant_zero_apply, ← Equiv.sum_comp (contrEquiv1 dot_S2000x64_S64x4_S2000x4_1_0_0_1_n_n 64 rfl rfl).symm]
  refine Finset.sum_congr rfl fun k _ => ?_
  have hk := contrEquiv1_symm_val dot_S2000x64_S64x4_S2000x4_1_0_0_1_n_n 64 rfl rfl k
  have el : dot_S2000x64_S64x4_S2000x4_1_0_0_1_n_n.lhsIdx (ix2 p q) ((contrEquiv1 dot_S2000x64_S64x4_S2000x4_1_0_0_1_n_n 64 rfl rfl).symm k) = ix2 p k := funext fun a => Fin.ext (by
    match a with
    | ⟨0, _⟩ => exact lhsL_0 _ _
    | ⟨1, _⟩ => exact (lhsL_1 _ _).trans hk)
  have er : dot_S2000x64_S64x4_S2000x4_1_0_0_1_n_n.rhsIdx (ix2 p q) ((contrEquiv1 dot_S2000x64_S64x4_S2000x4_1_0_0_1_n_n 64 rfl rfl).symm k) = ix2 k q := funext fun a => Fin.ext (by
    match a with
    | ⟨0, _⟩ => exact (rhsL_0 _ _).trans hk
    | ⟨1, _⟩ => exact rhsL_1 _ _)
  rw [el, er]

/-! ## The payloads at an index: a change of format is the identity, a cast to the same shape too -/

theorem pay2_apply (x0 : Vec Ideal S2000x64 .f32) (x1 : Vec Ideal S64x64 .f32) (p : Fin 2000) (q : Fin 64) :
    k0_pay2 x0 x1 (ix2 p q) = ∑ k : Fin 64, x0 (ix2 p k) * x1 (ix2 k q) := by
  unfold k0_pay2 k0_pay1
  exact prodW_apply _ _ p q

theorem pay3_apply (x0 : Vec Ideal S2000x64 .f32) (x2 : Vec Ideal S64x64 .f32) (p : Fin 2000) (q : Fin 64) :
    k0_pay3 x0 x2 (ix2 p q) = ∑ k : Fin 64, x0 (ix2 p k) * x2 (ix2 k q) := by
  unfold k0_pay3 k0_pay1
  exact prodW_apply _ _ p q

theorem pay5_apply (x0 : Vec Ideal S2000x64 .f32) (x1 : Vec Ideal S64x64 .f32) (x3 : Vec Ideal S64x4 .f32) (p : Fin 2000) (h : Fin 4) :
    k0_pay5 x0 x1 x3 (ix2 p h) = ∑ cc : Fin 64, k0_pay2 x0 x1 (ix2 p cc) * x3 (ix2 cc h) := by
  unfold k0_pay5 k0_pay4
  dsimp only
  rw [shapeCast_self]
  exact prodL_apply _ _ p h

theorem pay6_apply (x0 : Vec Ideal S2000x64 .f32) (x1 : Vec Ideal S64x64 .f32) (x4 : Vec Ideal S64x4 .f32) (p : Fin 2000) (h : Fin 4) :
    k0_pay6 x0 x1 x4 (ix2 p h) = ∑ cc : Fin 64, k0_pay2 x0 x1 (ix2 p cc) * x4 (ix2 cc h) := by
  unfold k0_pay6 k0_pay4
  dsimp only
  rw [shapeCast_self]
  exact prodL_apply _ _ p h

/-! ## The blocks of the input windows, read off the arrays -/

theorem hz : (![0, 0] : Fin 2 → Nat) = fun _ => 0 := funext fun a => by fin_cases a <;> rfl

theorem nPts : cfg0.N = 25 := rfl

/-- The windows' index maps over the 25 points: the row windows sit at block t, the whole windows at block 0. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

variable (V : (c : Dev nD) → (b : Ref sig .tc) → Buf (Elt Ideal) ((c : Thread nD τ).loc b))

/-- The node features, the two weight matrices and the two [64, 4] matrices, as the launch finds them. -/
abbrev xArr (c : Dev nD) : S50000x64.Idx → EReal := V c main_arg0
abbrev wArr (c : Dev nD) : S64x64.Idx → EReal := V c main_arg3
abbrev rArr (c : Dev nD) : S64x64.Idx → EReal := V c main_arg6
abbrev lArr (c : Dev nD) : S64x4.Idx → EReal := V c main_v12
abbrev eArr (c : Dev nD) : S64x4.Idx → EReal := V c main_v16

/-- Point t's block of each input window. -/
abbrev xBlk (c : Dev nD) (t : Fin cfg0.N) : Vec Ideal S2000x64 .f32 := iblk0 V c 0 t
abbrev wBlk (c : Dev nD) (t : Fin cfg0.N) : Vec Ideal S64x64 .f32 := iblk0 V c 1 t
abbrev rBlk (c : Dev nD) (t : Fin cfg0.N) : Vec Ideal S64x64 .f32 := iblk0 V c 2 t
abbrev lBlk (c : Dev nD) (t : Fin cfg0.N) : Vec Ideal S64x4 .f32 := iblk0 V c 3 t
abbrev eBlk (c : Dev nD) (t : Fin cfg0.N) : Vec Ideal S64x4 .f32 := iblk0 V c 4 t

/-- Row p of point t's feature block is row 2000 t + p of the array. -/
theorem xBlk_apply (c : Dev nD) (t : Fin cfg0.N) (p : Fin 2000) (k : Fin 64) (n : Fin 50000)
    (hn : n.val = t.val * 2000 + p.val) :
    xBlk V c t (ix2 p k) = xArr V c (ix2 n k) := by
  obtain ⟨⟨e0, e1⟩, -⟩ := idx_facts t
  show V c main_arg0 (((cfg0.win 0).blk t).view.emb (ix2 p k)) = V c main_arg0 (ix2 n k)
  congr 1
  funext a; apply Fin.ext
  match a with
  | ⟨0, _⟩ => show win0_0.index t (0 : Fin 2) * 2000 + 1 * p.val = n.val; rw [e0, hn]; omega
  | ⟨1, _⟩ => show win0_0.index t (1 : Fin 2) * 64 + 1 * k.val = k.val; rw [e1]; omega

theorem wBlk_eq (c : Dev nD) (t : Fin cfg0.N) : wBlk V c t = wArr V c := by
  obtain ⟨-, ⟨e0, e1⟩, -⟩ := idx_facts t
  funext j
  show V c main_arg3 (((cfg0.win 1).blk t).view.emb j) = V c main_arg3 j
  congr 1
  funext a; apply Fin.ext
  match a with
  | ⟨0, _⟩ => show win0_1.index t (0 : Fin 2) * 64 + 1 * (j 0).val = (j 0).val; rw [e0]; omega
  | ⟨1, _⟩ => show win0_1.index t (1 : Fin 2) * 64 + 1 * (j 1).val = (j 1).val; rw [e1]; omega

theorem rBlk_eq (c : Dev nD) (t : Fin cfg0.N) : rBlk V c t = rArr V c := by
  obtain ⟨-, -, ⟨e0, e1⟩, -⟩ := idx_facts t
  funext j
  show V c main_arg6 (((cfg0.win 2).blk t).view.emb j) = V c main_arg6 j
  congr 1
  funext a; apply Fin.ext
  match a with
  | ⟨0, _⟩ => show win0_2.index t (0 : Fin 2) * 64 + 1 * (j 0).val = (j 0).val; rw [e0]; omega
  | ⟨1, _⟩ => show win0_2.index t (1 : Fin 2) * 64 + 1 * (j 1).val = (j 1).val; rw [e1]; omega

theorem lBlk_eq (c : Dev nD) (t : Fin cfg0.N) : lBlk V c t = lArr V c := by
  obtain ⟨-, -, -, ⟨e0, e1⟩, -⟩ := idx_facts t
  funext j
  show V c main_v12 (((cfg0.win 3).blk t).view.emb j) = V c main_v12 j
  congr 1
  funext a; apply Fin.ext
  match a with
  | ⟨0, _⟩ => show win0_3.index t (0 : Fin 2) * 64 + 1 * (j 0).val = (j 0).val; rw [e0]; omega
  | ⟨1, _⟩ => show win0_3.index t (1 : Fin 2) * 4 + 1 * (j 1).val = (j 1).val; rw [e1]; omega

theorem eBlk_eq (c : Dev nD) (t : Fin cfg0.N) : eBlk V c t = eArr V c := by
  obtain ⟨-, -, -, -, ⟨e0, e1⟩, -⟩ := idx_facts t
  funext j
  show V c main_v16 (((cfg0.win 4).blk t).view.emb j) = V c main_v16 j
  congr 1
  funext a; apply Fin.ext
  match a with
  | ⟨0, _⟩ => show win0_4.index t (0 : Fin 2) * 64 + 1 * (j 0).val = (j 0).val; rw [e0]; omega
  | ⟨1, _⟩ => show win0_4.index t (1 : Fin 2) * 4 + 1 * (j 1).val = (j 1).val; rw [e1]; omega

/-! ## What a point's payloads hold: rows 2000 t … 2000 t + 1999 of the whole-array functions -/

theorem feat_point (c : Dev nD) (t : Fin cfg0.N) (p : Fin 2000) (q : Fin 64) (n : Fin 50000)
    (hn : n.val = t.val * 2000 + p.val) :
    k0_pay2 (xBlk V c t) (wBlk V c t) (ix2 p q) = Cert.Gat.projArr (xArr V c) (wArr V c) (ix2 n q) := by
  rw [pay2_apply, Cert.Gat.projArr_ix2, wBlk_eq]
  unfold Cert.Gat.proj
  exact Finset.sum_congr rfl fun k _ => by rw [xBlk_apply V c t p k n hn]

theorem res_point (c : Dev nD) (t : Fin cfg0.N) (p : Fin 2000) (q : Fin 64) (n : Fin 50000)
    (hn : n.val = t.val * 2000 + p.val) :
    k0_pay3 (xBlk V c t) (rBlk V c t) (ix2 p q) = Cert.Gat.projArr (xArr V c) (rArr V c) (ix2 n q) := by
  rw [pay3_apply, Cert.Gat.projArr_ix2, rBlk_eq]
  unfold Cert.Gat.proj
  exact Finset.sum_congr rfl fun k _ => by rw [xBlk_apply V c t p k n hn]

theorem el_point (c : Dev nD) (t : Fin cfg0.N) (p : Fin 2000) (h : Fin 4) (n : Fin 50000)
    (hn : n.val = t.val * 2000 + p.val) :
    k0_pay5 (xBlk V c t) (wBlk V c t) (lBlk V c t) (ix2 p h)
      = Cert.Gat.headSum (Cert.Gat.projArr (xArr V c) (wArr V c)) (lArr V c) (ix2 n h) := by
  rw [pay5_apply, Cert.Gat.headSum_ix2, lBlk_eq]
  exact Finset.sum_congr rfl fun cc _ => by rw [feat_point V c t p cc n hn]

theorem er_point (c : Dev nD) (t : Fin cfg0.N) (p : Fin 2000) (h : Fin 4) (n : Fin 50000)
    (hn : n.val = t.val * 2000 + p.val) :
    k0_pay6 (xBlk V c t) (wBlk V c t) (eBlk V c t) (ix2 p h)
      = Cert.Gat.headSum (Cert.Gat.projArr (xArr V c) (wArr V c)) (eArr V c) (ix2 n h) := by
  rw [pay6_apply, Cert.Gat.headSum_ix2, eBlk_eq]
  exact Finset.sum_congr rfl fun cc _ => by rw [feat_point V c t p cc n hn]

/-! ## What point t writes back is block t of the whole-array function -/

theorem flushed_feat (c : Dev nD) (t : Fin cfg0.N) :
    (dat0 (F := Ideal) V c).flushed 5 t
      = ((cfg0.win 5).blk t).view.read (Elt Ideal) (Cert.Gat.projArr (xArr V c) (wArr V c)) := by
  show (cfg0.win 5).cut (grid0.coords t) ((dat0 V c).after 5 t) = _
  rw [after0_5]
  unfold out0_5
  rw [View.canon_unit_zero hz]
  simp only [View.ld_unit_zero (S := S2000x64) hz, View.ld_unit_zero (S := S64x64) hz]
  obtain ⟨-, -, -, -, -, ⟨e0, e1⟩, -⟩ := idx_facts t
  have ht : t.val < 25 := t.isLt
  funext j
  obtain ⟨p, q, rfl⟩ : ∃ (p : Fin 2000) (q : Fin 64), j = ix2 p q := ⟨j 0, j 1, eq_ix2 j⟩
  show k0_pay2 (xBlk V c t) (wBlk V c t) (ix2 p q)
    = Cert.Gat.projArr (xArr V c) (wArr V c) (((cfg0.win 5).blk t).view.emb (ix2 p q))
  refine (feat_point V c t p q ⟨t.val * 2000 + p.val, by omega⟩ rfl).trans ?_
  congr 1
  funext a; apply Fin.ext
  match a with
  | ⟨0, _⟩ => show t.val * 2000 + p.val = win0_5.index t (0 : Fin 2) * 2000 + 1 * p.val; rw [e0]; omega
  | ⟨1, _⟩ => show q.val = win0_5.index t (1 : Fin 2) * 64 + 1 * q.val; rw [e1]; omega

theorem flushed_res (c : Dev nD) (t : Fin cfg0.N) :
    (dat0 (F := Ideal) V c).flushed 8 t
      = ((cfg0.win 8).blk t).view.read (Elt Ideal) (Cert.Gat.projArr (xArr V c) (rArr V c)) := by
  show (cfg0.win 8).cut (grid0.coords t) ((dat0 V c).after 8 t) = _
  rw [after0_8]
  unfold out0_8
  rw [View.canon_unit_zero hz]
  simp only [View.ld_unit_zero (S := S2000x64) hz, View.ld_unit_zero (S := S64x64) hz]
  obtain ⟨-, -, -, -, -, -, -, -, ⟨e0, e1⟩⟩ := idx_facts t
  have ht : t.val < 25 := t.isLt
  funext j
  obtain ⟨p, q, rfl⟩ : ∃ (p : Fin 2000) (q : Fin 64), j = ix2 p q := ⟨j 0, j 1, eq_ix2 j⟩
  show k0_pay3 (xBlk V c t) (rBlk V c t) (ix2 p q)
    = Cert.Gat.projArr (xArr V c) (rArr V c) (((cfg0.win 8).blk t).view.emb (ix2 p q))
  refine (res_point V c t p q ⟨t.val * 2000 + p.val, by omega⟩ rfl).trans ?_
  congr 1
  funext a; apply Fin.ext
  match a with
  | ⟨0, _⟩ => show t.val * 2000 + p.val = win0_8.index t (0 : Fin 2) * 2000 + 1 * p.val; rw [e0]; omega
  | ⟨1, _⟩ => show q.val = win0_8.index t (1 : Fin 2) * 64 + 1 * q.val; rw [e1]; omega

theorem flushed_el (c : Dev nD) (t : Fin cfg0.N) :
    (dat0 (F := Ideal) V c).flushed 6 t
      = ((cfg0.win 6).blk t).view.read (Elt Ideal)
          (Cert.Gat.headSum (Cert.Gat.projArr (xArr V c) (wArr V c)) (lArr V c)) := by
  show (cfg0.win 6).cut (grid0.coords t) ((dat0 V c).after 6 t) = _
  rw [after0_6]
  unfold out0_6
  rw [View.canon_unit_zero hz]
  simp only [View.ld_unit_zero (S := S2000x64) hz, View.ld_unit_zero (S := S64x64) hz, View.ld_unit_zero (S := S64x4) hz]
  obtain ⟨-, -, -, -, -, -, ⟨e0, e1⟩, -⟩ := idx_facts t
  have ht : t.val < 25 := t.isLt
  funext j
  obtain ⟨p, h, rfl⟩ : ∃ (p : Fin 2000) (h : Fin 4), j = ix2 p h := ⟨j 0, j 1, eq_ix2 j⟩
  show k0_pay5 (xBlk V c t) (wBlk V c t) (lBlk V c t) (ix2 p h)
    = Cert.Gat.headSum (Cert.Gat.projArr (xArr V c) (wArr V c)) (lArr V c) (((cfg0.win 6).blk t).view.emb (ix2 p h))
  refine (el_point V c t p h ⟨t.val * 2000 + p.val, by omega⟩ rfl).trans ?_
  congr 1
  funext a; apply Fin.ext
  match a with
  | ⟨0, _⟩ => show t.val * 2000 + p.val = win0_6.index t (0 : Fin 2) * 2000 + 1 * p.val; rw [e0]; omega
  | ⟨1, _⟩ => show h.val = win0_6.index t (1 : Fin 2) * 4 + 1 * h.val; rw [e1]; omega

theorem flushed_er (c : Dev nD) (t : Fin cfg0.N) :
    (dat0 (F := Ideal) V c).flushed 7 t
      = ((cfg0.win 7).blk t).view.read (Elt Ideal)
          (Cert.Gat.headSum (Cert.Gat.projArr (xArr V c) (wArr V c)) (eArr V c)) := by
  show (cfg0.win 7).cut (grid0.coords t) ((dat0 V c).after 7 t) = _
  rw [after0_7]
  unfold out0_7
  rw [View.canon_unit_zero hz]
  simp only [View.ld_unit_zero (S := S2000x64) hz, View.ld_unit_zero (S := S64x64) hz, View.ld_unit_zero (S := S64x4) hz]
  obtain ⟨-, -, -, -, -, -, -, ⟨e0, e1⟩, -⟩ := idx_facts t
  have ht : t.val < 25 := t.isLt
  funext j
  obtain ⟨p, h, rfl⟩ : ∃ (p : Fin 2000) (h : Fin 4), j = ix2 p h := ⟨j 0, j 1, eq_ix2 j⟩
  show k0_pay6 (xBlk V c t) (wBlk V c t) (eBlk V c t) (ix2 p h)
    = Cert.Gat.headSum (Cert.Gat.projArr (xArr V c) (wArr V c)) (eArr V c) (((cfg0.win 7).blk t).view.emb (ix2 p h))
  refine (er_point V c t p h ⟨t.val * 2000 + p.val, by omega⟩ rfl).trans ?_
  congr 1
  funext a; apply Fin.ext
  match a with
  | ⟨0, _⟩ => show t.val * 2000 + p.val = win0_7.index t (0 : Fin 2) * 2000 + 1 * p.val; rw [e0]; omega
  | ⟨1, _⟩ => show h.val = win0_7.index t (1 : Fin 2) * 4 + 1 * h.val; rw [e1]; omega

/-! ## The cover: row r is in the block of point r / 2000 -/

theorem mem_blk_feat (t : Fin cfg0.N) (i : S50000x64.Idx) :
    i ∈ ((cfg0.win 5).blk t).view.set
      ↔ ∀ a : Fin 2, win0_5.index t a * S2000x64.size a ≤ (i a).val
          ∧ (i a).val < win0_5.index t a * S2000x64.size a + S2000x64.size a := by
  show i ∈ ((View.whole main_v18_0).slice (win0_5.rect t)).set ↔ _
  rw [View.set_slice_whole, Rect.mem_set_unit]
  exact Iff.rfl

theorem mem_blk_res (t : Fin cfg0.N) (i : S50000x64.Idx) :
    i ∈ ((cfg0.win 8).blk t).view.set
      ↔ ∀ a : Fin 2, win0_8.index t a * S2000x64.size a ≤ (i a).val
          ∧ (i a).val < win0_8.index t a * S2000x64.size a + S2000x64.size a := by
  show i ∈ ((View.whole main_v18_3).slice (win0_8.rect t)).set ↔ _
  rw [View.set_slice_whole, Rect.mem_set_unit]
  exact Iff.rfl

theorem mem_blk_el (t : Fin cfg0.N) (i : S50000x4.Idx) :
    i ∈ ((cfg0.win 6).blk t).view.set
      ↔ ∀ a : Fin 2, win0_6.index t a * S2000x4.size a ≤ (i a).val
          ∧ (i a).val < win0_6.index t a * S2000x4.size a + S2000x4.size a := by
  show i ∈ ((View.whole main_v18_1).slice (win0_6.rect t)).set ↔ _
  rw [View.set_slice_whole, Rect.mem_set_unit]
  exact Iff.rfl

theorem mem_blk_er (t : Fin cfg0.N) (i : S50000x4.Idx) :
    i ∈ ((cfg0.win 7).blk t).view.set
      ↔ ∀ a : Fin 2, win0_7.index t a * S2000x4.size a ≤ (i a).val
          ∧ (i a).val < win0_7.index t a * S2000x4.size a + S2000x4.size a := by
  show i ∈ ((View.whole main_v18_2).slice (win0_7.rect t)).set ↔ _
  rw [View.set_slice_whole, Rect.mem_set_unit]
  exact Iff.rfl

/-- The point whose block holds row r. -/
def ptOf (r : Fin 50000) : Fin cfg0.N := ⟨r.val / 2000, by rw [nPts]; have := r.isLt; omega⟩

theorem cover_feat (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨-, -, -, -, -, ⟨e0, e1⟩, -⟩ := idx_facts (ptOf (i 0))
  have hp : (ptOf (i 0)).val = (i 0).val / 2000 := rfl
  refine ⟨ptOf (i 0), flush0_5 _, ?_⟩
  rw [mem_blk_feat]
  intro a
  match a with
  | ⟨0, _⟩ =>
    show win0_5.index (ptOf (i 0)) (0 : Fin 2) * 2000 ≤ (i 0).val
      ∧ (i 0).val < win0_5.index (ptOf (i 0)) (0 : Fin 2) * 2000 + 2000
    rw [e0]; omega
  | ⟨1, _⟩ =>
    show win0_5.index (ptOf (i 0)) (1 : Fin 2) * 64 ≤ (i 1).val
      ∧ (i 1).val < win0_5.index (ptOf (i 0)) (1 : Fin 2) * 64 + 64
    rw [e1]; omega

theorem cover_res (i : S50000x64.Idx) :
    ∃ t : Fin cfg0.N, (cfg0.win 8).flush t = true ∧ i ∈ ((cfg0.win 8).blk t).view.set := by
  have hi0 : (i 0).val < 50000 := (i 0).isLt
  have hi1 : (i 1).val < 64 := (i 1).isLt
  obtain ⟨-, -, -, -, -, -, -, -, ⟨e0, e1⟩⟩ := idx_facts (ptOf (i 0))
  have hp : (ptOf (i 0)).val = (i 0).val / 2000 := rfl
  refine ⟨ptOf (i 0), flush0_8 _, ?_⟩
  rw [mem_blk_res]
  intro a
  match a with
  | ⟨0, _⟩ =>
    show win0_8.index (ptOf (i 0)) (0 : Fin 2) * 2000 ≤ (i 0).val
      ∧ (i 0).val < win0_8.index (ptOf (i 0)) (0 : Fin 2) * 2000 + 2000
    rw [e0]; omega
  | ⟨1, _⟩ =>
    show win0_8.index (ptOf (i 0)) (1 : Fin 2) * 64 ≤ (i 1).val
      ∧ (i 1).val < win0_8.index (ptOf (i 0)) (1 : Fin 2) * 64 + 64
    rw [e1]; omega

theorem cover_el (i : S50000x4.Idx) :
    ∃ t : Fin cfg0.N, (cfg0.win 6).flush t = true ∧ i ∈ ((cfg0.win 6).blk t).view.set := by
  have hi0 : (i 0).val < 50000 := (i 0).isLt
  have hi1 : (i 1).val < 4 := (i 1).isLt
  obtain ⟨-, -, -, -, -, -, ⟨e0, e1⟩, -⟩ := idx_facts (ptOf (i 0))
  have hp : (ptOf (i 0)).val = (i 0).val / 2000 := rfl
  refine ⟨ptOf (i 0), flush0_6 _, ?_⟩
  rw [mem_blk_el]
  intro a
  match a with
  | ⟨0, _⟩ =>
    show win0_6.index (ptOf (i 0)) (0 : Fin 2) * 2000 ≤ (i 0).val
      ∧ (i 0).val < win0_6.index (ptOf (i 0)) (0 : Fin 2) * 2000 + 2000
    rw [e0]; omega
  | ⟨1, _⟩ =>
    show win0_6.index (ptOf (i 0)) (1 : Fin 2) * 4 ≤ (i 1).val
      ∧ (i 1).val < win0_6.index (ptOf (i 0)) (1 : Fin 2) * 4 + 4
    rw [e1]; omega

theorem cover_er (i : S50000x4.Idx) :
    ∃ t : Fin cfg0.N, (cfg0.win 7).flush t = true ∧ i ∈ ((cfg0.win 7).blk t).view.set := by
  have hi0 : (i 0).val < 50000 := (i 0).isLt
  have hi1 : (i 1).val < 4 := (i 1).isLt
  obtain ⟨-, -, -, -, -, -, -, ⟨e0, e1⟩, -⟩ := idx_facts (ptOf (i 0))
  have hp : (ptOf (i 0)).val = (i 0).val / 2000 := rfl
  refine ⟨ptOf (i 0), flush0_7 _, ?_⟩
  rw [mem_blk_er]
  intro a
  match a with
  | ⟨0, _⟩ =>
    show win0_7.index (ptOf (i 0)) (0 : Fin 2) * 2000 ≤ (i 0).val
      ∧ (i 0).val < win0_7.index (ptOf (i 0)) (0 : Fin 2) * 2000 + 2000
    rw [e0]; omega
  | ⟨1, _⟩ =>
    show win0_7.index (ptOf (i 0)) (1 : Fin 2) * 4 ≤ (i 1).val
      ∧ (i 1).val < win0_7.index (ptOf (i 0)) (1 : Fin 2) * 4 + 4
    rw [e1]; omega

/-! ## The arrays after all 25 points -/

/-- The projected features: window 5's array after the run is x W_fc. -/
theorem arr_feat (c : Dev nD) :
    ((dat0 (F := Ideal) V c).arrAt 5 cfg0.N : S50000x64.Idx → EReal)
      = Cert.Gat.projArr (V c main_arg0 : S50000x64.Idx → EReal) (V c main_arg3 : S64x64.Idx → EReal) :=
  (dat0 (F := Ideal) V c).arrAt_eq_of_cover 5 (Cert.Gat.projArr (xArr V c) (wArr V c))
    (fun t _ => flushed_feat V c t) cover_feat

/-- The residual projection: window 8's array after the run is x W_res. -/
theorem arr_res (c : Dev nD) :
    ((dat0 (F := Ideal) V c).arrAt 8 cfg0.N : S50000x64.Idx → EReal)
      = Cert.Gat.projArr (V c main_arg0 : S50000x64.Idx → EReal) (V c main_arg6 : S64x64.Idx → EReal) :=
  (dat0 (F := Ideal) V c).arrAt_eq_of_cover 8 (Cert.Gat.projArr (xArr V c) (rArr V c))
    (fun t _ => flushed_res V c t) cover_res

/-- The left logits: window 6's array is the projected features times the [64, 4] matrix in main_v12. -/
theorem arr_el (c : Dev nD) :
    ((dat0 (F := Ideal) V c).arrAt 6 cfg0.N : S50000x4.Idx → EReal)
      = Cert.Gat.headSum (Cert.Gat.projArr (V c main_arg0 : S50000x64.Idx → EReal) (V c main_arg3 : S64x64.Idx → EReal))
          (V c main_v12 : S64x4.Idx → EReal) :=
  (dat0 (F := Ideal) V c).arrAt_eq_of_cover 6
    (Cert.Gat.headSum (Cert.Gat.projArr (xArr V c) (wArr V c)) (lArr V c))
    (fun t _ => flushed_el V c t) cover_el

/-- The right logits: window 7's array, against main_v16. -/
theorem arr_er (c : Dev nD) :
    ((dat0 (F := Ideal) V c).arrAt 7 cfg0.N : S50000x4.Idx → EReal)
      = Cert.Gat.headSum (Cert.Gat.projArr (V c main_arg0 : S50000x64.Idx → EReal) (V c main_arg3 : S64x64.Idx → EReal))
          (V c main_v16 : S64x4.Idx → EReal) :=
  (dat0 (F := Ideal) V c).arrAt_eq_of_cover 7
    (Cert.Gat.headSum (Cert.Gat.projArr (xArr V c) (wArr V c)) (eArr V c))
    (fun t _ => flushed_er V c t) cover_er

end Cert.KernelIdeal.Region0

end
-- ==== Proof.LibGatherRows.lean ====
/- The gather of whole rows: operand [N, C] (or [N, A, B]), start indices [n, 1], result [n, C] (or [n, A, B]); the operand's axis 0 is collapsed and named by the one component of the index vector, the other axes are offset axes taken whole. Result row j is the operand's row at start index j, read signed and clamped into [0, N - 1]. -/
import Idealize.ShloMosaic.PureOps.Ideal
import Idealize.ShloMosaic.Lib.ValueIdx

noncomputable section

open scoped BigOperators

namespace Cert.LibGatherRows

open Idealize.ShloMosaic Idealize.ShloMosaic.ValueIdx

/-- An entry of a list read through two equations: of the lists and of the positions. -/
theorem getElem_of_eq_of_eq {β : Type} {l l' : List β} (h : l = l') {i i' : Nat} (hi : i = i') (w : i < l.length) :
    l[i] = l'[i']'(by subst h; subst hi; exact w) := by
  subst h; subst hi; rfl

/-- THE ROW GATHER READ AT (j, c), one offset axis. On axis 0 (collapsed, named by the start index map) the operand
    coordinate is the start word read signed and clamped so that a slice of size 1 fits; on axis 1 (an offset axis, not
    named by the start index map) the start is 0 and the offset coordinate is the result's coordinate. -/
theorem gather_rows2_apply {α : Type} {N n C w : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![n, 1]⟩ w) (j : Fin n) (c : Fin C) :
    Host.gather d x idx (ix2 j c)
      = x (ix2 (⟨min (idx (ix2 j (0 : Fin 1))).toInt.toNat (N - 1), by omega⟩ : Fin N) c) := by
  unfold Host.gather
  congr 1
  funext a
  apply Fin.ext
  have hb : ∀ a : Fin 2, a ∉ d.operandBatchingDims := fun a => by rw [hob]; exact List.not_mem_nil
  -- a batch axis of the result is its axis 0 (the one axis that is not an offset axis)
  have ebatch : ∀ X : Fin 2, X ∈ d.batchDims → ((ix2 j c : (⟨2, ![n, C]⟩ : Shape).Idx) X).val = j.val := by
    intro X hX
    have hX0 : X = 0 := by
      simp only [GatherDims.batchDims, Shape.kept, hoff, List.mem_filter] at hX
      have h1 : X ≠ 1 := by simpa using hX.2
      match X with
      | ⟨0, _⟩ => rfl
      | ⟨1, _⟩ => exact absurd rfl h1
    subst hX0; rfl
  -- an offset axis of the result is its axis 1
  have eoff : ∀ X : Fin 2, X ∈ d.offsetDims → ((ix2 j c : (⟨2, ![n, C]⟩ : Shape).Idx) X).val = c.val := by
    intro X hX
    have hX1 : X = 1 := by rw [hoff] at hX; exact List.mem_singleton.mp hX
    subst hX1; rfl
  match a with
  | ⟨0, _⟩ =>
    -- the collapsed axis: the clamped start, no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j c) idx 0 + d.batchCoord (ix2 j c) 0 + d.offCoord (ix2 j c) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 j (0 : Fin 1))).toInt.toNat (N - 1)
    rw [hsl]
    congr 3
    congr 1
    funext b
    apply Fin.ext
    match b with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 2) d.startIndexMap = 0
      rw [hsim]; simp
  | ⟨1, _⟩ =>
    -- an offset axis: no start (the start index map does not name it), no batching coordinate, the result's coordinate
    have hk : (1 : Fin 2) ∈ d.sKept := by rw [GatherDims.mem_sKept, hcoll, hob]; simp
    have hm : (1 : Fin 2) ∉ d.startIndexMap := by rw [hsim]; simp
    show d.start (ix2 j c) idx 1 + d.batchCoord (ix2 j c) 1 + d.offCoord (ix2 j c) 1 = c.val
    rw [GatherDims.batchCoord_eq_zero _ _ _ (hb 1)]
    unfold GatherDims.start GatherDims.offCoord
    rw [dif_neg hm, dif_pos hk]
    simp only [Nat.zero_add]
    exact eoff _ (List.getElem_mem _)

/-- The same with two offset axes: the operand's kept axes 1 and 2 are read, in order, at the result's offset axes 1
    and 2. -/
theorem gather_rows3_apply {α : Type} {N n A B w : Nat} (hN : 0 < N) (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (x : (⟨3, ![N, A, B]⟩ : Shape).Idx → α) (idx : IVec ⟨2, ![n, 1]⟩ w) (j : Fin n) (a : Fin A) (b : Fin B) :
    Host.gather d x idx (ix3 j a b)
      = x (ix3 (⟨min (idx (ix2 j (0 : Fin 1))).toInt.toNat (N - 1), by omega⟩ : Fin N) a b) := by
  unfold Host.gather
  congr 1
  funext q
  apply Fin.ext
  have hb : ∀ q : Fin 3, q ∉ d.operandBatchingDims := fun q => by rw [hob]; exact List.not_mem_nil
  -- the operand's axes that are neither collapsed nor batching: 1 and 2, in order
  have hsk : d.sKept = [1, 2] := by
    simp only [GatherDims.sKept, Shape.kept, hcoll, hob]
    rfl
  -- a batch axis of the result is its axis 0 (the one axis that is not an offset axis)
  have ebatch : ∀ X : Fin 3, X ∈ d.batchDims → ((ix3 j a b : (⟨3, ![n, A, B]⟩ : Shape).Idx) X).val = j.val := by
    intro X hX
    have hX0 : X = 0 := by
      simp only [GatherDims.batchDims, Shape.kept, hoff, List.mem_filter] at hX
      have h12 : X ≠ 1 ∧ X ≠ 2 := by simpa using hX.2
      match X with
      | ⟨0, _⟩ => rfl
      | ⟨1, _⟩ => exact absurd rfl h12.1
      | ⟨2, _⟩ => exact absurd rfl h12.2
    subst hX0; rfl
  -- the result's coordinates on its axes 1 and 2
  have e1 : ∀ X : Fin 3, X = 1 → ((ix3 j a b : (⟨3, ![n, A, B]⟩ : Shape).Idx) X).val = a.val := by
    intro X hX; subst hX; rfl
  have e2 : ∀ X : Fin 3, X = 2 → ((ix3 j a b : (⟨3, ![n, A, B]⟩ : Shape).Idx) X).val = b.val := by
    intro X hX; subst hX; rfl
  have hm : ∀ q : Fin 3, q ≠ 0 → q ∉ d.startIndexMap := fun q hq => by
    rw [hsim]; exact fun h => hq (List.mem_singleton.mp h)
  match q with
  | ⟨0, _⟩ =>
    -- the collapsed axis: the clamped start, no batching and no offset coordinate
    have hk : (0 : Fin 3) ∉ d.sKept := by rw [GatherDims.mem_sKept, hcoll]; simp
    have hm0 : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j a b) idx 0 + d.batchCoord (ix3 j a b) 0 + d.offCoord (ix3 j a b) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm0]
    show min (idx _).toInt.toNat (N - d.sliceSizes 0) = min (idx (ix2 j (0 : Fin 1))).toInt.toNat (N - 1)
    rw [hsl]
    congr 3
    congr 1
    funext p
    apply Fin.ext
    match p with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 3) d.startIndexMap = 0
      rw [hsim]; simp
  | ⟨1, _⟩ =>
    -- the first offset axis: no start, no batching coordinate, the result's coordinate on its axis 1
    have hk : (1 : Fin 3) ∈ d.sKept := by rw [hsk]; simp
    show d.start (ix3 j a b) idx 1 + d.batchCoord (ix3 j a b) 1 + d.offCoord (ix3 j a b) 1 = a.val
    rw [GatherDims.batchCoord_eq_zero _ _ _ (hb 1)]
    unfold GatherDims.start GatherDims.offCoord
    rw [dif_neg (hm 1 (by decide)), dif_pos hk]
    simp only [Nat.zero_add]
    exact e1 _ ((getElem_of_eq_of_eq hoff (show List.idxOf (1 : Fin 3) d.sKept = 0 by rw [hsk]; rfl) _).trans rfl)
  | ⟨2, _⟩ =>
    -- the second offset axis: the result's coordinate on its axis 2
    have hk : (2 : Fin 3) ∈ d.sKept := by rw [hsk]; simp
    show d.start (ix3 j a b) idx 2 + d.batchCoord (ix3 j a b) 2 + d.offCoord (ix3 j a b) 2 = b.val
    rw [GatherDims.batchCoord_eq_zero _ _ _ (hb 2)]
    unfold GatherDims.start GatherDims.offCoord
    rw [dif_neg (hm 2 (by decide)), dif_pos hk]
    simp only [Nat.zero_add]
    exact e2 _ ((getElem_of_eq_of_eq hoff (show List.idxOf (2 : Fin 3) d.sKept = 1 by rw [hsk]; rfl) _).trans rfl)

end Cert.LibGatherRows

end
-- ==== Proof.KHostB.lean ====
/- The host operations between the two launches: three row gathers, each with the fill word for a row out of range. -/
import proofs.«405722_j15779709845542_2_alg».proof.Proof.LibGatherRows
import proofs.«405722_j15779709845542_2_alg».proof.Proof.Gen.KernelIdeal.Launch
import proofs.«405722_j15779709845542_2_alg».proof.Proof.GatSpec
import Idealize.ShloMosaic.Lib.StableHlo.Run
import Idealize.ShloMosaic.Lib.ValueIdx
import Idealize.ShloMosaic.Lib.Affine
import Idealize.ShloMosaic.Lib.DynamicIndex
import Idealize.ShloMosaic.Lib.Pipeline.Value
import Idealize.ShloMosaic.PureOps.Reduce

set_option maxRecDepth 16384

noncomputable section

open scoped BigOperators

namespace Cert.KernelIdeal.HostB

open Idealize.ShloMosaic Idealize.ShloMosaic.TcCoe Idealize.ShloMosaic.ValueIdx Idealize.SL.Sem
open Cert.KernelIdeal Cert.KernelIdeal.Gen

/-- The buffer contents after the three gathers. -/
abbrev afterB (W : Valuation τ sig (Elt Ideal)) : Valuation τ sig (Elt Ideal) :=
  StableHlo.after (hostOps1_2 (F := Ideal)) (StableHlo.after (hostOps1_1 (F := Ideal)) (StableHlo.after (hostOps1 (F := Ideal)) W))

/-! ## One gather of rows with its fill, as a function of the table and the index words -/

section Take

variable {C : Nat}
  (hb0 : S_.BroadcastsInDim S800000 (![] : Fin 0 → Fin S800000.rank))
  (hb1 : S800000.BroadcastsInDim S800000x1 (![0] : Fin 1 → Fin S800000x1.rank))
  (hb2 : S_.BroadcastsInDim S800000x1 (![] : Fin 0 → Fin S800000x1.rank))
  (hb3 : S1.BroadcastsInDim S1x1 (![1] : Fin 1 → Fin S1x1.rank))
  (hb4 : S1x1.BroadcastsInDim S800000x1 (![0, 1] : Fin 2 → Fin S800000x1.rank))
  (hr : S800000x1.ReducesTo [1] S800000) (h0 : 0 < S_.numel)
  (hb5 : S800000.BroadcastsInDim (⟨2, ![800000, C]⟩ : Shape) (![0] : Fin 1 → Fin 2))
  (hb6 : S_.BroadcastsInDim (⟨2, ![800000, C]⟩ : Shape) (![] : Fin 0 → Fin 2))
  (d : GatherDims ⟨2, ![50000, C]⟩ ⟨2, ![800000, 1]⟩ ⟨2, ![800000, C]⟩)

/-- The start indices of the gather: the index word, with the table's extent added where it is negative, as a column. -/
def startIdx (w : S800000.Idx → BitVec 32) : S800000x1.Idx → BitVec 32 :=
  broadcastInDim S800000x1 ![0] hb1
    (select (cmpi .slt w (broadcastInDim S800000 ![] hb0 (constantI S_ 32 0#32)))
      (addi w (broadcastInDim S800000 ![] hb0 (constantI S_ 32 50000#32))) w)

/-- Whether a start index lies in the table, per edge: the two range tests and-reduced over the axis of extent one. -/
def inTable (v : S800000x1.Idx → BitVec 32) : S800000.Idx → BitVec 1 :=
  Host.reduce IntOp.andi
    (andi (cmpi .sge v (broadcastInDim S800000x1 ![] hb2 (constantI S_ 32 0#32)))
      (cmpi .sle v (broadcastInDim S800000x1 ![0, 1] hb4 (broadcastInDim S1x1 ![1] hb3 (constantI S1 32 49999#32)))))
    (constantI S_ 1 1#1) hr h0

/-- The rows of a table taken at the index words, the fill word where the row is out of range. -/
def takeRows (tbl : (⟨2, ![50000, C]⟩ : Shape).Idx → EReal) (w : S800000.Idx → BitVec 32) :
    (⟨2, ![800000, C]⟩ : Shape).Idx → EReal :=
  select (broadcastInDim ⟨2, ![800000, C]⟩ ![0] hb5 (inTable hb2 hb3 hb4 hr h0 (startIdx hb0 hb1 w)))
    (Host.gather d tbl (startIdx hb0 hb1 w))
    (broadcastInDim ⟨2, ![800000, C]⟩ ![] hb6 (constant (F := Ideal) S_ .f32 0x7FC00000#32))

/-- The start index at an edge whose word is not negative is the word. -/
theorem startIdx_apply (w : S800000.Idx → BitVec 32) (e : Fin 800000) (h : 0 ≤ (w (ix1 e)).toInt) :
    startIdx hb0 hb1 w (ix2 e (0 : Fin 1)) = w (ix1 e) := by
  unfold startIdx
  rw [broadcastInDim_apply _ _ _ _ (ix1 e) (fun a => by fin_cases a; rfl)]
  exact select_slt_zero_of_nonneg w _ _ (ix1 e) h

/-- The bit is set where the start index is in range. -/
theorem inTable_apply (v : S800000x1.Idx → BitVec 32) (e : Fin 800000)
    (hlo : 0 ≤ (v (ix2 e (0 : Fin 1))).toInt) (hhi : (v (ix2 e (0 : Fin 1))).toInt ≤ 49999) :
    inTable hb2 hb3 hb4 hr h0 v (ix1 e) = 1#1 := by
  unfold inTable
  have hR : S800000x1.Reduces [1] S800000 := by decide
  rw [Host.reduce_eq_fold_single IntOp.andi _ _ hr hR h0 (ix1 e)]
  have hfold : ∀ (g : Fin 1 → BitVec 1) (b : BitVec 1),
      (Finset.univ : Finset (Fin 1)).fold IntOp.andi b g = IntOp.andi (g 0) b := by
    intro g b
    rw [show (Finset.univ : Finset (Fin 1)) = {0} from rfl, Finset.fold_singleton]
  refine (hfold _ _).trans ?_
  have hl : hR.lift (ix1 e) (0 : Fin 1) = ix2 e (0 : Fin 1) := by
    funext c; fin_cases c <;> rfl
  show IntOp.andi (IntOp.andi (IntOp.cmpi .sge (v (hR.lift (ix1 e) (0 : Fin 1))) 0#32)
    (IntOp.cmpi .sle (v (hR.lift (ix1 e) (0 : Fin 1))) 49999#32)) 1#1 = 1#1
  rw [hl, IntOp.andi_eq_one, IntOp.andi_eq_one, IntOp.cmpi_sge, IntOp.cmpi_sle]
  refine ⟨⟨?_, ?_⟩, rfl⟩
  · rw [show (0#32 : BitVec 32).toInt = 0 from by decide]; exact hlo
  · rw [show (49999#32 : BitVec 32).toInt = 49999 from by decide]; exact hhi

/-- AT AN EDGE WHOSE WORD NAMES A NODE the gather with its fill reads that node's row. -/
theorem takeRows_apply (hoff : d.offsetDims = [1]) (hcoll : d.collapsedSliceDims = [0]) (hob : d.operandBatchingDims = [])
    (hsb : d.startIndicesBatchingDims = []) (hsim : d.startIndexMap = [0]) (hivd : d.indexVectorDim = 1)
    (tbl : (⟨2, ![50000, C]⟩ : Shape).Idx → EReal) (w : S800000.Idx → BitVec 32) (e : Fin 800000) (c : Fin C)
    (h : Cert.Gat.InRange (w (ix1 e))) :
    takeRows hb0 hb1 hb2 hb3 hb4 hr h0 hb5 hb6 d tbl w (ix2 e c) = tbl (ix2 (Cert.Gat.node (w (ix1 e))) c) := by
  have hv : startIdx hb0 hb1 w (ix2 e (0 : Fin 1)) = w (ix1 e) := startIdx_apply hb0 hb1 w e h.1
  have hm : inTable hb2 hb3 hb4 hr h0 (startIdx hb0 hb1 w) (ix1 e) = 1#1 :=
    inTable_apply hb2 hb3 hb4 hr h0 _ e (by rw [hv]; exact h.1) (by rw [hv]; have := h.2; omega)
  unfold takeRows
  rw [select_apply, broadcastInDim_apply _ _ _ _ (ix1 e) (fun a => by fin_cases a; rfl), hm, select_one,
    Cert.LibGatherRows.gather_rows2_apply (by decide) d hoff hcoll hob hsb hsim hivd tbl _ e c]
  refine congrArg (fun n => tbl (ix2 n c)) (Fin.ext ?_)
  show min (startIdx hb0 hb1 w (ix2 e (0 : Fin 1))).toInt.toNat (50000 - 1) = min (w (ix1 e)).toInt.toNat 49999
  rw [hv]

end Take

/-! ## The three lists, each read at its result -/

/-- A value moved to a buffer's type and back is the value. -/
theorem ofBuf_toBuf {T : BufTy} (x : StableHlo.TRef sig T) (v : T.Contents (Elt Ideal)) : x.ofBuf (x.toBuf v) = v := by
  simp only [StableHlo.TRef.ofBuf, StableHlo.TRef.toBuf, cast_cast, cast_eq]

/-- At the references the three lists read and write, the move between a value's type and its buffer's is the identity. -/
theorem toBuf_main_v19 (v : S800000x4.Idx → EReal) :
    ((StableHlo.TRef.of main_v19 : StableHlo.TRef sig ⟨S800000x4, .f32⟩).toBuf (Val := Elt Ideal) v : S800000x4.Idx → EReal) = v := rfl
theorem toBuf_main_v20 (v : S800000x4.Idx → EReal) :
    ((StableHlo.TRef.of main_v20 : StableHlo.TRef sig ⟨S800000x4, .f32⟩).toBuf (Val := Elt Ideal) v : S800000x4.Idx → EReal) = v := rfl
theorem toBuf_main_v21 (v : S800000x64.Idx → EReal) :
    ((StableHlo.TRef.of main_v21 : StableHlo.TRef sig ⟨S800000x64, .f32⟩).toBuf (Val := Elt Ideal) v : S800000x64.Idx → EReal) = v := rfl
theorem ofBuf_main_arg1 (u : (⟨S800000, .i32⟩ : BufTy).Contents (Elt Ideal)) :
    (StableHlo.TRef.of main_arg1 : StableHlo.TRef sig ⟨S800000, .i32⟩).ofBuf u = u := rfl
theorem ofBuf_main_arg2 (u : (⟨S800000, .i32⟩ : BufTy).Contents (Elt Ideal)) :
    (StableHlo.TRef.of main_arg2 : StableHlo.TRef sig ⟨S800000, .i32⟩).ofBuf u = u := rfl
theorem ofBuf_main_v18_0 (u : (⟨S50000x64, .f32⟩ : BufTy).Contents (Elt Ideal)) :
    (StableHlo.TRef.of main_v18_0 : StableHlo.TRef sig ⟨S50000x64, .f32⟩).ofBuf u = u := rfl
theorem ofBuf_main_v18_1 (u : (⟨S50000x4, .f32⟩ : BufTy).Contents (Elt Ideal)) :
    (StableHlo.TRef.of main_v18_1 : StableHlo.TRef sig ⟨S50000x4, .f32⟩).ofBuf u = u := rfl
theorem ofBuf_main_v18_2 (u : (⟨S50000x4, .f32⟩ : BufTy).Contents (Elt Ideal)) :
    (StableHlo.TRef.of main_v18_2 : StableHlo.TRef sig ⟨S50000x4, .f32⟩).ofBuf u = u := rfl

theorem after1_v19 (W : Valuation τ sig (Elt Ideal)) :
    (StableHlo.after (hostOps1 (F := Ideal)) W (Proc.devRef .tc main_v19) : S800000x4.Idx → EReal)
      = takeRows bcast_S_S800000 bcast_S800000_S800000x1_0 bcast_S_S800000x1 bcast_S1_S1x1_1 bcast_S1x1_S800000x1_0_1
            reducesTo_S800000x1_S800000_d1 h_S_ bcast_S800000_S800000x4_0 bcast_S_S800000x4
            gather_S50000x4_S800000x1_S800000x4_1_0_n_n_0_1_14
          (W (Proc.devRef .tc main_v18_1) : S50000x4.Idx → EReal) (W (Proc.devRef .tc main_arg1) : S800000.Idx → BitVec 32) := by
  simp only [hostOps1]
  after_results_simp
  simp only [ofBuf_toBuf]
  refine (toBuf_main_v19 _).trans ?_
  rw [ofBuf_main_arg1, ofBuf_main_v18_1]
  unfold takeRows inTable startIdx
  rfl

theorem after1_1_v20 (W : Valuation τ sig (Elt Ideal)) :
    (StableHlo.after (hostOps1_1 (F := Ideal)) W (Proc.devRef .tc main_v20) : S800000x4.Idx → EReal)
      = takeRows bcast_S_S800000 bcast_S800000_S800000x1_0 bcast_S_S800000x1 bcast_S1_S1x1_1 bcast_S1x1_S800000x1_0_1
            reducesTo_S800000x1_S800000_d1 h_S_ bcast_S800000_S800000x4_0 bcast_S_S800000x4
            gather_S50000x4_S800000x1_S800000x4_1_0_n_n_0_1_14
          (W (Proc.devRef .tc main_v18_2) : S50000x4.Idx → EReal) (W (Proc.devRef .tc main_arg2) : S800000.Idx → BitVec 32) := by
  simp only [hostOps1_1]
  after_results_simp
  simp only [ofBuf_toBuf]
  refine (toBuf_main_v20 _).trans ?_
  rw [ofBuf_main_arg2, ofBuf_main_v18_2]
  unfold takeRows inTable startIdx
  rfl

theorem after1_2_v21 (W : Valuation τ sig (Elt Ideal)) :
    (StableHlo.after (hostOps1_2 (F := Ideal)) W (Proc.devRef .tc main_v21) : S800000x64.Idx → EReal)
      = takeRows bcast_S_S800000 bcast_S800000_S800000x1_0 bcast_S_S800000x1 bcast_S1_S1x1_1 bcast_S1x1_S800000x1_0_1
            reducesTo_S800000x1_S800000_d1 h_S_ bcast_S800000_S800000x64_0 bcast_S_S800000x64
            gather_S50000x64_S800000x1_S800000x64_1_0_n_n_0_1_164
          (W (Proc.devRef .tc main_v18_0) : S50000x64.Idx → EReal) (W (Proc.devRef .tc main_arg1) : S800000.Idx → BitVec 32) := by
  simp only [hostOps1_2]
  after_results_simp
  simp only [ofBuf_toBuf]
  refine (toBuf_main_v21 _).trans ?_
  rw [ofBuf_main_arg1, ofBuf_main_v18_0]
  unfold takeRows inTable startIdx
  rfl

/-! ## What a list leaves alone -/

/-- No operation of the list writes the buffer: every result buffer of the list is another reference. -/
macro "not_written " ops:ident : tactic =>
  `(tactic| (refine List.forall_iff_forall_mem.mp ?_
             simp only [$ops:ident, List.Forall, StableHlo.nullary_writes, StableHlo.unary_writes, StableHlo.binary_writes,
               StableHlo.ternary_writes, Finset.mem_singleton]
             repeat' apply And.intro
             all_goals exact StableHlo.devRef_ne_of_ne (by decide)))

/-- A buffer none of the three lists writes ends as it began. -/
theorem afterB_kept (W : Valuation τ sig (Elt Ideal)) (b : DevRef τ sig)
    (h1 : ∀ op ∈ (hostOps1 (F := Ideal)), b ∉ op.writes) (h2 : ∀ op ∈ (hostOps1_1 (F := Ideal)), b ∉ op.writes)
    (h3 : ∀ op ∈ (hostOps1_2 (F := Ideal)), b ∉ op.writes) : afterB W b = W b :=
  (StableHlo.after_of_forall_not_mem _ _ h3).trans
    ((StableHlo.after_of_forall_not_mem _ _ h2).trans (StableHlo.after_of_forall_not_mem _ _ h1))

/-! ## The stated facts -/

/-- The left logits gathered by source: where the source word names a node, row e is that node's row. -/
theorem afterB_v19 (W : Valuation τ sig (Elt Ideal)) (e : Fin 800000) (hd : Fin 4)
    (h : Cert.Gat.InRange ((W (Proc.devRef .tc main_arg1) : S800000.Idx → BitVec 32) (ix1 e))) :
    (afterB W (Proc.devRef .tc main_v19) : S800000x4.Idx → EReal) (ix2 e hd)
      = (W (Proc.devRef .tc main_v18_1) : S50000x4.Idx → EReal)
          (ix2 (Cert.Gat.node ((W (Proc.devRef .tc main_arg1) : S800000.Idx → BitVec 32) (ix1 e))) hd) := by
  have e1 : afterB W (Proc.devRef .tc main_v19) = StableHlo.after (hostOps1 (F := Ideal)) W (Proc.devRef .tc main_v19) :=
    (StableHlo.after_of_forall_not_mem _ _ (by not_written hostOps1_2)).trans
      (StableHlo.after_of_forall_not_mem _ _ (by not_written hostOps1_1))
  rw [e1, after1_v19 W]
  exact takeRows_apply _ _ _ _ _ _ _ _ _ _ rfl rfl rfl rfl rfl rfl _ _ e hd h

/-- The right logits gathered by destination. -/
theorem afterB_v20 (W : Valuation τ sig (Elt Ideal)) (e : Fin 800000) (hd : Fin 4)
    (h : Cert.Gat.InRange ((W (Proc.devRef .tc main_arg2) : S800000.Idx → BitVec 32) (ix1 e))) :
    (afterB W (Proc.devRef .tc main_v20) : S800000x4.Idx → EReal) (ix2 e hd)
      = (W (Proc.devRef .tc main_v18_2) : S50000x4.Idx → EReal)
          (ix2 (Cert.Gat.node ((W (Proc.devRef .tc main_arg2) : S800000.Idx → BitVec 32) (ix1 e))) hd) := by
  have e1 : afterB W (Proc.devRef .tc main_v20)
      = StableHlo.after (hostOps1_1 (F := Ideal)) (StableHlo.after (hostOps1 (F := Ideal)) W) (Proc.devRef .tc main_v20) :=
    StableHlo.after_of_forall_not_mem _ _ (by not_written hostOps1_2)
  have k1 : StableHlo.after (hostOps1 (F := Ideal)) W (Proc.devRef .tc main_v18_2) = W (Proc.devRef .tc main_v18_2) :=
    StableHlo.after_of_forall_not_mem _ _ (by not_written hostOps1)
  have k2 : StableHlo.after (hostOps1 (F := Ideal)) W (Proc.devRef .tc main_arg2) = W (Proc.devRef .tc main_arg2) :=
    StableHlo.after_of_forall_not_mem _ _ (by not_written hostOps1)
  rw [e1, after1_1_v20, k1, k2]
  exact takeRows_apply _ _ _ _ _ _ _ _ _ _ rfl rfl rfl rfl rfl rfl _ _ e hd h

/-- The projected features gathered by source. -/
theorem afterB_v21 (W : Valuation τ sig (Elt Ideal)) (e : Fin 800000) (cc : Fin 64)
    (h : Cert.Gat.InRange ((W (Proc.devRef .tc main_arg1) : S800000.Idx → BitVec 32) (ix1 e))) :
    (afterB W (Proc.devRef .tc main_v21) : S800000x64.Idx → EReal) (ix2 e cc)
      = (W (Proc.devRef .tc main_v18_0) : S50000x64.Idx → EReal)
          (ix2 (Cert.Gat.node ((W (Proc.devRef .tc main_arg1) : S800000.Idx → BitVec 32) (ix1 e))) cc) := by
  have k1 : StableHlo.after (hostOps1_1 (F := Ideal)) (StableHlo.after (hostOps1 (F := Ideal)) W) (Proc.devRef .tc main_v18_0)
      = W (Proc.devRef .tc main_v18_0) :=
    (StableHlo.after_of_forall_not_mem _ _ (by not_written hostOps1_1)).trans
      (StableHlo.after_of_forall_not_mem _ _ (by not_written hostOps1))
  have k2 : StableHlo.after (hostOps1_1 (F := Ideal)) (StableHlo.after (hostOps1 (F := Ideal)) W) (Proc.devRef .tc main_arg1)
      = W (Proc.devRef .tc main_arg1) :=
    (StableHlo.after_of_forall_not_mem _ _ (by not_written hostOps1_1)).trans
      (StableHlo.after_of_forall_not_mem _ _ (by not_written hostOps1))
  rw [show afterB W (Proc.devRef .tc main_v21)
        = StableHlo.after (hostOps1_2 (F := Ideal)) (StableHlo.after (hostOps1_1 (F := Ideal)) (StableHlo.after (hostOps1 (F := Ideal)) W))
            (Proc.devRef .tc main_v21) from rfl,
    after1_2_v21, k1, k2]
  exact takeRows_apply _ _ _ _ _ _ _ _ _ _ rfl rfl rfl rfl rfl rfl _ _ e cc h

/-- The gathers write none of these. -/
theorem afterB_v17 (W : Valuation τ sig (Elt Ideal)) : afterB W (Proc.devRef .tc main_v17) = W (Proc.devRef .tc main_v17) :=
  afterB_kept W _ (by not_written hostOps1) (by not_written hostOps1_1) (by not_written hostOps1_2)
theorem afterB_v18_3 (W : Valuation τ sig (Elt Ideal)) : afterB W (Proc.devRef .tc main_v18_3) = W (Proc.devRef .tc main_v18_3) :=
  afterB_kept W _ (by not_written hostOps1) (by not_written hostOps1_1) (by not_written hostOps1_2)
theorem afterB_arg2 (W : Valuation τ sig (Elt Ideal)) : afterB W (Proc.devRef .tc main_arg2) = W (Proc.devRef .tc main_arg2) :=
  afterB_kept W _ (by not_written hostOps1) (by not_written hostOps1_1) (by not_written hostOps1_2)

end Cert.KernelIdeal.HostB

end
-- ==== Proof.KRegion1.lean ====
/- The second launch (edge kernel), read as values: the message array once every grid point has been flushed. -/
import proofs.«405722_j15779709845542_2_alg».proof.Proof.Gen.KernelIdeal.Frame
import proofs.«405722_j15779709845542_2_alg».proof.Proof.GatSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## Layout operations of the payload, read at an index -/

/-- A [4000] vector cast to the column [4000, 1] reads, at (p, u), the vector at p. -/
theorem col_cast_apply {α : Type} (x : S4000.Idx → α) (h : S4000.ShapeCasts S4000x1) (p : Fin 4000) (u : Fin 1) :
    shapeCast S4000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [4000, 1] broadcast over four lanes reads, at (p, k), the column at p. -/
theorem col_bcast_apply {α : Type} (v : S4000x1.Idx → α) (h : S4000x1.Broadcasts S4000x4) (p : Fin 4000) (k : Fin 4) :
    broadcastTo S4000x4 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The lane index the reduction inserts: row p, lane k. -/
theorem lift_eq (h : S4000x4.Reduces [1] S4000) (p : Fin 4000) (k : Fin 4) : h.lift (ix1 p) k = ix2 p k := by
  funext a; apply Fin.ext
  match a with
  | ⟨0, _⟩ => rfl
  | ⟨1, _⟩ => rfl

/-- The maximum over the four lanes of row p, from minus infinity. -/
theorem lane_max_apply (v : FVec Ideal S4000x4 .f32) (h : S4000x4.Reduces [1] S4000) (hφ : FKind.Formats .f32)
    (hacc : (0xFF800000#32 : BitVec 32) = FKind.maximumf.neutral .f32 hφ) (p : Fin 4000) :
    multiReduction (F := Ideal) .maximumf [1] S4000 v 0xFF800000#32 h hφ hacc (ix1 p) = Cert.Gat.rowMax (fun k => v (ix2 p k)) := by
  refine (Ideal.multiReduction_maximumf_single v 0xFF800000#32 h hφ hacc (ix1 p)).trans ?_
  have e : (fun k : Fin 4 => v (h.lift (ix1 p) k)) = fun k => v (ix2 p k) := funext fun k => congrArg v (lift_eq h p k)
  exact congrArg Cert.Gat.rowMax e

/-- The sum over the four lanes of row p. -/
theorem lane_sum_apply (v : FVec Ideal S4000x4 .f32) (h : S4000x4.Reduces [1] S4000) (hφ : FKind.Formats .f32)
    (hacc : (0x00000000#32 : BitVec 32) = FKind.add.neutral .f32 hφ) (p : Fin 4000) :
    multiReduction (F := Ideal) .add [1] S4000 v 0x00000000#32 h hφ hacc (ix1 p) = ∑ k : Fin 4, v (ix2 p k) := by
  refine (Ideal.multiReduction_add_single v 0x00000000#32 h hφ hacc (ix1 p)).trans ?_
  show ∑ k : Fin 4, v (h.lift (ix1 p) k) = _
  exact Finset.sum_congr rfl fun k _ => congrArg v (lift_eq h p k)

/-! ## The product with the [4, 64] matrix -/

theorem lhs_ax0 (i : S4000x64.Idx) (q : dot_S4000x4_S4x64_S4000x64_1_0_0_1_n_n.contr.Idx) :
    (dot_S4000x4_S4x64_S4000x64_1_0_0_1_n_n.lhsIdx i q 0).val = (i 0).val := by
  unfold DotDims.lhsIdx
  rw [dif_neg (show ¬(0 : Fin S4000x4.rank) ∈ dot_S4000x4_S4x64_S4000x64_1_0_0_1_n_n.lhsBatch by decide),
    dif_pos (show (0 : Fin S4000x4.rank) ∈ dot_S4000x4_S4x64_S4000x64_1_0_0_1_n_n.lhsNonContracting by decide)]
  rfl
theorem lhs_ax1 (i : S4000x64.Idx) (q : dot_S4000x4_S4x64_S4000x64_1_0_0_1_n_n.contr.Idx) :
    (dot_S4000x4_S4x64_S4000x64_1_0_0_1_n_n.lhsIdx i q 1).val = (q ⟨0, by decide⟩).val :=
  dot_S4000x4_S4x64_S4000x64_1_0_0_1_n_n.lhsIdx_val_of_single rfl i q
theorem rhs_ax0 (i : S4000x64.Idx) (q : dot_S4000x4_S4x64_S4000x64_1_0_0_1_n_n.contr.Idx) :
    (dot_S4000x4_S4x64_S4000x64_1_0_0_1_n_n.rhsIdx i q 0).val = (q ⟨0, by decide⟩).val :=
  dot_S4000x4_S4x64_S4000x64_1_0_0_1_n_n.rhsIdx_val_of_single rfl i q
theorem rhs_ax1 (i : S4000x64.Idx) (q : dot_S4000x4_S4x64_S4000x64_1_0_0_1_n_n.contr.Idx) :
    (dot_S4000x4_S4x64_S4000x64_1_0_0_1_n_n.rhsIdx i q 1).val = (i 1).val := by
  unfold DotDims.rhsIdx
  rw [dif_neg (show ¬(1 : Fin S4x64.rank) ∈ dot_S4000x4_S4x64_S4000x64_1_0_0_1_n_n.rhsBatch by decide),
    dif_pos (show (1 : Fin S4x64.rank) ∈ dot_S4000x4_S4x64_S4000x64_1_0_0_1_n_n.rhsNonContracting by decide)]
  rfl

/-- The product into a zero accumulator, at (p, q): the sum over the four rows of the matrix. -/
theorem matmul_ix2 (prec : Option ContractPrecision) (a : FVec Ideal S4000x4 .f32) (b : FVec Ideal S4x64 .f32) (p : Fin 4000) (q : Fin 64) :
    matmul dot_S4000x4_S4x64_S4000x64_1_0_0_1_n_n prec a b (constant (F := Ideal) S4000x64 .f32 0x00000000#32) (ix2 p q)
      = ∑ k : Fin 4, a (ix2 p k) * b (ix2 k q) := by
  refine (Ideal.matmul_constant_zero_apply dot_S4000x4_S4x64_S4000x64_1_0_0_1_n_n prec a b (ix2 p q)).trans ?_
  rw [← Equiv.sum_comp (contrEquiv1 dot_S4000x4_S4x64_S4000x64_1_0_0_1_n_n 4 rfl rfl).symm]
  refine Finset.sum_congr rfl fun k _ => ?_
  have hk := contrEquiv1_symm_val dot_S4000x4_S4x64_S4000x64_1_0_0_1_n_n 4 rfl rfl k
  have el : dot_S4000x4_S4x64_S4000x64_1_0_0_1_n_n.lhsIdx (ix2 p q) ((contrEquiv1 dot_S4000x4_S4x64_S4000x64_1_0_0_1_n_n 4 rfl rfl).symm k) = ix2 p k :=
    funext fun ax => Fin.ext (by
      match ax with
      | ⟨0, _⟩ => exact lhs_ax0 _ _
      | ⟨1, _⟩ => exact (lhs_ax1 _ _).trans hk)
  have er : dot_S4000x4_S4x64_S4000x64_1_0_0_1_n_n.rhsIdx (ix2 p q) ((contrEquiv1 dot_S4000x4_S4x64_S4000x64_1_0_0_1_n_n 4 rfl rfl).symm k) = ix2 k q :=
    funext fun ax => Fin.ext (by
      match ax with
      | ⟨0, _⟩ => exact (rhs_ax0 _ _).trans hk
      | ⟨1, _⟩ => exact rhs_ax1 _ _)
  rw [el, er]

/-! ## The leaky rectifier as the payload writes it -/

/-- A select on "s above zero" between s and the slope times s is the leaky rectifier. -/
theorem leaky_select (s : EReal) :
    Scalar.select (FloatOps.cmpf (F := Ideal) (φ := .f32) .ogt s (Scalar.ofBits .f32 0x00000000#32)) s
        (FloatOps.mulf (F := Ideal) (φ := .f32) (Scalar.ofBits .f32 0x3E4CCCCD#32) s)
      = Cert.Gat.leaky s := by
  show Scalar.select (Ideal.cmp .ogt s (Ideal.ofBits .f32 0x00000000#32)) s (Cert.Gat.slope * s) = Cert.Gat.leaky s
  rw [Ideal.ofBits_zero_f32]
  unfold Cert.Gat.leaky Ideal.cmp
  by_cases h : (0 : EReal) < s
  · rw [if_pos h]
    show Scalar.select (BitVec.ofBool (decide ((0 : EReal) < s))) s _ = s
    rw [decide_eq_true h]
    exact select_one _ _
  · rw [if_neg h]
    show Scalar.select (BitVec.ofBool (decide ((0 : EReal) < s))) s _ = _
    rw [decide_eq_false h]
    exact select_zero _ _

/-! ## The payload at an index -/

/-- The leaky scores of a block's rows: the sum of the two [4000, 4] blocks through the rectifier. -/
def scoreBlk (x0 x1 : FVec Ideal S4000x4 .f32) : FVec Ideal S4000x4 .f32 :=
  select (cmpf .ogt (addf x0 x1) (broadcast S4000x4 (Scalar.ofBits .f32 0x00000000#32))) (addf x0 x1)
    (mulf (broadcast S4000x4 (Scalar.ofBits .f32 0x3E4CCCCD#32)) (addf x0 x1))

theorem scoreBlk_apply (x0 x1 : FVec Ideal S4000x4 .f32) (p : Fin 4000) (k : Fin 4) :
    scoreBlk x0 x1 (ix2 p k) = Cert.Gat.leaky (x0 (ix2 p k) + x1 (ix2 p k)) :=
  leaky_select (x0 (ix2 p k) + x1 (ix2 p k))

/-- A row's four scores as a function of the head. -/
abbrev rowScores (x0 x1 : FVec Ideal S4000x4 .f32) (p : Fin 4000) : Fin 4 → EReal :=
  fun h' => Cert.Gat.leaky (x0 (ix2 p h') + x1 (ix2 p h'))

theorem scoreBlk_row (x0 x1 : FVec Ideal S4000x4 .f32) (p : Fin 4000) :
    (fun h' : Fin 4 => scoreBlk x0 x1 (ix2 p h')) = rowScores x0 x1 p :=
  funext fun h' => scoreBlk_apply x0 x1 p h'

/-- Each row's largest score, repeated over the four lanes. -/
def maxCol (x0 x1 : FVec Ideal S4000x4 .f32) : FVec Ideal S4000x4 .f32 :=
  broadcastTo S4000x4
    (shapeCast S4000x1
      (multiReduction (F := Ideal) .maximumf [1] S4000 (scoreBlk x0 x1) 0xFF800000#32 reduces_S4000x4_S4000 (.inl rfl) rfl)
      shapeCasts_S4000_S4000x1)
    broadcasts_S4000x1_S4000x4

theorem maxCol_apply (x0 x1 : FVec Ideal S4000x4 .f32) (p : Fin 4000) (k : Fin 4) :
    maxCol x0 x1 (ix2 p k) = Cert.Gat.rowMax (rowScores x0 x1 p) := by
  show broadcastTo S4000x4 _ broadcasts_S4000x1_S4000x4 (ix2 p k) = _
  refine (col_bcast_apply _ _ p k).trans ?_
  refine (col_cast_apply _ _ p 0).trans ?_
  refine (lane_max_apply _ _ _ _ p).trans ?_
  exact congrArg Cert.Gat.rowMax (scoreBlk_row x0 x1 p)

/-- The exponentials of the scores shifted by their row's maximum. -/
def expBlk (x0 x1 : FVec Ideal S4000x4 .f32) : FVec Ideal S4000x4 .f32 :=
  exp (subf (scoreBlk x0 x1) (maxCol x0 x1))

theorem expBlk_apply (x0 x1 : FVec Ideal S4000x4 .f32) (p : Fin 4000) (k : Fin 4) :
    expBlk x0 x1 (ix2 p k) = Ideal.exp (rowScores x0 x1 p k - Cert.Gat.rowMax (rowScores x0 x1 p)) := by
  show Ideal.exp (scoreBlk x0 x1 (ix2 p k) - maxCol x0 x1 (ix2 p k)) = _
  rw [maxCol_apply, scoreBlk_apply]

/-- Each row's sum of exponentials, repeated over the four lanes. -/
def sumCol (x0 x1 : FVec Ideal S4000x4 .f32) : FVec Ideal S4000x4 .f32 :=
  broadcastTo S4000x4
    (shapeCast S4000x1
      (multiReduction (F := Ideal) .add [1] S4000 (expBlk x0 x1) 0x00000000#32 reduces_S4000x4_S4000 (.inl rfl) rfl)
      shapeCasts_S4000_S4000x1)
    broadcasts_S4000x1_S4000x4

theorem sumCol_apply (x0 x1 : FVec Ideal S4000x4 .f32) (p : Fin 4000) (k : Fin 4) :
    sumCol x0 x1 (ix2 p k)
      = ∑ h' : Fin 4, Ideal.exp (rowScores x0 x1 p h' - Cert.Gat.rowMax (rowScores x0 x1 p)) := by
  show broadcastTo S4000x4 _ broadcasts_S4000x1_S4000x4 (ix2 p k) = _
  refine (col_bcast_apply _ _ p k).trans ?_
  refine (col_cast_apply _ _ p 0).trans ?_
  refine (lane_sum_apply _ _ _ _ p).trans ?_
  exact Finset.sum_congr rfl fun h' _ => expBlk_apply x0 x1 p h'

/-- The softmax weights of a block's rows. -/
def wBlk (x0 x1 : FVec Ideal S4000x4 .f32) : FVec Ideal S4000x4 .f32 := divf (expBlk x0 x1) (sumCol x0 x1)

theorem wBlk_apply (x0 x1 : FVec Ideal S4000x4 .f32) (p : Fin 4000) (k : Fin 4) :
    wBlk x0 x1 (ix2 p k) = Cert.Gat.attn (rowScores x0 x1 p) k := by
  show Ideal.div (expBlk x0 x1 (ix2 p k)) (sumCol x0 x1 (ix2 p k)) = _
  rw [expBlk_apply, sumCol_apply]
  rfl

/-- The payload is the feature block times the weights spread by the [4, 64] matrix. -/
theorem pay_eq (x0 x1 : Vec Ideal S4000x4 .f32) (x19 : Vec Ideal S4x64 .f32) (x22 : Vec Ideal S4000x64 .f32) :
    k1_pay1 x0 x1 x19 x22
      = mulf (F := Ideal) (φ := .f32) x22 (matmul (φ₁ := .f32) (φ₂ := .f32) dot_S4000x4_S4x64_S4000x64_1_0_0_1_n_n (some .fp32) (wBlk x0 x1) (x19 : FVec Ideal S4x64 .f32)
          (constant (F := Ideal) S4000x64 .f32 0x00000000#32)) := by
  unfold k1_pay1
  simp only [shapeCast_self]
  rfl

/-- The payload at (p, q): the [4000, 64] block's entry times the softmax weights of row p spread by the [4, 64] matrix. -/
theorem pay_apply (x0 x1 : Vec Ideal S4000x4 .f32) (x19 : Vec Ideal S4x64 .f32) (x22 : Vec Ideal S4000x64 .f32)
    (p : Fin 4000) (q : Fin 64) :
    k1_pay1 x0 x1 x19 x22 (ix2 p q)
      = x22 (ix2 p q) * ∑ hd : Fin 4,
          Cert.Gat.attn (fun h' => Cert.Gat.leaky (x0 (ix2 p h') + x1 (ix2 p h'))) hd * x19 (ix2 hd q) := by
  rw [pay_eq]
  show x22 (ix2 p q) * matmul (φ₁ := .f32) (φ₂ := .f32) dot_S4000x4_S4x64_S4000x64_1_0_0_1_n_n (some .fp32) (wBlk x0 x1) (x19 : FVec Ideal S4x64 .f32)
      (constant (F := Ideal) S4000x64 .f32 0x00000000#32) (ix2 p q) = _
  refine congrArg (x22 (ix2 p q) * ·) ?_
  refine (matmul_ix2 _ _ _ p q).trans ?_
  exact Finset.sum_congr rfl fun hd _ => congrArg (· * x19 (ix2 hd q)) (wBlk_apply x0 x1 p hd)

/-! ## From blocks to the array -/

/-- Edge e's message on lane cc, from the four arrays the launch reads. -/
def msgAt (els erd : S800000x4.Idx → EReal) (fs : S800000x64.Idx → EReal) (rep : S4x64.Idx → EReal)
    (e : Fin 800000) (cc : Fin 64) : EReal :=
  fs (ix2 e cc)
    * ∑ hd : Fin 4, Cert.Gat.attn (fun h' => Cert.Gat.leaky (els (ix2 e h') + erd (ix2 e h'))) hd * rep (ix2 hd cc)

/-- The messages as one [800000, 64] array. -/
def msgArr (els erd : S800000x4.Idx → EReal) (fs : S800000x64.Idx → EReal) (rep : S4x64.Idx → EReal) :
    S800000x64.Idx → EReal :=
  fun i => msgAt els erd fs rep ⟨(i 0).val, idx2_lt0 i⟩ ⟨(i 1).val, idx2_lt1 i⟩

theorem msgArr_ix2 (els erd : S800000x4.Idx → EReal) (fs : S800000x64.Idx → EReal) (rep : S4x64.Idx → EReal)
    (e : Fin 800000) (cc : Fin 64) : msgArr els erd fs rep (ix2 e cc) = msgAt els erd fs rep e cc := rfl

theorem hz : (![0, 0] : Fin 2 → Nat) = fun _ => 0 := funext fun a => by fin_cases a <;> rfl

/-- The printed index maps over the grid: the row-blocked windows sit at block row t, the matrix at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The four input blocks at point t, each named at its literal type. -/
abbrev blkL (c : Dev nD) (t : Fin cfg1.N) : Vec Ideal S4000x4 .f32 := iblk1 V c 0 t
abbrev blkR (c : Dev nD) (t : Fin cfg1.N) : Vec Ideal S4000x4 .f32 := iblk1 V c 1 t
abbrev blkF (c : Dev nD) (t : Fin cfg1.N) : Vec Ideal S4000x64 .f32 := iblk1 V c 2 t
abbrev blkM (c : Dev nD) (t : Fin cfg1.N) : Vec Ideal S4x64 .f32 := iblk1 V c 3 t

/-- Block t of the first score array is its rows 4000 t … 4000 t + 3999. -/
theorem blkL_apply (c : Dev nD) (els : S800000x4.Idx → EReal) (hels : V c main_v19 = els) (t : Fin cfg1.N)
    (p : Fin 4000) (k : Fin 4) (e : Fin 800000) (he : e.val = 4000 * t.val + p.val) :
    blkL V c t (ix2 p k) = els (ix2 e k) := by
  obtain ⟨e0, e1, -⟩ := idx_facts t
  rw [← hels]
  show ((cfg1.win 0).blk t).view.read (Elt Ideal) (V c main_v19) (ix2 p k) = _
  rw [View.read_apply]
  show V c main_v19 _ = V c main_v19 _
  congr 1
  funext a
  apply Fin.ext
  match a with
  | ⟨0, _⟩ => show win1_0.index t (0 : Fin 2) * 4000 + 1 * p.val = e.val; rw [e0, he]; omega
  | ⟨1, _⟩ => show win1_0.index t (1 : Fin 2) * 4 + 1 * k.val = k.val; rw [e1]; omega

/-- Block t of the second score array is its rows 4000 t … 4000 t + 3999. -/
theorem blkR_apply (c : Dev nD) (erd : S800000x4.Idx → EReal) (herd : V c main_v20 = erd) (t : Fin cfg1.N)
    (p : Fin 4000) (k : Fin 4) (e : Fin 800000) (he : e.val = 4000 * t.val + p.val) :
    blkR V c t (ix2 p k) = erd (ix2 e k) := by
  obtain ⟨-, -, e0, e1, -⟩ := idx_facts t
  rw [← herd]
  show ((cfg1.win 1).blk t).view.read (Elt Ideal) (V c main_v20) (ix2 p k) = _
  rw [View.read_apply]
  show V c main_v20 _ = V c main_v20 _
  congr 1
  funext a
  apply Fin.ext
  match a with
  | ⟨0, _⟩ => show win1_1.index t (0 : Fin 2) * 4000 + 1 * p.val = e.val; rw [e0, he]; omega
  | ⟨1, _⟩ => show win1_1.index t (1 : Fin 2) * 4 + 1 * k.val = k.val; rw [e1]; omega

/-- Block t of the feature array is its rows 4000 t … 4000 t + 3999. -/
theorem blkF_apply (c : Dev nD) (fs : S800000x64.Idx → EReal) (hfs : V c main_v21 = fs) (t : Fin cfg1.N)
    (p : Fin 4000) (q : Fin 64) (e : Fin 800000) (he : e.val = 4000 * t.val + p.val) :
    blkF V c t (ix2 p q) = fs (ix2 e q) := by
  obtain ⟨-, -, -, -, e0, e1, -⟩ := idx_facts t
  rw [← hfs]
  show ((cfg1.win 2).blk t).view.read (Elt Ideal) (V c main_v21) (ix2 p q) = _
  rw [View.read_apply]
  show V c main_v21 _ = V c main_v21 _
  congr 1
  funext a
  apply Fin.ext
  match a with
  | ⟨0, _⟩ => show win1_2.index t (0 : Fin 2) * 4000 + 1 * p.val = e.val; rw [e0, he]; omega
  | ⟨1, _⟩ => show win1_2.index t (1 : Fin 2) * 64 + 1 * q.val = q.val; rw [e1]; omega

/-- The [4, 64] matrix is fetched whole at every point. -/
theorem blkM_apply (c : Dev nD) (rep : S4x64.Idx → EReal) (hrep : V c main_v17 = rep) (t : Fin cfg1.N)
    (hd : Fin 4) (q : Fin 64) : blkM V c t (ix2 hd q) = rep (ix2 hd q) := by
  obtain ⟨-, -, -, -, -, -, e0, e1, -⟩ := idx_facts t
  rw [← hrep]
  show ((cfg1.win 3).blk t).view.read (Elt Ideal) (V c main_v17) (ix2 hd q) = _
  rw [View.read_apply]
  show V c main_v17 _ = V c main_v17 _
  congr 1
  funext a
  apply Fin.ext
  match a with
  | ⟨0, _⟩ => show win1_3.index t (0 : Fin 2) * 4 + 1 * hd.val = hd.val; rw [e0]; omega
  | ⟨1, _⟩ => show win1_3.index t (1 : Fin 2) * 64 + 1 * q.val = q.val; rw [e1]; omega

/-- What point t writes back is block t of the message array. -/
theorem flushed_eq (c : Dev nD)
    (els erd : S800000x4.Idx → EReal) (fs : S800000x64.Idx → EReal) (rep : S4x64.Idx → EReal)
    (hels : V c main_v19 = els) (herd : V c main_v20 = erd) (hfs : V c main_v21 = fs) (hrep : V c main_v17 = rep)
    (t : Fin cfg1.N) :
    (dat1 (F := Ideal) V c).flushed 4 t = ((cfg1.win 4).blk t).view.read (Elt Ideal) (msgArr els erd fs rep) := by
  show (cfg1.win 4).cut (grid1.coords t) ((dat1 (F := Ideal) V c).after 4 t) = _
  rw [after1_4]
  unfold out1_4
  rw [View.canon_unit_zero hz]
  simp only [View.ld_unit_zero (S := S4000x4) hz, View.ld_unit_zero (S := S4x64) hz, View.ld_unit_zero (S := S4000x64) hz]
  funext j
  obtain ⟨p, q, rfl⟩ : ∃ (p : Fin 4000) (q : Fin 64), j = ix2 p q := ⟨j 0, j 1, eq_ix2 j⟩
  show k1_pay1 (blkL V c t) (blkR V c t) (blkM V c t) (blkF V c t) (ix2 p q) = _
  refine (pay_apply (blkL V c t) (blkR V c t) (blkM V c t) (blkF V c t) p q).trans ?_
  have ht : t.val < 200 := lt_of_lt_of_eq t.isLt N_1
  obtain ⟨-, -, -, -, -, -, -, -, e0, e1⟩ := idx_facts t
  have hemb : ((cfg1.win 4).blk t).view.emb (ix2 p q) = ix2 (⟨4000 * t.val + p.val, by omega⟩ : Fin 800000) q := by
    funext a
    apply Fin.ext
    match a with
    | ⟨0, _⟩ => show win1_4.index t (0 : Fin 2) * 4000 + 1 * p.val = 4000 * t.val + p.val; rw [e0]; omega
    | ⟨1, _⟩ => show win1_4.index t (1 : Fin 2) * 64 + 1 * q.val = q.val; rw [e1]; omega
  rw [View.read_apply]
  show _ = msgArr els erd fs rep (((cfg1.win 4).blk t).view.emb (ix2 p q))
  rw [hemb, msgArr_ix2]
  unfold msgAt
  rw [blkF_apply V c fs hfs t p q ⟨4000 * t.val + p.val, by omega⟩ rfl]
  refine congrArg (fs (ix2 (⟨4000 * t.val + p.val, by omega⟩ : Fin 800000) q) * ·) ?_
  refine Finset.sum_congr rfl fun hd _ => ?_
  rw [blkM_apply V c rep hrep t hd q]
  refine congrArg (· * rep (ix2 hd q)) ?_
  refine congrArg (fun v : Fin 4 → EReal => Cert.Gat.attn v hd) ?_
  funext h'
  rw [blkL_apply V c els hels t p h' ⟨4000 * t.val + p.val, by omega⟩ rfl,
    blkR_apply V c erd herd t p h' ⟨4000 * t.val + p.val, by omega⟩ rfl]

/-- An index of the array is in point t's block iff each coordinate is in the block's range on its axis. -/
theorem mem_blk (t : Fin cfg1.N) (i : S800000x64.Idx) :
    i ∈ ((cfg1.win 4).blk t).view.set
      ↔ ∀ a : Fin 2, win1_4.index t a * S4000x64.size a ≤ (i a).val
          ∧ (i a).val < win1_4.index t a * S4000x64.size a + S4000x64.size a := by
  show i ∈ ((View.whole main_v22).slice (win1_4.rect t)).set ↔ _
  rw [View.set_slice_whole, Rect.mem_set_unit]
  exact Iff.rfl

/-- Row r of the array lies in the block of point r / 4000. -/
theorem cover (i : S800000x64.Idx) :
    ∃ t : Fin cfg1.N, (cfg1.win 4).flush t = true ∧ i ∈ ((cfg1.win 4).blk t).view.set := by
  have hi0 : (i 0).val < 800000 := idx2_lt0 i
  have hi1 : (i 1).val < 64 := idx2_lt1 i
  have hN : cfg1.N = 200 := N_1
  refine ⟨⟨(i 0).val / 4000, by rw [hN]; omega⟩, flush1_4 _, ?_⟩
  rw [mem_blk]
  obtain ⟨-, -, -, -, -, -, -, -, e0, e1⟩ := idx_facts ⟨(i 0).val / 4000, by rw [hN]; omega⟩
  intro a
  match a with
  | ⟨0, _⟩ =>
    show win1_4.index _ (0 : Fin 2) * 4000 ≤ (i 0).val ∧ (i 0).val < win1_4.index _ (0 : Fin 2) * 4000 + 4000
    rw [e0]
    show (i 0).val / 4000 * 4000 ≤ (i 0).val ∧ (i 0).val < (i 0).val / 4000 * 4000 + 4000
    omega
  | ⟨1, _⟩ =>
    show win1_4.index _ (1 : Fin 2) * 64 ≤ (i 1).val ∧ (i 1).val < win1_4.index _ (1 : Fin 2) * 64 + 64
    rw [e1]
    omega

/-- The array after the run is the message array. -/
theorem arr_eq (c : Dev nD)
    (els erd : S800000x4.Idx → EReal) (fs : S800000x64.Idx → EReal) (rep : S4x64.Idx → EReal)
    (hels : V c main_v19 = els) (herd : V c main_v20 = erd) (hfs : V c main_v21 = fs) (hrep : V c main_v17 = rep) :
    (dat1 (F := Ideal) V c).arrAt 4 cfg1.N = msgArr els erd fs rep :=
  (dat1 (F := Ideal) V c).arrAt_eq_of_cover 4 (msgArr els erd fs rep)
    (fun t _ => flushed_eq V c els erd fs rep hels herd hfs hrep t) cover

/-- Edge e, lane cc of window 4's array after the run: the gathered feature times the softmax weights of the
    edge's four leaky scores, spread over the lanes by the [4, 64] matrix in main_v17. The four arrays the launch
    reads are named by variables of their literal types. -/
theorem arr_msg (c : Dev nD)
    (els erd : S800000x4.Idx → EReal) (fs : S800000x64.Idx → EReal) (rep : S4x64.Idx → EReal)
    (hels : V c main_v19 = els) (herd : V c main_v20 = erd) (hfs : V c main_v21 = fs) (hrep : V c main_v17 = rep)
    (e : Fin 800000) (cc : Fin 64) :
    ((dat1 (F := Ideal) V c).arrAt 4 cfg1.N : S800000x64.Idx → EReal) (ix2 e cc)
      = fs (ix2 e cc)
        * ∑ hd : Fin 4, Cert.Gat.attn (fun h' => Cert.Gat.leaky (els (ix2 e h') + erd (ix2 e h'))) hd * rep (ix2 hd cc) := by
  rw [arr_eq V c els erd fs rep hels herd hfs hrep]
  rfl

end Cert.KernelIdeal.Region1

end
-- ==== Proof.LibScatterAddRows.lean ====
/- The accumulating scatter of whole rows: operand [N, C] (or [N, A, B]), start indices [n, 1], updates [n, C] (or [n, A, B]); the operand's axis 0 is inserted and named by the one component of the index vector, the other axes are the update window. Update row j lands on operand row i exactly when its start index, read signed, equals i; a row outside [0, N) lands nowhere. -/
import Idealize.ShloMosaic.PureOps.Ideal
import Idealize.ShloMosaic.Lib.ValueIdx

noncomputable section

open scoped BigOperators

namespace Cert.LibScatterAddRows

open Idealize.ShloMosaic Idealize.ShloMosaic.ValueIdx

/-! ## One window axis -/

/-- An axis of a rank-2 shape is axis 0 or axis 1. -/
theorem axis2_cases {N C : Nat} (a : Fin (⟨2, ![N, C]⟩ : Shape).rank) : a = 0 ∨ a = 1 := by
  match a with
  | ⟨0, _⟩ => exact Or.inl rfl
  | ⟨1, _⟩ => exact Or.inr rfl

/-- The dimension numbers of a scatter of whole rows, one window axis. -/
abbrev rows2Dims (N n C : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Rows2
variable {N n C w : Nat} (wf : ScatterDims.WF ⟨2, ![N, C]⟩ ⟨2, ![n, 1]⟩ ⟨2, ![n, C]⟩ [1] [0] [0] 1)
  (j : Fin n) (c : Fin C) (idx : IVec ⟨2, ![n, 1]⟩ w)

/-- On the inserted axis the window of update (j, c) starts at row j's start index, read signed. -/
theorem rows2_start0 : (rows2Dims N n C wf).start (ix2 j c) idx 0 = (idx (ix2 j (0 : Fin 1))).toInt := by
  unfold ScatterDims.start
  rw [dif_pos (show (0 : Fin 2) ∈ (rows2Dims N n C wf).scatterDimsToOperandDims from List.mem_singleton.mpr rfl)]
  have hsi : (rows2Dims N n C wf).siIdx (ix2 j c) ⟨List.idxOf (0 : Fin 2) (rows2Dims N n C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the window axis the start is 0. -/
theorem rows2_start1 : (rows2Dims N n C wf).start (ix2 j c) idx 1 = 0 := by
  unfold ScatterDims.start
  rw [dif_neg]
  simp

/-- The inserted axis has window coordinate 0. -/
theorem rows2_window0 : (rows2Dims N n C wf).window (ix2 j c) 0 = 0 := by
  unfold ScatterDims.window
  rw [dif_neg]
  simp [ScatterDims.sKept, Shape.kept, List.mem_filter, List.mem_finRange]

/-- The window axis has the update's column as window coordinate. -/
theorem rows2_window1 : (rows2Dims N n C wf).window (ix2 j c) 1 = c.val := by
  unfold ScatterDims.window
  rw [dif_pos (by simp [ScatterDims.sKept, Shape.kept, List.mem_filter, List.mem_finRange])]
  rfl

/-- Update (j, c) lands on (i, c') exactly when row j's start index, read signed, is i and the columns agree. -/
theorem rows2_resultIdx?_eq_some_iff (i : Fin N) (c' : Fin C) :
    (rows2Dims N n C wf).resultIdx? (ix2 j c) idx = some (ix2 i c')
      ↔ ((idx (ix2 j (0 : Fin 1))).toInt = (i.val : ℤ) ∧ c = c') := by
  unfold ScatterDims.resultIdx?
  have hs0 : (rows2Dims N n C wf).start (ix2 j c) idx 0 + ((rows2Dims N n C wf).window (ix2 j c) 0 : ℤ)
      = (idx (ix2 j (0 : Fin 1))).toInt := by
    rw [rows2_start0, rows2_window0]; simp
  have hs1 : (rows2Dims N n C wf).start (ix2 j c) idx 1 + ((rows2Dims N n C wf).window (ix2 j c) 1 : ℤ)
      = (c.val : ℤ) := by
    rw [rows2_start1, rows2_window1]; simp
  constructor
  · intro h
    split at h
    · rename_i hall
      have e := Option.some.inj h
      have h0 := congrArg Fin.val (congrFun e 0)
      have h1 := congrArg Fin.val (congrFun e 1)
      change ((rows2Dims N n C wf).start (ix2 j c) idx 0 + ((rows2Dims N n C wf).window (ix2 j c) 0 : ℤ)).toNat
        = i.val at h0
      change ((rows2Dims N n C wf).start (ix2 j c) idx 1 + ((rows2Dims N n C wf).window (ix2 j c) 1 : ℤ)).toNat
        = c'.val at h1
      have hp := (hall 0).1
      rw [hs0] at h0 hp
      rw [hs1] at h1
      exact ⟨by omega, Fin.ext (by omega)⟩
    · exact absurd h (by simp)
  · rintro ⟨h, rfl⟩
    have hall : ∀ a, 0 ≤ (rows2Dims N n C wf).start (ix2 j c) idx a + ((rows2Dims N n C wf).window (ix2 j c) a : ℤ) ∧
        (rows2Dims N n C wf).start (ix2 j c) idx a + ((rows2Dims N n C wf).window (ix2 j c) a : ℤ)
          < ((⟨2, ![N, C]⟩ : Shape).size a : ℤ) := by
      intro a
      rcases axis2_cases a with rfl | rfl
      · rw [hs0, h]
        have := i.isLt
        constructor
        · omega
        · change (i.val : ℤ) < (N : ℤ); omega
      · rw [hs1]
        have := c.isLt
        constructor
        · omega
        · change (c.val : ℤ) < (C : ℤ); omega
    rw [dif_pos hall]
    congr 1
    funext a
    refine Fin.ext ?_
    rcases axis2_cases a with rfl | rfl
    · change ((rows2Dims N n C wf).start (ix2 j c) idx 0 + ((rows2Dims N n C wf).window (ix2 j c) 0 : ℤ)).toNat = i.val
      rw [hs0, h]; simp
    · change ((rows2Dims N n C wf).start (ix2 j c) idx 1 + ((rows2Dims N n C wf).window (ix2 j c) 1 : ℤ)).toNat = c.val
      rw [hs1]; simp

end Rows2

/-- THE ROW SCATTER-ADD READ AT (i, c), one window axis: the operand there plus the sum, over the update rows whose
    start index is i, of the update at column c. -/
theorem scatterAdd_rows2_apply {N n C w : Nat} {φ : FTy} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1)
    (x : FVec Ideal ⟨2, ![N, C]⟩ φ) (idx : IVec ⟨2, ![n, 1]⟩ w) (upd : FVec Ideal ⟨2, ![n, C]⟩ φ) (i : Fin N) (c : Fin C) :
    Host.scatterAdd d x idx upd (ix2 i c)
      = x (ix2 i c) + ∑ j ∈ Finset.univ.filter (fun j : Fin n => (idx (ix2 j (0 : Fin 1))).toInt = (i.val : ℤ)), upd (ix2 j c) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix2 j c) ?_ ?_ ?_ ?_
  · intro j hj
    simp only [Finset.mem_filter, Finset.mem_univ, true_and] at hj ⊢
    exact (rows2_resultIdx?_eq_some_iff wf j c idx i c).2 ⟨hj, rfl⟩
  · intro j _ j' _ hjj
    exact congrFun hjj 0
  · intro p hp
    simp only [Finset.mem_filter, Finset.mem_univ, true_and] at hp
    rw [eq_ix2 p] at hp ⊢
    obtain ⟨h0, h1⟩ := (rows2_resultIdx?_eq_some_iff wf (p 0) (p 1) idx i c).1 hp
    exact ⟨p 0, Finset.mem_filter.2 ⟨Finset.mem_univ _, h0⟩, congrArg (ix2 (p 0)) h1.symm⟩
  · intro j _
    rfl

/-! ## Two window axes -/

/-- An axis of a rank-3 shape is axis 0, 1 or 2. -/
theorem axis3_cases {N A B : Nat} (a : Fin (⟨3, ![N, A, B]⟩ : Shape).rank) : a = 0 ∨ a = 1 ∨ a = 2 := by
  match a with
  | ⟨0, _⟩ => exact Or.inl rfl
  | ⟨1, _⟩ => exact Or.inr (Or.inl rfl)
  | ⟨2, _⟩ => exact Or.inr (Or.inr rfl)

/-- The dimension numbers of a scatter of whole rows, two window axes. -/
abbrev rows3Dims (N n A B : Nat)
    (wf : ScatterDims.WF ⟨3, ![N, A, B]⟩ ⟨2, ![n, 1]⟩ ⟨3, ![n, A, B]⟩ [1, 2] [0] [0] 1) :
    ScatterDims ⟨3, ![N, A, B]⟩ ⟨2, ![n, 1]⟩ ⟨3, ![n, A, B]⟩ where
  updateWindowDims := [1, 2]
  insertedWindowDims := [0]
  scatterDimsToOperandDims := [0]
  indexVectorDim := 1
  wf := wf

section Rows3
variable {N n A B w : Nat} (wf : ScatterDims.WF ⟨3, ![N, A, B]⟩ ⟨2, ![n, 1]⟩ ⟨3, ![n, A, B]⟩ [1, 2] [0] [0] 1)
  (j : Fin n) (a : Fin A) (b : Fin B) (idx : IVec ⟨2, ![n, 1]⟩ w)

/-- On the inserted axis the window of update (j, a, b) starts at row j's start index, read signed. -/
theorem rows3_start0 : (rows3Dims N n A B wf).start (ix3 j a b) idx 0 = (idx (ix2 j (0 : Fin 1))).toInt := by
  unfold ScatterDims.start
  rw [dif_pos (show (0 : Fin 3) ∈ (rows3Dims N n A B wf).scatterDimsToOperandDims from List.mem_singleton.mpr rfl)]
  have hsi : (rows3Dims N n A B wf).siIdx (ix3 j a b)
      ⟨List.idxOf (0 : Fin 3) (rows3Dims N n A B wf).scatterDimsToOperandDims,
        List.idxOf_lt_length_iff.2 (List.mem_singleton.mpr rfl)⟩ = ix2 j (0 : Fin 1) := by
    funext e; refine Fin.ext ?_
    match e with
    | ⟨0, _⟩ => rfl
    | ⟨1, _⟩ => rfl
  rw [hsi]

/-- On the first window axis the start is 0. -/
theorem rows3_start1 : (rows3Dims N n A B wf).start (ix3 j a b) idx 1 = 0 := by
  unfold ScatterDims.start
  rw [dif_neg]
  simp

/-- On the second window axis the start is 0. -/
theorem rows3_start2 : (rows3Dims N n A B wf).start (ix3 j a b) idx 2 = 0 := by
  unfold ScatterDims.start
  rw [dif_neg]
  simp

/-- The inserted axis has window coordinate 0. -/
theorem rows3_window0 : (rows3Dims N n A B wf).window (ix3 j a b) 0 = 0 := by
  unfold ScatterDims.window
  rw [dif_neg]
  simp [ScatterDims.sKept, Shape.kept, List.mem_filter, List.mem_finRange]

/-- The first window axis has the update's second coordinate as window coordinate. -/
theorem rows3_window1 : (rows3Dims N n A B wf).window (ix3 j a b) 1 = a.val := by
  unfold ScatterDims.window
  rw [dif_pos (by simp [ScatterDims.sKept, Shape.kept, List.mem_filter, List.mem_finRange])]
  rfl

/-- The second window axis has the update's third coordinate as window coordinate. -/
theorem rows3_window2 : (rows3Dims N n A B wf).window (ix3 j a b) 2 = b.val := by
  unfold ScatterDims.window
  rw [dif_pos (by simp [ScatterDims.sKept, Shape.kept, List.mem_filter, List.mem_finRange])]
  rfl

/-- Update (j, a, b) lands on (i, a', b') exactly when row j's start index, read signed, is i and the window
    coordinates agree. -/
theorem rows3_resultIdx?_eq_some_iff (i : Fin N) (a' : Fin A) (b' : Fin B) :
    (rows3Dims N n A B wf).resultIdx? (ix3 j a b) idx = some (ix3 i a' b')
      ↔ ((idx (ix2 j (0 : Fin 1))).toInt = (i.val : ℤ) ∧ a = a' ∧ b = b') := by
  unfold ScatterDims.resultIdx?
  have hs0 : (rows3Dims N n A B wf).start (ix3 j a b) idx 0 + ((rows3Dims N n A B wf).window (ix3 j a b) 0 : ℤ)
      = (idx (ix2 j (0 : Fin 1))).toInt := by
    rw [rows3_start0, rows3_window0]; simp
  have hs1 : (rows3Dims N n A B wf).start (ix3 j a b) idx 1 + ((rows3Dims N n A B wf).window (ix3 j a b) 1 : ℤ)
      = (a.val : ℤ) := by
    rw [rows3_start1, rows3_window1]; simp
  have hs2 : (rows3Dims N n A B wf).start (ix3 j a b) idx 2 + ((rows3Dims N n A B wf).window (ix3 j a b) 2 : ℤ)
      = (b.val : ℤ) := by
    rw [rows3_start2, rows3_window2]; simp
  constructor
  · intro h
    split at h
    · rename_i hall
      have e := Option.some.inj h
      have h0 := congrArg Fin.val (congrFun e 0)
      have h1 := congrArg Fin.val (congrFun e 1)
      have h2 := congrArg Fin.val (congrFun e 2)
      change ((rows3Dims N n A B wf).start (ix3 j a b) idx 0 + ((rows3Dims N n A B wf).window (ix3 j a b) 0 : ℤ)).toNat
        = i.val at h0
      change ((rows3Dims N n A B wf).start (ix3 j a b) idx 1 + ((rows3Dims N n A B wf).window (ix3 j a b) 1 : ℤ)).toNat
        = a'.val at h1
      change ((rows3Dims N n A B wf).start (ix3 j a b) idx 2 + ((rows3Dims N n A B wf).window (ix3 j a b) 2 : ℤ)).toNat
        = b'.val at h2
      have hp := (hall 0).1
      rw [hs0] at h0 hp
      rw [hs1] at h1
      rw [hs2] at h2
      exact ⟨by omega, Fin.ext (by omega), Fin.ext (by omega)⟩
    · exact absurd h (by simp)
  · rintro ⟨h, rfl, rfl⟩
    have hall : ∀ e, 0 ≤ (rows3Dims N n A B wf).start (ix3 j a b) idx e + ((rows3Dims N n A B wf).window (ix3 j a b) e : ℤ) ∧
        (rows3Dims N n A B wf).start (ix3 j a b) idx e + ((rows3Dims N n A B wf).window (ix3 j a b) e : ℤ)
          < ((⟨3, ![N, A, B]⟩ : Shape).size e : ℤ) := by
      intro e
      rcases axis3_cases e with rfl | rfl | rfl
      · rw [hs0, h]
        have := i.isLt
        constructor
        · omega
        · change (i.val : ℤ) < (N : ℤ); omega
      · rw [hs1]
        have := a.isLt
        constructor
        · omega
        · change (a.val : ℤ) < (A : ℤ); omega
      · rw [hs2]
        have := b.isLt
        constructor
        · omega
        · change (b.val : ℤ) < (B : ℤ); omega
    rw [dif_pos hall]
    congr 1
    funext e
    refine Fin.ext ?_
    rcases axis3_cases e with rfl | rfl | rfl
    · change ((rows3Dims N n A B wf).start (ix3 j a b) idx 0 + ((rows3Dims N n A B wf).window (ix3 j a b) 0 : ℤ)).toNat = i.val
      rw [hs0, h]; simp
    · change ((rows3Dims N n A B wf).start (ix3 j a b) idx 1 + ((rows3Dims N n A B wf).window (ix3 j a b) 1 : ℤ)).toNat = a.val
      rw [hs1]; simp
    · change ((rows3Dims N n A B wf).start (ix3 j a b) idx 2 + ((rows3Dims N n A B wf).window (ix3 j a b) 2 : ℤ)).toNat = b.val
      rw [hs2]; simp

end Rows3

/-- The same with two window axes. -/
theorem scatterAdd_rows3_apply {N n A B w : Nat} {φ : FTy} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1)
    (x : FVec Ideal ⟨3, ![N, A, B]⟩ φ) (idx : IVec ⟨2, ![n, 1]⟩ w) (upd : FVec Ideal ⟨3, ![n, A, B]⟩ φ)
    (i : Fin N) (a : Fin A) (b : Fin B) :
    Host.scatterAdd d x idx upd (ix3 i a b)
      = x (ix3 i a b) + ∑ j ∈ Finset.univ.filter (fun j : Fin n => (idx (ix2 j (0 : Fin 1))).toInt = (i.val : ℤ)), upd (ix3 j a b) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix3 j a b) ?_ ?_ ?_ ?_
  · intro j hj
    simp only [Finset.mem_filter, Finset.mem_univ, true_and] at hj ⊢
    exact (rows3_resultIdx?_eq_some_iff wf j a b idx i a b).2 ⟨hj, rfl, rfl⟩
  · intro j _ j' _ hjj
    exact congrFun hjj 0
  · intro p hp
    simp only [Finset.mem_filter, Finset.mem_univ, true_and] at hp
    rw [eq_ix3 p] at hp ⊢
    obtain ⟨h0, h1, h2⟩ := (rows3_resultIdx?_eq_some_iff wf (p 0) (p 1) (p 2) idx i a b).1 hp
    exact ⟨p 0, Finset.mem_filter.2 ⟨Finset.mem_univ _, h0⟩, congrArg₂ (ix3 (p 0)) h1.symm h2.symm⟩
  · intro j _
    rfl

end Cert.LibScatterAddRows

end
-- ==== Proof.KHostC.lean ====
/- The host operations after the second launch: the messages summed into their destination nodes, the residual added, the lanes split into heads. -/
import proofs.«405722_j15779709845542_2_alg».proof.Proof.LibScatterAddRows
import proofs.«405722_j15779709845542_2_alg».proof.Proof.Gen.KernelIdeal.Launch
import proofs.«405722_j15779709845542_2_alg».proof.Proof.GatSpec
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.HostC

open Idealize.ShloMosaic Idealize.ShloMosaic.TcCoe Idealize.ShloMosaic.ValueIdx Idealize.SL.Sem
open Cert.KernelIdeal Cert.KernelIdeal.Gen

/-- The destination words broadcast to a column read, at row j, word j. -/
theorem dstCol_apply (dstw : S800000.Idx → BitVec 32) (j : Fin 800000) :
    broadcastInDim S800000x1 ![0] bcast_S800000_S800000x1_0 dstw (ix2 j (0 : Fin 1)) = dstw (ix1 j) := by
  refine broadcastInDim_apply _ _ _ _ _ (fun a => ?_)
  match a with
  | ⟨0, _⟩ => rfl

/-- Lane 16 hd + d of row n sits at the row-major position of (n, hd, d). -/
theorem pos_lane (n : Fin 50000) (hd : Fin 4) (d : Fin 16) :
    (S50000x64.rowMajor (ix2 n (Cert.Gat.lane hd d))).val = (S50000x4x16.rowMajor (ix3 n hd d)).val := by
  rw [Shape.rowMajor_val_two, Shape.rowMajor_val_three]
  show n.val * 64 + (16 * hd.val + d.val) = (n.val * 4 + hd.val) * 16 + d.val
  omega

/-- The tail's composed term over arrays of literal types, read at (n, hd, d): the zero operand vanishes, the scatter
    sums the rows whose destination word is n, the residual is added, and the reshape reads lane 16 hd + d of row n. -/
theorem tail_apply (dstw : S800000.Idx → BitVec 32) (msgs : S800000x64.Idx → EReal) (res : S50000x64.Idx → EReal)
    (n : Fin 50000) (hd : Fin 4) (d : Fin 16) :
    shapeCast S50000x4x16
        (addf (F := Ideal) (φ := .f32)
          (Host.scatterAdd (F := Ideal) (φ := .f32) scatter_S50000x64_S800000x1_S800000x64_1_0_0_1
            (broadcastInDim S50000x64 ![] bcast_S_S50000x64 (constant (F := Ideal) S_ FTy.f32 0#32))
            (broadcastInDim S800000x1 ![0] bcast_S800000_S800000x1_0 dstw)
            msgs)
          res)
        shapeCasts_S50000x64_S50000x4x16 (ix3 n hd d)
      = (∑ e ∈ Finset.univ.filter (fun e : Fin 800000 => (dstw (ix1 e)).toInt = (n.val : ℤ)),
          msgs (ix2 e (Cert.Gat.lane hd d)))
        + res (ix2 n (Cert.Gat.lane hd d)) := by
  rw [shapeCast_apply _ shapeCasts_S50000x64_S50000x4x16 (ix3 n hd d) (ix2 n (Cert.Gat.lane hd d)) (pos_lane n hd d)]
  rw [addf_apply]
  rw [Cert.LibScatterAddRows.scatterAdd_rows2_apply scatter_S50000x64_S800000x1_S800000x64_1_0_0_1 rfl rfl rfl rfl]
  rw [broadcastInDim_scalar_apply, constant_apply, Ideal.ofBits_zero_f32, zero_add]
  refine congrArg (fun t => t + res (ix2 n (Cert.Gat.lane hd d))) ?_
  refine Finset.sum_congr (Finset.filter_congr fun j _ => ?_) (fun _ _ => rfl)
  rw [dstCol_apply dstw j]

/-- The program's result at node n, head hd, lane d: the messages (main_v22) of the edges whose destination word, read
    signed, is n, summed on lane 16 hd + d, plus the residual (main_v18_3) there. The three arrays the tail reads are
    named by variables of their literal types. -/
theorem afterC_v27 (W : Valuation τ sig (Elt Ideal))
    (dstw : S800000.Idx → BitVec 32) (msgs : S800000x64.Idx → EReal) (res : S50000x64.Idx → EReal)
    (hdst : W (Proc.devRef .tc main_arg2) = dstw) (hmsgs : W (Proc.devRef .tc main_v22) = msgs)
    (hres : W (Proc.devRef .tc main_v18_3) = res) (n : Fin 50000) (hd : Fin 4) (d : Fin 16) :
    (StableHlo.after (hostOps2 (F := Ideal)) W (Proc.devRef .tc main_v27) : S50000x4x16.Idx → EReal) (ix3 n hd d)
      = (∑ e ∈ Finset.univ.filter (fun e : Fin 800000 => (dstw (ix1 e)).toInt = (n.val : ℤ)),
          msgs (ix2 e (Cert.Gat.lane hd d)))
        + res (ix2 n (Cert.Gat.lane hd d)) := by
  after_results
  rw [hdst, hmsgs, hres]
  exact tail_apply dstw msgs res n hd d

end Cert.KernelIdeal.HostC

end
-- ==== Proof.GatAlgebra.lean ====
/- The two sums the one-hot matrices turn into plain ones. -/
import proofs.«405722_j15779709845542_2_alg».proof.Proof.GatSpec

noncomputable section

open scoped BigOperators

namespace Cert.Gat

open Idealize.ShloMosaic Idealize.ShloMosaic.ValueIdx

/-- The 64 lanes listed head by head: the pair (head, position in the head) names lane 16 * head + position, and every
    lane is named by exactly one pair. -/
def laneEquiv : Fin 4 × Fin 16 ≃ Fin 64 where
  toFun p := lane p.1 p.2
  invFun c := (headOf c, dimOf c)
  left_inv p := Prod.ext (headOf_lane p.1 p.2) (dimOf_lane p.1 p.2)
  right_inv c := lane_head_dim c

theorem laneEquiv_apply (hd : Fin 4) (d : Fin 16) : laneEquiv (hd, d) = lane hd d := rfl

/-- The one-hot entry of a lane of head h' in column hd. -/
theorem onehot_lane (h' hd : Fin 4) (d : Fin 16) : onehot (lane h' d) hd = if h' = hd then 1 else 0 := by
  rw [onehot, headOf_lane]

/-- A sum over all 64 lanes, taken head by head. -/
theorem sum_lanes (g : Fin 64 → EReal) : ∑ cc : Fin 64, g cc = ∑ h' : Fin 4, ∑ d : Fin 16, g (lane h' d) := by
  rw [← Equiv.sum_comp laneEquiv g, Fintype.sum_prod_type]
  rfl

/-- A sum over all 64 lanes against the selection matrix's column hd is the sum over head hd's 16 lanes: the other
    lanes' terms are products with zero. -/
theorem sum_selMat (f : Fin 64 → EReal) (a : SA.Idx → EReal) (hd : Fin 4) :
    ∑ cc : Fin 64, f cc * selMat a (ix2 cc hd) = ∑ d : Fin 16, f (lane hd d) * a (ix3 (0 : Fin 1) hd d) := by
  rw [sum_lanes (fun cc => f cc * selMat a (ix2 cc hd))]
  rw [Finset.sum_eq_single hd]
  · -- head hd's own lanes: the one-hot factor is 1
    refine Finset.sum_congr rfl (fun d _ => ?_)
    show f (lane hd d) * selMat a (ix2 (lane hd d) hd) = _
    rw [selMat_ix2, onehot_lane, if_pos rfl, one_mul, headOf_lane, dimOf_lane]
  · -- another head's lanes: the one-hot factor is 0, and a product with 0 is 0 whatever the other factor
    intro h' _ hne
    refine Finset.sum_eq_zero (fun d _ => ?_)
    show f (lane h' d) * selMat a (ix2 (lane h' d) hd) = 0
    rw [selMat_ix2, onehot_lane, if_neg hne, zero_mul, mul_zero]
  · intro h
    exact absurd (Finset.mem_univ hd) h

/-- A sum over the 4 heads against the repeat matrix's column cc picks the weight of cc's head. -/
theorem sum_repMat (w : Fin 4 → EReal) (cc : Fin 64) :
    ∑ hd : Fin 4, w hd * repMat (ix2 hd cc) = w (headOf cc) := by
  rw [Finset.sum_eq_single (headOf cc)]
  · rw [repMat_ix2, onehot, if_pos rfl, mul_one]
  · intro h' _ hne
    rw [repMat_ix2, onehot, if_neg (Ne.symm hne), mul_zero]
  · intro h
    exact absurd (Finset.mem_univ (headOf cc)) h

/-- So the per-head sum of a projection against the selection matrix is the logit. -/
theorem headSum_selMat (x : SN64.Idx → EReal) (W : SW.Idx → EReal) (a : SA.Idx → EReal) (n : Fin 50000) (hd : Fin 4) :
    headSum (projArr x W) (selMat a) (ix2 n hd) = logit x W a n hd := by
  rw [headSum_ix2]
  simp only [projArr_ix2]
  rw [sum_selMat (fun cc => proj x W n cc) a hd]
  rfl

/-- The softmax weights depend only on the four scores' values. -/
theorem attn_congr (v v' : Fin 4 → EReal) (h : ∀ k, v k = v' k) (hd : Fin 4) : attn v hd = attn v' hd := by
  rw [funext h]

/-- A lane's number. -/
theorem lane_lt (hd : Fin 4) (d : Fin 16) : (lane hd d).val = 16 * hd.val + d.val := rfl

end Cert.Gat

end
-- ==== Proof.KValue.lean ====
/- The kernel program's result is the layer's specification: the run's boundary contents walked back from the result buffer to the arguments. -/
import proofs.«405722_j15779709845542_2_alg».proof.Proof.Gen.KernelIdeal.Frame
import proofs.«405722_j15779709845542_2_alg».proof.Proof.KHostA
import proofs.«405722_j15779709845542_2_alg».proof.Proof.KRegion0
import proofs.«405722_j15779709845542_2_alg».proof.Proof.KHostB
import proofs.«405722_j15779709845542_2_alg».proof.Proof.KRegion1
import proofs.«405722_j15779709845542_2_alg».proof.Proof.KHostC
import proofs.«405722_j15779709845542_2_alg».proof.Proof.GatSpec
import proofs.«405722_j15779709845542_2_alg».proof.Proof.GatAlgebra
import Idealize.ShloMosaic.Lib.ValueIdx

set_option maxRecDepth 16384

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen
open Cert.KernelIdeal.HostA Cert.KernelIdeal.HostB Cert.KernelIdeal.HostC Cert.KernelIdeal.Region0 Cert.KernelIdeal.Region1

variable (m : (ℓ : Loc nD τ sig) → Buf (Elt Ideal) ℓ) (ρ : Dev nD → PrngReg)

set_option maxHeartbeats 1600000 in
/-- From a launch memory that holds the seven arguments, with every source word naming a node, the last boundary's
    contents at the result buffer are the specification. The tail sums, per node, the second launch's messages of the
    edges that END there; such an edge's destination word is in range, its source word is by hypothesis, so both of its
    gathered rows are real rows (no fill), the first launch's arrays there are the projection and the two logits (the
    selection matrices turning the 64-lane sums into the heads' 16-lane sums), and the second launch's weight sum over
    the heads against the repeat matrix picks the weight of the lane's head. -/
theorem value (c : Dev nD)
    (x : S50000x64.Idx → EReal) (srcw dstw : S800000.Idx → BitVec 32) (Wfc : S64x64.Idx → EReal)
    (al ar : S1x4x16.Idx → EReal) (Wres : S64x64.Idx → EReal)
    (hx : (m ((c : Thread nD τ).loc main_arg0)) = x) (hs : (m ((c : Thread nD τ).loc main_arg1)) = srcw) (hdw : (m ((c : Thread nD τ).loc main_arg2)) = dstw)
    (hW : (m ((c : Thread nD τ).loc main_arg3)) = Wfc) (hal : (m ((c : Thread nD τ).loc main_arg4)) = al) (har : (m ((c : Thread nD τ).loc main_arg5)) = ar)
    (hWr : (m ((c : Thread nD τ).loc main_arg6)) = Wres) (hin : ∀ e : Fin 800000, Cert.Gat.InRange (srcw (ix1 e))) :
    (W9 (F := Ideal) m ρ c (Proc.devRef .tc main_v27) : S50000x4x16.Idx → EReal)
      = Cert.Gat.G x srcw dstw Wfc al ar Wres := by
  -- the contents at the first launch's entry
  have h3_12 : W3 (F := Ideal) m ρ c (Proc.devRef .tc main_v12) = Cert.Gat.selMat al := by
    have := afterA_v12 (W0 (F := Ideal) m ρ c); rw [show W0 (F := Ideal) m ρ c (Proc.devRef .tc main_arg4) = al from hal] at this; exact this
  have h3_16 : W3 (F := Ideal) m ρ c (Proc.devRef .tc main_v16) = Cert.Gat.selMat ar := by
    have := afterA_v16 (W0 (F := Ideal) m ρ c); rw [show W0 (F := Ideal) m ρ c (Proc.devRef .tc main_arg5) = ar from har] at this; exact this
  have h3_17 : W3 (F := Ideal) m ρ c (Proc.devRef .tc main_v17) = Cert.Gat.repMat := afterA_v17 (W0 (F := Ideal) m ρ c)
  have h3_a0 : W3 (F := Ideal) m ρ c (Proc.devRef .tc main_arg0) = x := (afterA_arg0 (W0 (F := Ideal) m ρ c)).trans hx
  have h3_a1 : W3 (F := Ideal) m ρ c (Proc.devRef .tc main_arg1) = srcw := (afterA_arg1 (W0 (F := Ideal) m ρ c)).trans hs
  have h3_a2 : W3 (F := Ideal) m ρ c (Proc.devRef .tc main_arg2) = dstw := (afterA_arg2 (W0 (F := Ideal) m ρ c)).trans hdw
  have h3_a3 : W3 (F := Ideal) m ρ c (Proc.devRef .tc main_arg3) = Wfc := (afterA_arg3 (W0 (F := Ideal) m ρ c)).trans hW
  have h3_a6 : W3 (F := Ideal) m ρ c (Proc.devRef .tc main_arg6) = Wres := (afterA_arg6 (W0 (F := Ideal) m ρ c)).trans hWr
  -- the first launch's exit
  have h4_feat : W4 (F := Ideal) m ρ c (Proc.devRef .tc main_v18_0) = Cert.Gat.projArr x Wfc := by
    refine (W4_arr m ρ c 5).trans ((arr_feat (V3 m ρ) c).trans ?_)
    rw [show V3 (F := Ideal) m ρ c main_arg0 = x from h3_a0, show V3 (F := Ideal) m ρ c main_arg3 = Wfc from h3_a3]
  have h4_res : W4 (F := Ideal) m ρ c (Proc.devRef .tc main_v18_3) = Cert.Gat.projArr x Wres := by
    refine (W4_arr m ρ c 8).trans ((arr_res (V3 m ρ) c).trans ?_)
    rw [show V3 (F := Ideal) m ρ c main_arg0 = x from h3_a0, show V3 (F := Ideal) m ρ c main_arg6 = Wres from h3_a6]
  have h4_el : W4 (F := Ideal) m ρ c (Proc.devRef .tc main_v18_1) = Cert.Gat.headSum (Cert.Gat.projArr x Wfc) (Cert.Gat.selMat al) := by
    refine (W4_arr m ρ c 6).trans ((arr_el (V3 m ρ) c).trans ?_)
    rw [show V3 (F := Ideal) m ρ c main_arg0 = x from h3_a0, show V3 (F := Ideal) m ρ c main_arg3 = Wfc from h3_a3,
      show V3 (F := Ideal) m ρ c main_v12 = Cert.Gat.selMat al from h3_12]
  have h4_er : W4 (F := Ideal) m ρ c (Proc.devRef .tc main_v18_2) = Cert.Gat.headSum (Cert.Gat.projArr x Wfc) (Cert.Gat.selMat ar) := by
    refine (W4_arr m ρ c 7).trans ((arr_er (V3 m ρ) c).trans ?_)
    rw [show V3 (F := Ideal) m ρ c main_arg0 = x from h3_a0, show V3 (F := Ideal) m ρ c main_arg3 = Wfc from h3_a3,
      show V3 (F := Ideal) m ρ c main_v16 = Cert.Gat.selMat ar from h3_16]
  have h4_17 : W4 (F := Ideal) m ρ c (Proc.devRef .tc main_v17) = Cert.Gat.repMat := (W4_of_ne m ρ c main_v17 (by decide)).trans h3_17
  have h4_a1 : W4 (F := Ideal) m ρ c (Proc.devRef .tc main_arg1) = srcw := (W4_of_ne m ρ c main_arg1 (by decide)).trans h3_a1
  have h4_a2 : W4 (F := Ideal) m ρ c (Proc.devRef .tc main_arg2) = dstw := (W4_of_ne m ρ c main_arg2 (by decide)).trans h3_a2
  -- the second launch's entry
  have h7_17 : W7 (F := Ideal) m ρ c (Proc.devRef .tc main_v17) = Cert.Gat.repMat := (afterB_v17 (W4 (F := Ideal) m ρ c)).trans h4_17
  have h7_res : W7 (F := Ideal) m ρ c (Proc.devRef .tc main_v18_3) = Cert.Gat.projArr x Wres := (afterB_v18_3 (W4 (F := Ideal) m ρ c)).trans h4_res
  have h7_a2 : W7 (F := Ideal) m ρ c (Proc.devRef .tc main_arg2) = dstw := (afterB_arg2 (W4 (F := Ideal) m ρ c)).trans h4_a2
  have h7_el : ∀ (e : Fin 800000) (h' : Fin 4),
      (W7 (F := Ideal) m ρ c (Proc.devRef .tc main_v19) : S800000x4.Idx → EReal) (ix2 e h')
        = Cert.Gat.logit x Wfc al (Cert.Gat.node (srcw (ix1 e))) h' := by
    intro e h'
    have hr : Cert.Gat.InRange ((W4 (F := Ideal) m ρ c (Proc.devRef .tc main_arg1) : S800000.Idx → BitVec 32) (ix1 e)) := by
      rw [h4_a1]; exact hin e
    refine (afterB_v19 (W4 (F := Ideal) m ρ c) e h' hr).trans ?_
    rw [h4_el, h4_a1]
    exact Cert.Gat.headSum_selMat x Wfc al _ h'
  have h7_er : ∀ (e : Fin 800000) (h' : Fin 4), Cert.Gat.InRange (dstw (ix1 e)) →
      (W7 (F := Ideal) m ρ c (Proc.devRef .tc main_v20) : S800000x4.Idx → EReal) (ix2 e h')
        = Cert.Gat.logit x Wfc ar (Cert.Gat.node (dstw (ix1 e))) h' := by
    intro e h' hde
    have hr : Cert.Gat.InRange ((W4 (F := Ideal) m ρ c (Proc.devRef .tc main_arg2) : S800000.Idx → BitVec 32) (ix1 e)) := by
      rw [h4_a2]; exact hde
    refine (afterB_v20 (W4 (F := Ideal) m ρ c) e h' hr).trans ?_
    rw [h4_er, h4_a2]
    exact Cert.Gat.headSum_selMat x Wfc ar _ h'
  have h7_fs : ∀ (e : Fin 800000) (cc : Fin 64),
      (W7 (F := Ideal) m ρ c (Proc.devRef .tc main_v21) : S800000x64.Idx → EReal) (ix2 e cc)
        = Cert.Gat.proj x Wfc (Cert.Gat.node (srcw (ix1 e))) cc := by
    intro e cc
    have hr : Cert.Gat.InRange ((W4 (F := Ideal) m ρ c (Proc.devRef .tc main_arg1) : S800000.Idx → BitVec 32) (ix1 e)) := by
      rw [h4_a1]; exact hin e
    refine (afterB_v21 (W4 (F := Ideal) m ρ c) e cc hr).trans ?_
    rw [h4_feat, h4_a1]
    rfl
  -- the second launch's exit
  have h8_msg : ∀ (e : Fin 800000) (cc : Fin 64), Cert.Gat.InRange (dstw (ix1 e)) →
      (W8 (F := Ideal) m ρ c (Proc.devRef .tc main_v22) : S800000x64.Idx → EReal) (ix2 e cc)
        = Cert.Gat.msg x Wfc al ar srcw dstw e cc := by
    intro e cc hde
    obtain ⟨els, hels⟩ : ∃ els : S800000x4.Idx → EReal, V7 (F := Ideal) m ρ c main_v19 = els := ⟨_, rfl⟩
    obtain ⟨erd, herd⟩ : ∃ erd : S800000x4.Idx → EReal, V7 (F := Ideal) m ρ c main_v20 = erd := ⟨_, rfl⟩
    obtain ⟨fs, hfs⟩ : ∃ fs : S800000x64.Idx → EReal, V7 (F := Ideal) m ρ c main_v21 = fs := ⟨_, rfl⟩
    have h := arr_msg (V7 m ρ) c els erd fs Cert.Gat.repMat hels herd hfs h7_17 e cc
    refine (congrFun (W8_arr m ρ c 4) (ix2 e cc)).trans (h.trans ?_)
    unfold Cert.Gat.msg
    refine congrArg₂ (· * ·) ?_ ?_
    · rw [← hfs]; exact h7_fs e cc
    · refine (Cert.Gat.sum_repMat (fun hd => Cert.Gat.attn (fun h' => Cert.Gat.leaky (els (ix2 e h') + erd (ix2 e h'))) hd) cc).trans ?_
      refine Cert.Gat.attn_congr _ _ (fun h' => ?_) _
      unfold Cert.Gat.score
      refine congrArg Cert.Gat.leaky (congrArg₂ (· + ·) ?_ ?_)
      · rw [← hels]; exact h7_el e h'
      · rw [← herd]; exact h7_er e h' hde
  have h8_res : W8 (F := Ideal) m ρ c (Proc.devRef .tc main_v18_3) = Cert.Gat.projArr x Wres := (W8_of_ne m ρ c main_v18_3 (by decide)).trans h7_res
  have h8_a2 : W8 (F := Ideal) m ρ c (Proc.devRef .tc main_arg2) = dstw := (W8_of_ne m ρ c main_arg2 (by decide)).trans h7_a2
  -- the tail
  funext i
  obtain ⟨n, hd, d, rfl⟩ : ∃ (n : Fin 50000) (hd : Fin 4) (d : Fin 16), i = ix3 n hd d := ⟨i 0, i 1, i 2, eq_ix3 i⟩
  rw [Cert.Gat.G_ix3]
  refine (afterC_v27 (W8 (F := Ideal) m ρ c) dstw (W8 (F := Ideal) m ρ c (Proc.devRef .tc main_v22)) (Cert.Gat.projArr x Wres) h8_a2 rfl h8_res n hd d).trans ?_
  unfold Cert.Gat.out
  refine congrArg₂ (· + ·) ?_ rfl
  refine Finset.sum_congr rfl fun e he => ?_
  have hde : (dstw (ix1 e)).toInt = (n.val : ℤ) := (Finset.mem_filter.mp he).2
  have hdr : Cert.Gat.InRange (dstw (ix1 e)) := by
    have := n.isLt
    exact ⟨by omega, by omega⟩
  exact h8_msg e _ hdr

end Cert.KernelIdeal.KValue

end
-- ==== Proof.ROps.lean ====
/- The reference program's @main as one list of its host operations, in order; the call of the leaky rectifier (and the
   select it calls in turn) is listed inline over the call's own buffers. -/
import proofs.«405722_j15779709845542_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- The node stage: both projections' first half, the reshape into heads and the two logit sums (up to main_v7). -/
abbrev opsN : List (HloOp τ sig (Elt F)) :=
  [ StableHlo.binary main_arg0 main_arg3 main_v0 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.reshape main_v0 main_v1 rfl shapeCasts_S50000x64_S50000x4x16,
    StableHlo.unary main_arg4 main_v2 (broadcastInDim S50000x4x16 ![0, 1, 2] bcast_S1x4x16_S50000x4x16_0_1_2 : (⟨S1x4x16, .f32⟩ : BufTy).Contents (Elt F) → (⟨S50000x4x16, .f32⟩ : BufTy).Contents (Elt F)),
    StableHlo.binary main_v1 main_v2 main_v3 (mulf : (⟨S50000x4x16, .f32⟩ : BufTy).Contents (Elt F) → (⟨S50000x4x16, .f32⟩ : BufTy).Contents (Elt F) → (⟨S50000x4x16, .f32⟩ : BufTy).Contents (Elt F)),
    StableHlo.nullary main_cst (constant S_ .f32 0x00000000#32),
    StableHlo.binary main_v3 main_cst main_v4 ((fun x v => Host.reduceAdd x v reducesTo_S50000x4x16_S50000x4_d2 h_S_) : (⟨S50000x4x16, .f32⟩ : BufTy).Contents (Elt F) → (⟨S_, .f32⟩ : BufTy).Contents (Elt F) → (⟨S50000x4, .f32⟩ : BufTy).Contents (Elt F)),
    StableHlo.unary main_arg5 main_v5 (broadcastInDim S50000x4x16 ![0, 1, 2] bcast_S1x4x16_S50000x4x16_0_1_2 : (⟨S1x4x16, .f32⟩ : BufTy).Contents (Elt F) → (⟨S50000x4x16, .f32⟩ : BufTy).Contents (Elt F)),
    StableHlo.binary main_v1 main_v5 main_v6 (mulf : (⟨S50000x4x16, .f32⟩ : BufTy).Contents (Elt F) → (⟨S50000x4x16, .f32⟩ : BufTy).Contents (Elt F) → (⟨S50000x4x16, .f32⟩ : BufTy).Contents (Elt F)),
    StableHlo.nullary main_cst_0 (constant S_ .f32 0x00000000#32),
    StableHlo.binary main_v6 main_cst_0 main_v7 ((fun x v => Host.reduceAdd x v reducesTo_S50000x4x16_S50000x4_d2 h_S_) : (⟨S50000x4x16, .f32⟩ : BufTy).Contents (Elt F) → (⟨S_, .f32⟩ : BufTy).Contents (Elt F) → (⟨S50000x4, .f32⟩ : BufTy).Contents (Elt F)) ]

/-- The edge scores: the two endpoint gathers of the logits, their sum and the leaky rectifier (up to main_v23). -/
abbrev opsE1 : List (HloOp τ sig (Elt F)) :=
  [ StableHlo.nullary main_c (constantI S_ 32 0#32),
    StableHlo.unary main_c main_v8 (broadcastInDim S800000 ![] bcast_S_S800000 : (⟨S_, .i32⟩ : BufTy).Contents (Elt F) → (⟨S800000, .i32⟩ : BufTy).Contents (Elt F)),
    StableHlo.binary main_arg1 main_v8 main_v9 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v10 (broadcastInDim S800000 ![] bcast_S_S800000 : (⟨S_, .i32⟩ : BufTy).Contents (Elt F) → (⟨S800000, .i32⟩ : BufTy).Contents (Elt F)),
    StableHlo.binary main_arg1 main_v10 main_v11 (addi : (⟨S800000, .i32⟩ : BufTy).Contents (Elt F) → (⟨S800000, .i32⟩ : BufTy).Contents (Elt F) → (⟨S800000, .i32⟩ : BufTy).Contents (Elt F)),
    StableHlo.ternary main_v9 main_v11 main_arg1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v12 main_v13 (broadcastInDim S800000x1 ![0] bcast_S800000_S800000x1_0 : (⟨S800000, .i32⟩ : BufTy).Contents (Elt F) → (⟨S800000x1, .i32⟩ : BufTy).Contents (Elt F)),
    StableHlo.binary main_v4 main_v13 main_v14 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)),
    StableHlo.nullary main_c_2 (constantI S_ 32 0#32),
    StableHlo.unary main_c_2 main_v15 (broadcastInDim S800000 ![] bcast_S_S800000 : (⟨S_, .i32⟩ : BufTy).Contents (Elt F) → (⟨S800000, .i32⟩ : BufTy).Contents (Elt F)),
    StableHlo.binary main_arg2 main_v15 main_v16 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v17 (broadcastInDim S800000 ![] bcast_S_S800000 : (⟨S_, .i32⟩ : BufTy).Contents (Elt F) → (⟨S800000, .i32⟩ : BufTy).Contents (Elt F)),
    StableHlo.binary main_arg2 main_v17 main_v18 (addi : (⟨S800000, .i32⟩ : BufTy).Contents (Elt F) → (⟨S800000, .i32⟩ : BufTy).Contents (Elt F) → (⟨S800000, .i32⟩ : BufTy).Contents (Elt F)),
    StableHlo.ternary main_v16 main_v18 main_arg2 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v19 main_v20 (broadcastInDim S800000x1 ![0] bcast_S800000_S800000x1_0 : (⟨S800000, .i32⟩ : BufTy).Contents (Elt F) → (⟨S800000x1, .i32⟩ : BufTy).Contents (Elt F)),
    StableHlo.binary main_v7 main_v20 main_v21 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)),
    StableHlo.binary main_v14 main_v21 main_v22 (addf : (⟨S800000x4, .f32⟩ : BufTy).Contents (Elt F) → (⟨S800000x4, .f32⟩ : BufTy).Contents (Elt F) → (⟨S800000x4, .f32⟩ : BufTy).Contents (Elt F)),
    StableHlo.nullary main_cst_4 (constant S_ .f32 0x3E4CCCCD#32),
    StableHlo.TRef.nullary main_call0.cst (constant S_ .f32 0x00000000#32),
    StableHlo.TRef.unary main_call0.cst main_call0.v0 (broadcastInDim S800000x4 ![] bcast_S_S800000x4),
    StableHlo.TRef.binary (.of main_v22 : StableHlo.TRef sig ⟨S800000x4, .f32⟩) main_call0.v0 main_call0.v1 (cmpf .oge),
    StableHlo.TRef.unary (.of main_cst_4 : StableHlo.TRef sig ⟨S_, .f32⟩) main_call0.v2 id,
    StableHlo.TRef.unary main_call0.v2 main_call0.v3 (broadcastInDim S800000x4 ![] bcast_S_S800000x4),
    StableHlo.TRef.binary main_call0.v3 (.of main_v22 : StableHlo.TRef sig ⟨S800000x4, .f32⟩) main_call0.v4 mulf,
    StableHlo.TRef.ternary main_call0.v1 (.of main_v22 : StableHlo.TRef sig ⟨S800000x4, .f32⟩) main_call0.v4 main_call0.call0.v0 select ]

/-- The softmax over the heads, the gather of the source features and the messages (up to main_v44). -/
abbrev opsE2 : List (HloOp τ sig (Elt F)) :=
  [ StableHlo.nullary main_cst_5 (constant S_ .f32 0xFF800000#32),
    StableHlo.binary main_v23 main_cst_5 main_v24 ((fun x v => Host.reduce FloatOps.maximumf x v reducesTo_S800000x4_S800000_d1 h_S_) : (⟨S800000x4, .f32⟩ : BufTy).Contents (Elt F) → (⟨S_, .f32⟩ : BufTy).Contents (Elt F) → (⟨S800000, .f32⟩ : BufTy).Contents (Elt F)),
    StableHlo.nullary main_cst_6 (constant S_ .f32 0xFF800000#32),
    StableHlo.unary main_cst_6 main_v25 (broadcastInDim S800000 ![] bcast_S_S800000 : (⟨S_, .f32⟩ : BufTy).Contents (Elt F) → (⟨S800000, .f32⟩ : BufTy).Contents (Elt F)),
    StableHlo.binary main_v25 main_v24 main_v26 (maximumf : (⟨S800000, .f32⟩ : BufTy).Contents (Elt F) → (⟨S800000, .f32⟩ : BufTy).Contents (Elt F) → (⟨S800000, .f32⟩ : BufTy).Contents (Elt F)),
    StableHlo.unary main_v26 main_v27 (broadcastInDim S800000x1 ![0] bcast_S800000_S800000x1_0 : (⟨S800000, .f32⟩ : BufTy).Contents (Elt F) → (⟨S800000x1, .f32⟩ : BufTy).Contents (Elt F)),
    StableHlo.unary main_v27 main_v28 (broadcastInDim S800000x4 ![0, 1] bcast_S800000x1_S800000x4_0_1 : (⟨S800000x1, .f32⟩ : BufTy).Contents (Elt F) → (⟨S800000x4, .f32⟩ : BufTy).Contents (Elt F)),
    StableHlo.binary main_v23 main_v28 main_v29 (subf : (⟨S800000x4, .f32⟩ : BufTy).Contents (Elt F) → (⟨S800000x4, .f32⟩ : BufTy).Contents (Elt F) → (⟨S800000x4, .f32⟩ : BufTy).Contents (Elt F)),
    StableHlo.unary main_v29 main_v30 (Host.exp : (⟨S800000x4, .f32⟩ : BufTy).Contents (Elt F) → (⟨S800000x4, .f32⟩ : BufTy).Contents (Elt F)),
    StableHlo.nullary main_cst_7 (constant S_ .f32 0x00000000#32),
    StableHlo.binary main_v30 main_cst_7 main_v31 ((fun x v => Host.reduceAdd x v reducesTo_S800000x4_S800000_d1 h_S_) : (⟨S800000x4, .f32⟩ : BufTy).Contents (Elt F) → (⟨S_, .f32⟩ : BufTy).Contents (Elt F) → (⟨S800000, .f32⟩ : BufTy).Contents (Elt F)),
    StableHlo.unary main_v31 main_v32 (broadcastInDim S800000x1 ![0] bcast_S800000_S800000x1_0 : (⟨S800000, .f32⟩ : BufTy).Contents (Elt F) → (⟨S800000x1, .f32⟩ : BufTy).Contents (Elt F)),
    StableHlo.unary main_v32 main_v33 (broadcastInDim S800000x4 ![0, 1] bcast_S800000x1_S800000x4_0_1 : (⟨S800000x1, .f32⟩ : BufTy).Contents (Elt F) → (⟨S800000x4, .f32⟩ : BufTy).Contents (Elt F)),
    StableHlo.binary main_v30 main_v33 main_v34 (Host.divf : (⟨S800000x4, .f32⟩ : BufTy).Contents (Elt F) → (⟨S800000x4, .f32⟩ : BufTy).Contents (Elt F) → (⟨S800000x4, .f32⟩ : BufTy).Contents (Elt F)),
    StableHlo.nullary main_c_8 (constantI S_ 32 0#32),
    StableHlo.unary main_c_8 main_v35 (broadcastInDim S800000 ![] bcast_S_S800000 : (⟨S_, .i32⟩ : BufTy).Contents (Elt F) → (⟨S800000, .i32⟩ : BufTy).Contents (Elt F)),
    StableHlo.binary main_arg1 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v37 (broadcastInDim S800000 ![] bcast_S_S800000 : (⟨S_, .i32⟩ : BufTy).Contents (Elt F) → (⟨S800000, .i32⟩ : BufTy).Contents (Elt F)),
    StableHlo.binary main_arg1 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_arg1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_v1 main_v40 main_v41 ((fun x i => Host.gather gather_S50000x4x16_S800000x1_S800000x4x16_12_0_n_n_0_1_1416 x i) : (⟨S50000x4x16, .f32⟩ : BufTy).Contents (Elt F) → (⟨S800000x1, .i32⟩ : BufTy).Contents (Elt F) → (⟨S800000x4x16, .f32⟩ : BufTy).Contents (Elt F)),
    StableHlo.unary main_v34 main_v42 (broadcastInDim S800000x4x1 ![0, 1] bcast_S800000x4_S800000x4x1_0_1 : (⟨S800000x4, .f32⟩ : BufTy).Contents (Elt F) → (⟨S800000x4x1, .f32⟩ : BufTy).Contents (Elt F)),
    StableHlo.unary main_v42 main_v43 (broadcastInDim S800000x4x16 ![0, 1, 2] bcast_S800000x4x1_S800000x4x16_0_1_2 : (⟨S800000x4x1, .f32⟩ : BufTy).Contents (Elt F) → (⟨S800000x4x16, .f32⟩ : BufTy).Contents (Elt F)),
    StableHlo.binary main_v41 main_v43 main_v44 (mulf : (⟨S800000x4x16, .f32⟩ : BufTy).Contents (Elt F) → (⟨S800000x4x16, .f32⟩ : BufTy).Contents (Elt F) → (⟨S800000x4x16, .f32⟩ : BufTy).Contents (Elt F)) ]

/-- The tail: the scatter-add into the destination nodes, the residual projection and their sum (up to main_v50). -/
abbrev opsO : List (HloOp τ sig (Elt F)) :=
  [ StableHlo.nullary main_cst_10 (constant S_ .f32 0x00000000#32),
    StableHlo.unary main_cst_10 main_v45 (broadcastInDim S50000x4x16 ![] bcast_S_S50000x4x16 : (⟨S_, .f32⟩ : BufTy).Contents (Elt F) → (⟨S50000x4x16, .f32⟩ : BufTy).Contents (Elt F)),
    StableHlo.unary main_arg2 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x4x16_S800000x1_S800000x4x16_12_0_0_1 x i u) : (⟨S50000x4x16, .f32⟩ : BufTy).Contents (Elt F) → (⟨S800000x1, .i32⟩ : BufTy).Contents (Elt F) → (⟨S800000x4x16, .f32⟩ : BufTy).Contents (Elt F) → (⟨S50000x4x16, .f32⟩ : BufTy).Contents (Elt F)),
    StableHlo.binary main_arg0 main_arg6 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.reshape main_v48 main_v49 rfl shapeCasts_S50000x64_S50000x4x16,
    StableHlo.binary main_v47 main_v49 main_v50 (addf : (⟨S50000x4x16, .f32⟩ : BufTy).Contents (Elt F) → (⟨S50000x4x16, .f32⟩ : BufTy).Contents (Elt F) → (⟨S50000x4x16, .f32⟩ : BufTy).Contents (Elt F)) ]

/-- @main's 70 operations, in order. -/
abbrev ops : List (HloOp τ sig (Elt F)) := opsN ++ opsE1 ++ opsE2 ++ opsO

end Cert.ReferenceIdeal.RefOps

end
-- ==== Proof.RRun.lean ====
/- The reference program's run: every weakly fair execution ends with every buffer at the fold of the operations over
   the launch contents. -/
import proofs.«405722_j15779709845542_2_alg».proof.Proof.ROps
import Idealize.ShloMosaic.Lib.StableHlo.Run

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 2048 in
/-- @main is the sequence of its operations: unfolding the two windows of the printed body, the rectifier's body at its
    call and the select's body inside it, and reassociating the sequencing, both sides are the same chain of seventy
    steps. -/
theorem main_eq (c : Dev nD) : main (F := F) c = seq (ops (F := F)) := by
  simp only [main, main_part0, main_part1, fn_leaky_relu.body, fn_where.body, seq, bind_assoc, pure_bind,
    List.cons_append, List.nil_append, List.append_assoc]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Each operation of the node stage touches TensorCore references only. -/
theorem opsN_sub : (opsN : List (HloOp τ sig (Elt F))).Forall fun op => op.bufs ⊆ tcRefs τ sig :=
  ⟨binary_bufs_sub .., reshape_bufs_sub .., unary_bufs_sub .., binary_bufs_sub .., nullary_bufs_sub .., binary_bufs_sub .., unary_bufs_sub .., binary_bufs_sub .., nullary_bufs_sub .., binary_bufs_sub ..⟩
/-- Each operation of the edge scores touches TensorCore references only. -/
theorem opsE1_sub : (opsE1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩
/-- Each operation of the softmax and the messages touches TensorCore references only. -/
theorem opsE2_sub : (opsE2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩
/-- Each operation of the tail touches TensorCore references only. -/
theorem opsO_sub : (opsO : List (HloOp τ sig (Elt F))).Forall fun op => op.bufs ⊆ tcRefs τ sig :=
  ⟨nullary_bufs_sub .., unary_bufs_sub .., unary_bufs_sub .., ternary_bufs_sub .., binary_bufs_sub .., reshape_bufs_sub .., binary_bufs_sub ..⟩

/-- So does each of the seventy: the property splits over the concatenation. -/
theorem ops_sub : (ops : List (HloOp τ sig (Elt F))).Forall fun op => op.bufs ⊆ tcRefs τ sig :=
  List.forall_append.mpr ⟨List.forall_append.mpr ⟨List.forall_append.mpr ⟨opsN_sub, opsE1_sub⟩, opsE2_sub⟩, opsO_sub⟩

/-- Every operation of the node stage determines its results. -/
theorem opsN_fresh : ∀ op ∈ (opsN : List (HloOp τ sig (Elt F))), op.fresh = ∅ := by
  intro _ h; (repeat (cases h with | head => rfl | tail _ h => ?_)); exact nomatch h
/-- Every operation of the edge scores determines its results. -/
theorem opsE1_fresh : ∀ op ∈ (opsE1 : List (HloOp τ sig (Elt F))), op.fresh = ∅ := by
  intro _ h; (repeat (cases h with | head => rfl | tail _ h => ?_)); exact nomatch h
/-- Every operation of the softmax and the messages determines its results. -/
theorem opsE2_fresh : ∀ op ∈ (opsE2 : List (HloOp τ sig (Elt F))), op.fresh = ∅ := by
  intro _ h; (repeat (cases h with | head => rfl | tail _ h => ?_)); exact nomatch h
/-- Every operation of the tail determines its results. -/
theorem opsO_fresh : ∀ op ∈ (opsO : List (HloOp τ sig (Elt F))), op.fresh = ∅ := by
  intro _ h; (repeat (cases h with | head => rfl | tail _ h => ?_)); exact nomatch h

/-- So does each of the seventy: a member of the concatenation is a member of one of the four stretches. -/
theorem ops_fresh : ∀ op ∈ (ops : List (HloOp τ sig (Elt F))), op.fresh = ∅ := by
  intro op h
  rcases List.mem_append.mp h with h | h
  · rcases List.mem_append.mp h with h | h
    · rcases List.mem_append.mp h with h | h
      · exact opsN_fresh op h
      · exact opsE1_fresh op h
    · exact opsE2_fresh op h
  · exact opsO_fresh op h

/-- From any memory with zero counters every weakly fair execution of @main terminates, and every final state has each
    TensorCore buffer at the fold of the operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops (F := F)) (launchContents m d) (Proc.devRef .tc b) :=
  run_seq scopedRefs_eq scopedSems_eq defs main (fun _ => ops) main_eq (fun _ => ops_sub) m ρ (fun _ => ops_fresh)

end Cert.ReferenceIdeal.RefRun

end
-- ==== Proof.RNode.lean ====
/- The reference's node stage read at an index: the projected features split into heads, and the two logit arrays. -/
import proofs.«405722_j15779709845542_2_alg».proof.Proof.ROps
import proofs.«405722_j15779709845542_2_alg».proof.Proof.GatSpec
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

open scoped BigOperators

namespace Cert.ReferenceIdeal.RefNode

open Idealize.ShloMosaic Idealize.ShloMosaic.TcCoe Idealize.ShloMosaic.ValueIdx Idealize.SL.Sem
open Cert.ReferenceIdeal Cert.ReferenceIdeal.Gen Cert.ReferenceIdeal.RefOps

/-! ## The matrix product's operand indices, axis by axis -/

/-- The left operand's row is the result's row. -/
theorem lhs_row (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl

/-- The left operand's column is the summation position. -/
theorem lhs_col (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

/-- The right operand's row is the summation position. -/
theorem rhs_row (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

/-- The right operand's column is the result's column. -/
theorem rhs_col (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-! ## The stage's operations read at an index -/

/-- The matrix product at (n, c) is the projection's sum over the 64 input lanes. -/
theorem dot_at (x : S50000x64.Idx → EReal) (Wfc : S64x64.Idx → EReal) (n : Fin 50000) (c : Fin 64) :
    (Host.dotGeneral (F := Ideal) (φ₁ := .f32) (φ₂ := .f32) dot_S50000x64_S64x64_S50000x64_1_0_0_1_n_n none x Wfc : S50000x64.Idx → EReal) (ix2 n c)
      = Cert.Gat.proj x Wfc n c := by
  simp only [Host.dotGeneral]
  rw [Ideal.dotGeneral_apply, ← Equiv.sum_comp (contrEquiv1 dot_S50000x64_S64x64_S50000x64_1_0_0_1_n_n 64 rfl rfl).symm]
  unfold Cert.Gat.proj
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 n c)
      ((contrEquiv1 dot_S50000x64_S64x64_S50000x64_1_0_0_1_n_n 64 rfl rfl).symm k) = ix2 n k := funext fun a => Fin.ext (by
    match a with
    | ⟨0, _⟩ => exact lhs_row _ _
    | ⟨1, _⟩ => exact (lhs_col _ _).trans hk)
  have er : dot_S50000x64_S64x64_S50000x64_1_0_0_1_n_n.rhsIdx (ix2 n c)
      ((contrEquiv1 dot_S50000x64_S64x64_S50000x64_1_0_0_1_n_n 64 rfl rfl).symm k) = ix2 k c := funext fun a => Fin.ext (by
    match a with
    | ⟨0, _⟩ => exact (rhs_row _ _).trans hk
    | ⟨1, _⟩ => exact rhs_col _ _)
  rw [el, er]

/-- Splitting the 64 lanes into 4 heads of 16: entry (n, hd, d) is entry (n, 16 hd + d). -/
theorem heads_at (v : S50000x64.Idx → EReal) (n : Fin 50000) (hd : Fin 4) (d : Fin 16) :
    shapeCast S50000x4x16 v shapeCasts_S50000x64_S50000x4x16 (ix3 n hd d) = v (ix2 n (Cert.Gat.lane hd d)) := by
  refine shapeCast_apply v _ _ _ ?_
  rw [Shape.rowMajor_val_two, Shape.rowMajor_val_three]
  show n.val * 64 + (16 * hd.val + d.val) = (n.val * 4 + hd.val) * 16 + d.val
  omega

/-- An attention vector repeated over the nodes reads, at (n, hd, d), the vector at (0, hd, d). -/
theorem rep_at (a : S1x4x16.Idx → EReal) (n : Fin 50000) (hd : Fin 4) (d : Fin 16) :
    broadcastInDim S50000x4x16 ![0, 1, 2] bcast_S1x4x16_S50000x4x16_0_1_2 a (ix3 n hd d) = a (ix3 (0 : Fin 1) hd d) :=
  broadcastInDim_apply _ _ a _ _ fun b => by
    match b with
    | ⟨0, _⟩ => rfl
    | ⟨1, _⟩ => rfl
    | ⟨2, _⟩ => rfl

theorem reduces_lanes : S50000x4x16.Reduces [2] S50000x4 := by decide

/-- Putting lane k back on the summed axis of (n, hd) gives (n, hd, k). -/
theorem lanes_lift (n : Fin 50000) (hd : Fin 4) (k : Fin 16) : reduces_lanes.lift (ix2 n hd) k = ix3 n hd k :=
  funext fun b => Fin.ext (by
    match b with
    | ⟨0, _⟩ => rfl
    | ⟨1, _⟩ => rfl
    | ⟨2, _⟩ => rfl)

/-- The sum over a head's 16 lanes of projected row times attention vector is the logit. -/
theorem logit_at (x : S50000x64.Idx → EReal) (Wfc : S64x64.Idx → EReal) (a : S1x4x16.Idx → EReal) (n : Fin 50000) (hd : Fin 4) :
    (Host.reduceAdd (F := Ideal)
        (mulf (shapeCast S50000x4x16 (Host.dotGeneral (F := Ideal) (φ₁ := .f32) (φ₂ := .f32) dot_S50000x64_S64x64_S50000x64_1_0_0_1_n_n none x Wfc)
            shapeCasts_S50000x64_S50000x4x16)
          (broadcastInDim S50000x4x16 ![0, 1, 2] bcast_S1x4x16_S50000x4x16_0_1_2 a))
        (constant (F := Ideal) S_ .f32 0x00000000#32) reducesTo_S50000x4x16_S50000x4_d2 h_S_ : S50000x4.Idx → EReal) (ix2 n hd)
      = Cert.Gat.logit x Wfc a n hd := by
  rw [hostReduceAdd_apply, Ideal.hostReduceAdd_single reducesTo_S50000x4x16_S50000x4_d2 reduces_lanes]
  show Ideal.ofBits .f32 0x00000000#32 + ∑ k : Fin 16, _ = _
  rw [Ideal.ofBits_zero_f32, zero_add]
  unfold Cert.Gat.logit
  refine Finset.sum_congr rfl fun k _ => ?_
  rw [lanes_lift, mulf_apply, heads_at, dot_at, rep_at]

/-! ## The stage's three results -/

/-- The projected features as [50000, 4, 16]: head hd, lane d is lane 16 hd + d of x W_fc. -/
theorem afterN_v1 (W : Valuation τ sig (Elt Ideal)) (x : S50000x64.Idx → EReal) (Wfc : S64x64.Idx → EReal)
    (hx : W (Proc.devRef .tc main_arg0) = x) (hW : W (Proc.devRef .tc main_arg3) = Wfc) (n : Fin 50000) (hd : Fin 4) (d : Fin 16) :
    (StableHlo.after (opsN (F := Ideal)) W (Proc.devRef .tc main_v1) : S50000x4x16.Idx → EReal) (ix3 n hd d)
      = Cert.Gat.proj x Wfc n (Cert.Gat.lane hd d) := by
  have e : (StableHlo.after (opsN (F := Ideal)) W (Proc.devRef .tc main_v1) : S50000x4x16.Idx → EReal)
      = shapeCast S50000x4x16 (Host.dotGeneral (F := Ideal) (φ₁ := .f32) (φ₂ := .f32) dot_S50000x64_S64x64_S50000x64_1_0_0_1_n_n none x Wfc)
          shapeCasts_S50000x64_S50000x4x16 := by
    subst hx hW
    after_results
    rfl
  rw [e, heads_at, dot_at]

/-- The left logits. -/
theorem afterN_v4 (W : Valuation τ sig (Elt Ideal)) (x : S50000x64.Idx → EReal) (Wfc : S64x64.Idx → EReal) (al : S1x4x16.Idx → EReal)
    (hx : W (Proc.devRef .tc main_arg0) = x) (hW : W (Proc.devRef .tc main_arg3) = Wfc) (ha : W (Proc.devRef .tc main_arg4) = al) (n : Fin 50000) (hd : Fin 4) :
    (StableHlo.after (opsN (F := Ideal)) W (Proc.devRef .tc main_v4) : S50000x4.Idx → EReal) (ix2 n hd)
      = Cert.Gat.logit x Wfc al n hd := by
  have e : (StableHlo.after (opsN (F := Ideal)) W (Proc.devRef .tc main_v4) : S50000x4.Idx → EReal)
      = Host.reduceAdd (F := Ideal)
          (mulf (shapeCast S50000x4x16 (Host.dotGeneral (F := Ideal) (φ₁ := .f32) (φ₂ := .f32) dot_S50000x64_S64x64_S50000x64_1_0_0_1_n_n none x Wfc)
              shapeCasts_S50000x64_S50000x4x16)
            (broadcastInDim S50000x4x16 ![0, 1, 2] bcast_S1x4x16_S50000x4x16_0_1_2 al))
          (constant (F := Ideal) S_ .f32 0x00000000#32) reducesTo_S50000x4x16_S50000x4_d2 h_S_ := by
    subst hx hW ha
    after_results
    rfl
  rw [e, logit_at]

/-- The right logits. -/
theorem afterN_v7 (W : Valuation τ sig (Elt Ideal)) (x : S50000x64.Idx → EReal) (Wfc : S64x64.Idx → EReal) (ar : S1x4x16.Idx → EReal)
    (hx : W (Proc.devRef .tc main_arg0) = x) (hW : W (Proc.devRef .tc main_arg3) = Wfc) (ha : W (Proc.devRef .tc main_arg5) = ar) (n : Fin 50000) (hd : Fin 4) :
    (StableHlo.after (opsN (F := Ideal)) W (Proc.devRef .tc main_v7) : S50000x4.Idx → EReal) (ix2 n hd)
      = Cert.Gat.logit x Wfc ar n hd := by
  have e : (StableHlo.after (opsN (F := Ideal)) W (Proc.devRef .tc main_v7) : S50000x4.Idx → EReal)
      = Host.reduceAdd (F := Ideal)
          (mulf (shapeCast S50000x4x16 (Host.dotGeneral (F := Ideal) (φ₁ := .f32) (φ₂ := .f32) dot_S50000x64_S64x64_S50000x64_1_0_0_1_n_n none x Wfc)
              shapeCasts_S50000x64_S50000x4x16)
            (broadcastInDim S50000x4x16 ![0, 1, 2] bcast_S1x4x16_S50000x4x16_0_1_2 ar))
          (constant (F := Ideal) S_ .f32 0x00000000#32) reducesTo_S50000x4x16_S50000x4_d2 h_S_ := by
    subst hx hW ha
    after_results
    rfl
  rw [e, logit_at]

/-! ## The buffers the stage leaves alone -/

/-- No operation of the stage writes an argument buffer. -/
theorem afterN_arg0 (W : Valuation τ sig (Elt Ideal)) : StableHlo.after (opsN (F := Ideal)) W (Proc.devRef .tc main_arg0) = W (Proc.devRef .tc main_arg0) :=
  StableHlo.after_of_forall_not_mem (b := Proc.devRef .tc main_arg0) _ _ (List.forall_iff_forall_mem.mp (by
    simp only [opsN, List.Forall, StableHlo.nullary_writes, StableHlo.unary_writes, StableHlo.binary_writes, StableHlo.reshape_writes, Finset.mem_singleton]
    repeat' apply And.intro
    all_goals exact StableHlo.devRef_ne_of_ne (by decide)))
theorem afterN_arg1 (W : Valuation τ sig (Elt Ideal)) : StableHlo.after (opsN (F := Ideal)) W (Proc.devRef .tc main_arg1) = W (Proc.devRef .tc main_arg1) :=
  StableHlo.after_of_forall_not_mem (b := Proc.devRef .tc main_arg1) _ _ (List.forall_iff_forall_mem.mp (by
    simp only [opsN, List.Forall, StableHlo.nullary_writes, StableHlo.unary_writes, StableHlo.binary_writes, StableHlo.reshape_writes, Finset.mem_singleton]
    repeat' apply And.intro
    all_goals exact StableHlo.devRef_ne_of_ne (by decide)))
theorem afterN_arg2 (W : Valuation τ sig (Elt Ideal)) : StableHlo.after (opsN (F := Ideal)) W (Proc.devRef .tc main_arg2) = W (Proc.devRef .tc main_arg2) :=
  StableHlo.after_of_forall_not_mem (b := Proc.devRef .tc main_arg2) _ _ (List.forall_iff_forall_mem.mp (by
    simp only [opsN, List.Forall, StableHlo.nullary_writes, StableHlo.unary_writes, StableHlo.binary_writes, StableHlo.reshape_writes, Finset.mem_singleton]
    repeat' apply And.intro
    all_goals exact StableHlo.devRef_ne_of_ne (by decide)))
theorem afterN_arg6 (W : Valuation τ sig (Elt Ideal)) : StableHlo.after (opsN (F := Ideal)) W (Proc.devRef .tc main_arg6) = W (Proc.devRef .tc main_arg6) :=
  StableHlo.after_of_forall_not_mem (b := Proc.devRef .tc main_arg6) _ _ (List.forall_iff_forall_mem.mp (by
    simp only [opsN, List.Forall, StableHlo.nullary_writes, StableHlo.unary_writes, StableHlo.binary_writes, StableHlo.reshape_writes, Finset.mem_singleton]
    repeat' apply And.intro
    all_goals exact StableHlo.devRef_ne_of_ne (by decide)))

end Cert.ReferenceIdeal.RefNode

end
-- ==== Proof.RScore.lean ====
/- The reference's edge scores read at an index. -/
import proofs.«405722_j15779709845542_2_alg».proof.Proof.LibGatherRows
import proofs.«405722_j15779709845542_2_alg».proof.Proof.ROps
import proofs.«405722_j15779709845542_2_alg».proof.Proof.GatSpec
import Idealize.ShloMosaic.Lib.StableHlo.Run
import Idealize.ShloMosaic.Lib.ValueIdx
import Idealize.ShloMosaic.Lib.DynamicIndex
import Idealize.ShloMosaic.Lib.IdealHost
import Idealize.ShloMosaic.Lib.KernelVsHost
import Idealize.ShloMosaic.PureOps.Ideal.Laws

set_option maxRecDepth 16384

noncomputable section

open scoped BigOperators

namespace Cert.ReferenceIdeal.RefScore

open Idealize.ShloMosaic Idealize.ShloMosaic.TcCoe Idealize.ShloMosaic.ValueIdx Idealize.SL.Sem
open Cert.ReferenceIdeal Cert.ReferenceIdeal.Gen Cert.ReferenceIdeal.RefOps

/-- The reference's rectifier, a select on "not below zero", is the leaky rectifier: the two differ only in which
    branch takes zero, where both branches are zero. -/
theorem rect_eq (s : EReal) :
    Scalar.select (Ideal.cmp .oge s 0) s (Cert.Gat.slope * s) = Cert.Gat.leaky s := by
  unfold Cert.Gat.leaky
  rcases lt_trichotomy (0 : EReal) s with h | h | h
  · have hc : Ideal.cmp .oge s 0 = 1#1 := by
      show BitVec.ofBool (decide ((0 : EReal) ≤ s)) = 1#1
      rw [decide_eq_true h.le]; rfl
    rw [hc, select_one, if_pos h]
  · subst h
    have hc : Ideal.cmp .oge (0 : EReal) 0 = 1#1 := by
      show BitVec.ofBool (decide ((0 : EReal) ≤ 0)) = 1#1
      rw [decide_eq_true le_rfl]; rfl
    rw [hc, select_one, if_neg (lt_irrefl _), mul_zero]
  · have hc : Ideal.cmp .oge s 0 = 0#1 := by
      show BitVec.ofBool (decide ((0 : EReal) ≤ s)) = 0#1
      rw [decide_eq_false (not_le.mpr h)]; rfl
    rw [hc, select_zero, if_neg (not_lt.mpr h.le)]

/-- An endpoint word as the gather's start index: a negative word moved up by the table's height, as a column. -/
def wrapCol (w : S800000.Idx → BitVec 32) : S800000x1.Idx → BitVec 32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)

/-- At a word that is not negative the start index is the word itself. -/
theorem wrapCol_apply (w : S800000.Idx → BitVec 32) (e : Fin 800000) (h : 0 ≤ (w (ix1 e)).toInt) :
    wrapCol w (ix2 e (0 : Fin 1)) = w (ix1 e) := by
  unfold wrapCol
  have hb : ∀ (x : S800000.Idx → BitVec 32),
      broadcastInDim S800000x1 ![0] bcast_S800000_S800000x1_0 x (ix2 e (0 : Fin 1)) = x (ix1 e) := by
    intro x
    unfold broadcastInDim
    refine congrArg x (funext fun a => ?_)
    match a with
    | ⟨0, _⟩ => rfl
  rw [hb, broadcastInDim_constantI]
  exact select_slt_zero_of_nonneg w _ _ (ix1 e) h

/-- The score array over the two logit tables and the two endpoint arrays. -/
def scoreArr (el er : S50000x4.Idx → EReal) (srcw dstw : S800000.Idx → BitVec 32) : S800000x4.Idx → EReal :=
  addf (F := Ideal) (φ := .f32)
    (Host.gather gather_S50000x4_S800000x1_S800000x4_1_0_n_n_0_1_14 el (wrapCol srcw))
    (Host.gather gather_S50000x4_S800000x1_S800000x4_1_0_n_n_0_1_14 er (wrapCol dstw))

theorem gatherRow_apply (t : S50000x4.Idx → EReal) (w : S800000.Idx → BitVec 32) (e : Fin 800000) (hd : Fin 4)
    (h : 0 ≤ (w (ix1 e)).toInt) :
    Host.gather gather_S50000x4_S800000x1_S800000x4_1_0_n_n_0_1_14 t (wrapCol w) (ix2 e hd)
      = t (ix2 (Cert.Gat.node (w (ix1 e))) hd) := by
  have hg := Cert.LibGatherRows.gather_rows2_apply (N := 50000) (n := 800000) (C := 4) (w := 32) (by decide)
    gather_S50000x4_S800000x1_S800000x4_1_0_n_n_0_1_14 rfl rfl rfl rfl rfl rfl t (wrapCol w) e hd
  rw [hg]
  refine congrArg (fun n : Fin 50000 => t (ix2 n hd)) (Fin.ext ?_)
  show min (wrapCol w (ix2 e (0 : Fin 1))).toInt.toNat (50000 - 1) = min (w (ix1 e)).toInt.toNat 49999
  rw [wrapCol_apply w e h]

theorem scoreArr_apply (el er : S50000x4.Idx → EReal) (srcw dstw : S800000.Idx → BitVec 32) (e : Fin 800000) (hd : Fin 4)
    (hs : 0 ≤ (srcw (ix1 e)).toInt) (hdn : 0 ≤ (dstw (ix1 e)).toInt) :
    scoreArr el er srcw dstw (ix2 e hd)
      = el (ix2 (Cert.Gat.node (srcw (ix1 e))) hd) + er (ix2 (Cert.Gat.node (dstw (ix1 e))) hd) := by
  unfold scoreArr
  rw [addf_apply, gatherRow_apply el srcw e hd hs, gatherRow_apply er dstw e hd hdn]

/-- The rectified score array read at an edge and a head. -/
theorem rectArr_apply (s : S800000x4.Idx → EReal) (j : S800000x4.Idx) :
    (select (cmpf (F := Ideal) (φ := .f32) .oge s (broadcastInDim S800000x4 ![] bcast_S_S800000x4 (constant (F := Ideal) S_ .f32 0x00000000#32))) s
      (mulf (F := Ideal) (φ := .f32) (broadcastInDim S800000x4 ![] bcast_S_S800000x4 (id (constant (F := Ideal) S_ .f32 0x3E4CCCCD#32))) s)) j
      = Cert.Gat.leaky (s j) := by
  rw [select_apply, cmpf_apply, mulf_apply, broadcastInDim_scalar_apply, broadcastInDim_scalar_apply]
  show Scalar.select (Ideal.cmp .oge (s j) (Ideal.ofBits .f32 0x00000000#32)) (s j) (Ideal.ofBits .f32 0x3E4CCCCD#32 * s j) = _
  rw [Ideal.ofBits_zero_f32]
  exact rect_eq (s j)

theorem afterE1_v23 (W : Valuation τ sig (Elt Ideal)) (el er : S50000x4.Idx → EReal) (srcw dstw : S800000.Idx → BitVec 32)
    (hel : W (Proc.devRef .tc main_v4) = el) (her : W (Proc.devRef .tc main_v7) = er) (hs : W (Proc.devRef .tc main_arg1) = srcw) (hdw : W (Proc.devRef .tc main_arg2) = dstw)
    (e : Fin 800000) (hd : Fin 4) (hsr : Cert.Gat.InRange (srcw (ix1 e))) (hdr : Cert.Gat.InRange (dstw (ix1 e))) :
    (StableHlo.after (opsE1 (F := Ideal)) W (Proc.devRef .tc main_v23) : S800000x4.Idx → EReal) (ix2 e hd)
      = Cert.Gat.leaky (el (ix2 (Cert.Gat.node (srcw (ix1 e))) hd) + er (ix2 (Cert.Gat.node (dstw (ix1 e))) hd)) := by
  unfold opsE1
  after_results_simp
  rw [hel, her, hs, hdw]
  refine (rectArr_apply (scoreArr el er srcw dstw) (ix2 e hd)).trans ?_
  rw [scoreArr_apply el er srcw dstw e hd hsr.1 hdr.1]

/-- Closes "no operation of the stage writes this buffer": each operation writes its one result buffer, a reference other
    than the given one. -/
local macro "e1_not_written" : tactic =>
  `(tactic| (
    refine StableHlo.after_of_forall_not_mem _ _ (List.forall_iff_forall_mem.mp ?_)
    simp only [opsE1, StableHlo.TRef.nullary, StableHlo.TRef.unary, StableHlo.TRef.binary, StableHlo.TRef.ternary, List.Forall,
      StableHlo.nullary_writes, StableHlo.unary_writes, StableHlo.binary_writes, StableHlo.ternary_writes, Finset.mem_singleton]
    repeat' apply And.intro
    all_goals exact StableHlo.devRef_ne_of_ne (by decide)))

/-- The stage writes none of these. -/
theorem afterE1_v1 (W : Valuation τ sig (Elt Ideal)) : StableHlo.after (opsE1 (F := Ideal)) W (Proc.devRef .tc main_v1) = W (Proc.devRef .tc main_v1) := by e1_not_written
theorem afterE1_arg0 (W : Valuation τ sig (Elt Ideal)) : StableHlo.after (opsE1 (F := Ideal)) W (Proc.devRef .tc main_arg0) = W (Proc.devRef .tc main_arg0) := by e1_not_written
theorem afterE1_arg1 (W : Valuation τ sig (Elt Ideal)) : StableHlo.after (opsE1 (F := Ideal)) W (Proc.devRef .tc main_arg1) = W (Proc.devRef .tc main_arg1) := by e1_not_written
theorem afterE1_arg2 (W : Valuation τ sig (Elt Ideal)) : StableHlo.after (opsE1 (F := Ideal)) W (Proc.devRef .tc main_arg2) = W (Proc.devRef .tc main_arg2) := by e1_not_written
theorem afterE1_arg6 (W : Valuation τ sig (Elt Ideal)) : StableHlo.after (opsE1 (F := Ideal)) W (Proc.devRef .tc main_arg6) = W (Proc.devRef .tc main_arg6) := by e1_not_written

end Cert.ReferenceIdeal.RefScore

end
-- ==== Proof.RMsg.lean ====
/- The reference's softmax over the heads and its messages read at an index. -/
import proofs.«405722_j15779709845542_2_alg».proof.Proof.LibGatherRows
import proofs.«405722_j15779709845542_2_alg».proof.Proof.ROps
import proofs.«405722_j15779709845542_2_alg».proof.Proof.GatSpec
import Idealize.ShloMosaic.Lib.StableHlo.Run
import Idealize.ShloMosaic.Lib.ValueIdx
import Idealize.ShloMosaic.Lib.IdealHost
import Idealize.ShloMosaic.Lib.DynamicIndex
import Idealize.ShloMosaic.Lib.Pipeline.Value
import Idealize.ShloMosaic.PureOps.Ideal.Laws

set_option maxRecDepth 16384

noncomputable section

open scoped BigOperators

namespace Cert.ReferenceIdeal.RefMsg

open Idealize.ShloMosaic Idealize.ShloMosaic.TcCoe Idealize.ShloMosaic.ValueIdx Idealize.SL.Sem
open Cert.ReferenceIdeal Cert.ReferenceIdeal.Gen Cert.ReferenceIdeal.RefOps

/-! ## Index reads of the layout operations -/

/-- A per-edge column broadcast back over the four heads reads the edge's value. -/
theorem bcol_apply {α : Type} (m : (⟨1, ![800000]⟩ : Shape).Idx → α)
    (h1 : (⟨1, ![800000]⟩ : Shape).BroadcastsInDim ⟨2, ![800000, 1]⟩ ![0])
    (h2 : (⟨2, ![800000, 1]⟩ : Shape).BroadcastsInDim ⟨2, ![800000, 4]⟩ ![0, 1]) (e : Fin 800000) (h : Fin 4) :
    broadcastInDim ⟨2, ![800000, 4]⟩ ![0, 1] h2 (broadcastInDim ⟨2, ![800000, 1]⟩ ![0] h1 m) (ix2 e h) = m (ix1 e) :=
  (broadcastInDim_apply _ h2 _ (ix2 e h) (ix2 e (0 : Fin 1))
      (fun a => match a with | ⟨0, _⟩ => rfl | ⟨1, _⟩ => rfl)).trans
    (broadcastInDim_apply _ h1 _ (ix2 e (0 : Fin 1)) (ix1 e) (fun a => match a with | ⟨0, _⟩ => rfl))

/-- A per-edge, per-head value broadcast over the sixteen lanes reads the value of the edge and head. -/
theorem blane_apply {α : Type} (a : (⟨2, ![800000, 4]⟩ : Shape).Idx → α)
    (h1 : (⟨2, ![800000, 4]⟩ : Shape).BroadcastsInDim ⟨3, ![800000, 4, 1]⟩ ![0, 1])
    (h2 : (⟨3, ![800000, 4, 1]⟩ : Shape).BroadcastsInDim ⟨3, ![800000, 4, 16]⟩ ![0, 1, 2]) (e : Fin 800000) (hd : Fin 4) (d : Fin 16) :
    broadcastInDim ⟨3, ![800000, 4, 16]⟩ ![0, 1, 2] h2 (broadcastInDim ⟨3, ![800000, 4, 1]⟩ ![0, 1] h1 a) (ix3 e hd d) = a (ix2 e hd) :=
  (broadcastInDim_apply _ h2 _ (ix3 e hd d) (ix3 e hd (0 : Fin 1))
      (fun c => match c with | ⟨0, _⟩ => rfl | ⟨1, _⟩ => rfl | ⟨2, _⟩ => rfl)).trans
    (broadcastInDim_apply _ h1 _ (ix3 e hd (0 : Fin 1)) (ix2 e hd) (fun c => match c with | ⟨0, _⟩ => rfl | ⟨1, _⟩ => rfl))

/-- An edge's index vector of one component reads the edge's word. -/
theorem bidx_apply {α : Type} (m : (⟨1, ![800000]⟩ : Shape).Idx → α)
    (h1 : (⟨1, ![800000]⟩ : Shape).BroadcastsInDim ⟨2, ![800000, 1]⟩ ![0]) (e : Fin 800000) :
    broadcastInDim ⟨2, ![800000, 1]⟩ ![0] h1 m (ix2 e (0 : Fin 1)) = m (ix1 e) :=
  broadcastInDim_apply _ h1 _ (ix2 e (0 : Fin 1)) (ix1 e) (fun a => match a with | ⟨0, _⟩ => rfl)

/-- The index the reduction over the heads reads for head k of edge e. -/
theorem lift_heads (h : Shape.Reduces (⟨2, ![800000, 4]⟩ : Shape) [1] ⟨1, ![800000]⟩) (e : Fin 800000) (k : Fin 4) :
    h.lift (ix1 e) k = ix2 e k := by
  funext c
  match c with
  | ⟨0, _⟩ => exact Fin.ext rfl
  | ⟨1, _⟩ => exact Fin.ext rfl

/-! ## The maximum and the sum over the heads -/

/-- Taking the maximum with the starting value again changes nothing. -/
theorem max_fold_start (b : EReal) (f : Fin 4 → EReal) :
    max b ((Finset.univ : Finset (Fin 4)).fold max b f) = (Finset.univ : Finset (Fin 4)).fold max b f :=
  max_eq_right ((Finset.le_fold_max b).mpr (Or.inl le_rfl))

/-- The host's maximum over the heads at an edge is the fold of max over the edge's four scores. -/
theorem rowmax_apply (sc : (⟨2, ![800000, 4]⟩ : Shape).Idx → EReal) (w : BitVec 32)
    (h' : Shape.ReducesTo (⟨2, ![800000, 4]⟩ : Shape) [1] ⟨1, ![800000]⟩) (hu : 0 < (⟨0, ![]⟩ : Shape).numel) (e : Fin 800000) :
    Host.reduce (FloatOps.maximumf (F := Ideal) (φ := .f32)) sc (constant (F := Ideal) ⟨0, ![]⟩ .f32 w) h' hu (ix1 e)
      = (Finset.univ : Finset (Fin 4)).fold max (Ideal.ofBits .f32 w) (fun k => sc (ix2 e k)) := by
  have h : Shape.Reduces (⟨2, ![800000, 4]⟩ : Shape) [1] ⟨1, ![800000]⟩ := by decide
  rw [Host.reduce_eq_fold_single _ sc _ h' h hu (ix1 e)]
  have hl : (sc ∘ h.lift (ix1 e)) = fun k => sc (ix2 e k) := funext fun k => congrArg sc (lift_heads h e k)
  rw [hl]
  rfl

/-- The host's sum over the heads from zero at an edge is the sum of the edge's four entries. -/
theorem rowsum_apply (x : FVec Ideal (⟨2, ![800000, 4]⟩ : Shape) .f32)
    (h' : Shape.ReducesTo (⟨2, ![800000, 4]⟩ : Shape) [1] ⟨1, ![800000]⟩) (hu : 0 < (⟨0, ![]⟩ : Shape).numel) (e : Fin 800000) :
    Host.reduceAdd (F := Ideal) x (constant (F := Ideal) ⟨0, ![]⟩ .f32 0x00000000#32) h' hu (ix1 e)
      = ∑ k : Fin 4, x (ix2 e k) := by
  have h : Shape.Reduces (⟨2, ![800000, 4]⟩ : Shape) [1] ⟨1, ![800000]⟩ := by decide
  rw [hostReduceAdd_apply, Ideal.hostReduceAdd_single h' h, constant_apply, Ideal.ofBits_zero_f32, zero_add]
  exact Finset.sum_congr rfl fun k _ => congrArg x (lift_heads h e k)

/-! ## The shifted exponentials -/

/-- The shift: the maximum of the starting word's splat with the maximum over the heads is the fold of max over
    the edge's four scores from that word. -/
theorem shiftmax_apply (sc : (⟨2, ![800000, 4]⟩ : Shape).Idx → EReal) (w : BitVec 32)
    (hb : (⟨0, ![]⟩ : Shape).BroadcastsInDim ⟨1, ![800000]⟩ ![])
    (h' : Shape.ReducesTo (⟨2, ![800000, 4]⟩ : Shape) [1] ⟨1, ![800000]⟩) (hu : 0 < (⟨0, ![]⟩ : Shape).numel) (e : Fin 800000) :
    maximumf (F := Ideal) (broadcastInDim ⟨1, ![800000]⟩ ![] hb (constant (F := Ideal) ⟨0, ![]⟩ .f32 w))
        (Host.reduce (FloatOps.maximumf (F := Ideal) (φ := .f32)) sc (constant (F := Ideal) ⟨0, ![]⟩ .f32 w) h' hu) (ix1 e)
      = (Finset.univ : Finset (Fin 4)).fold max (Ideal.ofBits .f32 w) (fun k => sc (ix2 e k)) := by
  rw [maximumf_apply, rowmax_apply, broadcastInDim_scalar_apply, constant_apply, max_fold_start]

/-- The exponential of a score minus a per-edge shift, read at an edge and head. -/
theorem expshift_apply (sc : FVec Ideal (⟨2, ![800000, 4]⟩ : Shape) .f32) (M : FVec Ideal (⟨1, ![800000]⟩ : Shape) .f32)
    (h1 : (⟨1, ![800000]⟩ : Shape).BroadcastsInDim ⟨2, ![800000, 1]⟩ ![0])
    (h2 : (⟨2, ![800000, 1]⟩ : Shape).BroadcastsInDim ⟨2, ![800000, 4]⟩ ![0, 1]) (e : Fin 800000) (k : Fin 4) :
    Host.exp (F := Ideal) (subf sc (broadcastInDim ⟨2, ![800000, 4]⟩ ![0, 1] h2 (broadcastInDim ⟨2, ![800000, 1]⟩ ![0] h1 M))) (ix2 e k)
      = Ideal.exp (sc (ix2 e k) - M (ix1 e)) := by
  show Ideal.exp (sc (ix2 e k) - broadcastInDim ⟨2, ![800000, 4]⟩ ![0, 1] h2 (broadcastInDim ⟨2, ![800000, 1]⟩ ![0] h1 M) (ix2 e k)) = _
  rw [bcol_apply]

/-! ## The wrap of a source word and the gather of its row -/

/-- The wrap of a word that is not negative is the word. -/
theorem wrap_apply (srcw : IVec (⟨1, ![800000]⟩ : Shape) 32) (hb : (⟨0, ![]⟩ : Shape).BroadcastsInDim ⟨1, ![800000]⟩ ![])
    (e : Fin 800000) (h : 0 ≤ (srcw (ix1 e)).toInt) :
    select (cmpi .slt srcw (broadcastInDim ⟨1, ![800000]⟩ ![] hb (constantI ⟨0, ![]⟩ 32 0#32)))
        (addi srcw (broadcastInDim ⟨1, ![800000]⟩ ![] hb (constantI ⟨0, ![]⟩ 32 50000#32))) srcw (ix1 e)
      = srcw (ix1 e) :=
  select_slt_zero_of_nonneg srcw _ srcw (ix1 e) h

/-- The gather of the source rows at an edge whose source word is not negative reads the row of the clamped word. -/
theorem src_row_apply (feat3 : S50000x4x16.Idx → EReal) (srcw : S800000.Idx → BitVec 32) (e : Fin 800000) (hd : Fin 4) (d : Fin 16)
    (h : 0 ≤ (srcw (ix1 e)).toInt) :
    Host.gather gather_S50000x4x16_S800000x1_S800000x4x16_12_0_n_n_0_1_1416 feat3
        (broadcastInDim S800000x1 ![0] bcast_S800000_S800000x1_0
          (select (cmpi .slt srcw (broadcastInDim S800000 ![] bcast_S_S800000 (constantI S_ 32 0#32)))
            (addi srcw (broadcastInDim S800000 ![] bcast_S_S800000 (constantI S_ 32 50000#32))) srcw)) (ix3 e hd d)
      = feat3 (ix3 (Cert.Gat.node (srcw (ix1 e))) hd d) := by
  rw [Cert.LibGatherRows.gather_rows3_apply (by decide) _ rfl rfl rfl rfl rfl rfl]
  have hw : broadcastInDim S800000x1 ![0] bcast_S800000_S800000x1_0
          (select (cmpi .slt srcw (broadcastInDim S800000 ![] bcast_S_S800000 (constantI S_ 32 0#32)))
            (addi srcw (broadcastInDim S800000 ![] bcast_S_S800000 (constantI S_ 32 50000#32))) srcw) (ix2 e (0 : Fin 1))
      = srcw (ix1 e) := by
    rw [bidx_apply, wrap_apply srcw _ e h]
  refine congrArg feat3 (congrArg (fun n => ix3 n hd d) (Fin.ext ?_))
  show min (BitVec.toInt _).toNat (50000 - 1) = min (srcw (ix1 e)).toInt.toNat 49999
  rw [hw]

/-- Edge e's message for head hd, lane d, where the source word names a node: the source's projected feature there
    times the softmax weight of head hd among the edge's four scores. -/
theorem afterE2_v44 (W : Valuation τ sig (Elt Ideal)) (sc : S800000x4.Idx → EReal) (feat3 : S50000x4x16.Idx → EReal) (srcw : S800000.Idx → BitVec 32)
    (hsc : W (Proc.devRef .tc main_v23) = sc) (hf : W (Proc.devRef .tc main_v1) = feat3) (hs : W (Proc.devRef .tc main_arg1) = srcw)
    (e : Fin 800000) (hd : Fin 4) (d : Fin 16) (hsr : Cert.Gat.InRange (srcw (ix1 e))) :
    (StableHlo.after (opsE2 (F := Ideal)) W (Proc.devRef .tc main_v44) : S800000x4x16.Idx → EReal) (ix3 e hd d)
      = feat3 (ix3 (Cert.Gat.node (srcw (ix1 e))) hd d) * Cert.Gat.attn (fun h' => sc (ix2 e h')) hd := by
  -- the stage's composed term at the three given buffers
  after_results_simp
  rw [hsc, hf, hs]
  -- the product at (e, hd, d): the gathered source row times the weight broadcast over the lanes
  rw [mulf_apply, src_row_apply feat3 srcw e hd d hsr.1]
  -- the weight at (e, hd): the shifted exponential over the sum of the four shifted exponentials
  rw [blane_apply, hostDivf_apply, bcol_apply, rowsum_apply]
  rw [expshift_apply, Finset.sum_congr rfl (fun k _ => expshift_apply sc _ _ _ e k), shiftmax_apply]
  rfl

/-- The stage writes none of these. -/
theorem afterE2_arg0 (W : Valuation τ sig (Elt Ideal)) : StableHlo.after (opsE2 (F := Ideal)) W (Proc.devRef .tc main_arg0) = W (Proc.devRef .tc main_arg0) := by
  after_results_simp
theorem afterE2_arg2 (W : Valuation τ sig (Elt Ideal)) : StableHlo.after (opsE2 (F := Ideal)) W (Proc.devRef .tc main_arg2) = W (Proc.devRef .tc main_arg2) := by
  after_results_simp
theorem afterE2_arg6 (W : Valuation τ sig (Elt Ideal)) : StableHlo.after (opsE2 (F := Ideal)) W (Proc.devRef .tc main_arg6) = W (Proc.devRef .tc main_arg6) := by
  after_results_simp

end Cert.ReferenceIdeal.RefMsg

end
-- ==== Proof.RTail.lean ====
/- The reference's tail read at an index: the messages summed into their destination nodes plus the residual projection. -/
import proofs.«405722_j15779709845542_2_alg».proof.Proof.ROps
import proofs.«405722_j15779709845542_2_alg».proof.Proof.GatSpec
import Idealize.ShloMosaic.Lib.StableHlo.Run
import Idealize.ShloMosaic.Lib.ValueIdx
import Idealize.ShloMosaic.PureOps.Ideal.Laws
import proofs.«405722_j15779709845542_2_alg».proof.Proof.LibScatterAddRows
import Idealize.ShloMosaic.Lib.Pipeline.Value
import Idealize.ShloMosaic.Lib.IdealHost

set_option maxRecDepth 16384

noncomputable section

open scoped BigOperators

namespace Cert.ReferenceIdeal.RefTail

open Idealize.ShloMosaic Idealize.ShloMosaic.TcCoe Idealize.ShloMosaic.ValueIdx Idealize.SL.Sem
open Cert.ReferenceIdeal Cert.ReferenceIdeal.Gen Cert.ReferenceIdeal.RefOps

/-- The destination words broadcast to a column read, at row j, word j. -/
theorem dstCol_apply (dstw : S800000.Idx → BitVec 32) (j : Fin 800000) :
    broadcastInDim S800000x1 ![0] bcast_S800000_S800000x1_0 dstw (ix2 j (0 : Fin 1)) = dstw (ix1 j) := by
  refine broadcastInDim_apply _ _ _ _ _ (fun a => ?_)
  match a with
  | ⟨0, _⟩ => rfl

/-- Lane 16 hd + d of row n sits at the row-major position of (n, hd, d). -/
theorem pos_lane (n : Fin 50000) (hd : Fin 4) (d : Fin 16) :
    (S50000x64.rowMajor (ix2 n (Cert.Gat.lane hd d))).val = (S50000x4x16.rowMajor (ix3 n hd d)).val := by
  rw [Shape.rowMajor_val_two, Shape.rowMajor_val_three]
  show n.val * 64 + (16 * hd.val + d.val) = (n.val * 4 + hd.val) * 16 + d.val
  omega

/-- The product's left index keeps the result's row … -/
theorem lhs_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl
/-- … and runs over the contraction position on its second axis. -/
theorem lhs_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
/-- The right index runs over the contraction position on its first axis … -/
theorem rhs_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
/-- … and keeps the result's column. -/
theorem rhs_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- The host product of the features and the residual weights, read at (n, c): the projection's sum over the 64 lanes. -/
theorem dot_apply (x : S50000x64.Idx → EReal) (Wres : S64x64.Idx → EReal) (n : Fin 50000) (c : Fin 64) :
    Host.dotGeneral (F := Ideal) (φ₁ := .f32) (φ₂ := .f32) dot_S50000x64_S64x64_S50000x64_1_0_0_1_n_n none x Wres (ix2 n c) = Cert.Gat.proj x Wres n c := by
  simp only [Host.dotGeneral]
  rw [Ideal.dotGeneral_apply, ← Equiv.sum_comp (contrEquiv1 dot_S50000x64_S64x64_S50000x64_1_0_0_1_n_n 64 rfl rfl).symm]
  unfold Cert.Gat.proj
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 n c) ((contrEquiv1 dot_S50000x64_S64x64_S50000x64_1_0_0_1_n_n 64 rfl rfl).symm k) = ix2 n k :=
    funext fun a => Fin.ext (by
      match a with
      | ⟨0, _⟩ => exact lhs_0 _ _
      | ⟨1, _⟩ => exact (lhs_1 _ _).trans hk)
  have er : dot_S50000x64_S64x64_S50000x64_1_0_0_1_n_n.rhsIdx (ix2 n c) ((contrEquiv1 dot_S50000x64_S64x64_S50000x64_1_0_0_1_n_n 64 rfl rfl).symm k) = ix2 k c :=
    funext fun a => Fin.ext (by
      match a with
      | ⟨0, _⟩ => exact (rhs_0 _ _).trans hk
      | ⟨1, _⟩ => exact rhs_1 _ _)
  rw [el, er]

/-- The tail's composed term over arrays of literal types, read at (n, hd, d). -/
theorem tail_apply (m3 : S800000x4x16.Idx → EReal) (x : S50000x64.Idx → EReal) (Wres : S64x64.Idx → EReal)
    (dstw : S800000.Idx → BitVec 32) (n : Fin 50000) (hd : Fin 4) (d : Fin 16) :
    addf (F := Ideal) (φ := .f32)
        (Host.scatterAdd (F := Ideal) (φ := .f32) scatter_S50000x4x16_S800000x1_S800000x4x16_12_0_0_1
          (broadcastInDim S50000x4x16 ![] bcast_S_S50000x4x16 (constant (F := Ideal) S_ FTy.f32 0#32))
          (broadcastInDim S800000x1 ![0] bcast_S800000_S800000x1_0 dstw)
          m3)
        (shapeCast S50000x4x16
          (Host.dotGeneral (F := Ideal) (φ₁ := .f32) (φ₂ := .f32) dot_S50000x64_S64x64_S50000x64_1_0_0_1_n_n none x Wres)
          shapeCasts_S50000x64_S50000x4x16)
        (ix3 n hd d)
      = (∑ e ∈ Finset.univ.filter (fun e : Fin 800000 => (dstw (ix1 e)).toInt = (n.val : ℤ)), m3 (ix3 e hd d))
        + Cert.Gat.proj x Wres n (Cert.Gat.lane hd d) := by
  rw [addf_apply]
  rw [shapeCast_apply _ shapeCasts_S50000x64_S50000x4x16 (ix3 n hd d) (ix2 n (Cert.Gat.lane hd d)) (pos_lane n hd d)]
  rw [dot_apply]
  rw [Cert.LibScatterAddRows.scatterAdd_rows3_apply scatter_S50000x4x16_S800000x1_S800000x4x16_12_0_0_1 rfl rfl rfl rfl]
  rw [broadcastInDim_scalar_apply, constant_apply, Ideal.ofBits_zero_f32, zero_add]
  refine congrArg (fun t => t + Cert.Gat.proj x Wres n (Cert.Gat.lane hd d)) ?_
  refine Finset.sum_congr (Finset.filter_congr fun j _ => ?_) (fun _ _ => rfl)
  rw [dstCol_apply dstw j]

/-- The reference's result at node n, head hd, lane d: the messages (main_v44) of the edges whose destination word, read
    signed, is n, summed at (hd, d), plus the residual projection of the features on lane 16 hd + d. -/
theorem afterO_v50 (W : Valuation τ sig (Elt Ideal)) (m3 : S800000x4x16.Idx → EReal) (x : S50000x64.Idx → EReal) (Wres : S64x64.Idx → EReal) (dstw : S800000.Idx → BitVec 32)
    (hm : W (Proc.devRef .tc main_v44) = m3) (hx : W (Proc.devRef .tc main_arg0) = x) (hW : W (Proc.devRef .tc main_arg6) = Wres) (hdw : W (Proc.devRef .tc main_arg2) = dstw)
    (n : Fin 50000) (hd : Fin 4) (d : Fin 16) :
    (StableHlo.after (opsO (F := Ideal)) W (Proc.devRef .tc main_v50) : S50000x4x16.Idx → EReal) (ix3 n hd d)
      = (∑ e ∈ Finset.univ.filter (fun e : Fin 800000 => (dstw (ix1 e)).toInt = (n.val : ℤ)), m3 (ix3 e hd d))
        + Cert.Gat.proj x Wres n (Cert.Gat.lane hd d) := by
  after_results
  rw [hm, hx, hW, hdw]
  exact tail_apply m3 x Wres dstw n hd d

end Cert.ReferenceIdeal.RefTail

end
-- ==== Proof.RValue.lean ====
/- The reference's result is the layer's specification: the four stages composed. -/
import proofs.«405722_j15779709845542_2_alg».proof.Proof.ROps
import proofs.«405722_j15779709845542_2_alg».proof.Proof.RNode
import proofs.«405722_j15779709845542_2_alg».proof.Proof.RScore
import proofs.«405722_j15779709845542_2_alg».proof.Proof.RMsg
import proofs.«405722_j15779709845542_2_alg».proof.Proof.RTail
import proofs.«405722_j15779709845542_2_alg».proof.Proof.GatSpec
import proofs.«405722_j15779709845542_2_alg».proof.Proof.GatAlgebra
import Idealize.ShloMosaic.Lib.StableHlo.Run
import Idealize.ShloMosaic.Lib.ValueIdx

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.RefOps
open Cert.ReferenceIdeal.RefNode Cert.ReferenceIdeal.RefScore Cert.ReferenceIdeal.RefMsg Cert.ReferenceIdeal.RefTail

/-- The contents after two lists in a row are the second list's after the first's. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- From contents that hold the seven arguments, with every source word naming a node, the operations leave the result
    buffer at the specification: node n's head hd, lane d is the sum of the messages of the edges ending at n plus the
    residual projection. An edge that ends at n has its destination word in range, so each stage's reading applies to it. -/
theorem value (W : Valuation τ sig (Elt Ideal))
    (x : S50000x64.Idx → EReal) (srcw dstw : S800000.Idx → BitVec 32) (Wfc : S64x64.Idx → EReal)
    (al ar : S1x4x16.Idx → EReal) (Wres : S64x64.Idx → EReal)
    (hx : W (Proc.devRef .tc main_arg0) = x) (hs : W (Proc.devRef .tc main_arg1) = srcw) (hdw : W (Proc.devRef .tc main_arg2) = dstw)
    (hW : W (Proc.devRef .tc main_arg3) = Wfc) (hal : W (Proc.devRef .tc main_arg4) = al) (har : W (Proc.devRef .tc main_arg5) = ar)
    (hWr : W (Proc.devRef .tc main_arg6) = Wres) (hin : ∀ e : Fin 800000, Cert.Gat.InRange (srcw (ix1 e))) :
    (StableHlo.after (ops (F := Ideal)) W (Proc.devRef .tc main_v50) : S50000x4x16.Idx → EReal)
      = Cert.Gat.G x srcw dstw Wfc al ar Wres := by
  funext i
  obtain ⟨n, hd, d, rfl⟩ : ∃ (n : Fin 50000) (hd : Fin 4) (d : Fin 16), i = ix3 n hd d := ⟨i 0, i 1, i 2, eq_ix3 i⟩
  rw [Cert.Gat.G_ix3]
  have hops : StableHlo.after (ops (F := Ideal)) W
      = StableHlo.after (opsO (F := Ideal)) (StableHlo.after (opsE2 (F := Ideal)) (StableHlo.after (opsE1 (F := Ideal))
          (StableHlo.after (opsN (F := Ideal)) W))) := by
    show StableHlo.after (opsN ++ opsE1 ++ opsE2 ++ opsO) W = _
    rw [after_append, after_append, after_append]
  rw [hops]
  generalize hW1 : StableHlo.after (opsN (F := Ideal)) W = W1
  generalize hW2 : StableHlo.after (opsE1 (F := Ideal)) W1 = W2
  generalize hW3 : StableHlo.after (opsE2 (F := Ideal)) W2 = W3
  have k1 : ∀ b, (b = main_arg0 ∨ b = main_arg1 ∨ b = main_arg2 ∨ b = main_arg6) → W1 (Proc.devRef .tc b) = W (Proc.devRef .tc b) := by
    intro b hb; subst hW1
    rcases hb with rfl | rfl | rfl | rfl
    · exact afterN_arg0 W
    · exact afterN_arg1 W
    · exact afterN_arg2 W
    · exact afterN_arg6 W
  have k2 : ∀ b, (b = main_arg0 ∨ b = main_arg1 ∨ b = main_arg2 ∨ b = main_arg6 ∨ b = main_v1) → W2 (Proc.devRef .tc b) = W1 (Proc.devRef .tc b) := by
    intro b hb; subst hW2
    rcases hb with rfl | rfl | rfl | rfl | rfl
    · exact afterE1_arg0 W1
    · exact afterE1_arg1 W1
    · exact afterE1_arg2 W1
    · exact afterE1_arg6 W1
    · exact afterE1_v1 W1
  have k3 : ∀ b, (b = main_arg0 ∨ b = main_arg2 ∨ b = main_arg6) → W3 (Proc.devRef .tc b) = W2 (Proc.devRef .tc b) := by
    intro b hb; subst hW3
    rcases hb with rfl | rfl | rfl
    · exact afterE2_arg0 W2
    · exact afterE2_arg2 W2
    · exact afterE2_arg6 W2
  have hx3 : W3 (Proc.devRef .tc main_arg0) = x := by rw [k3 _ (.inl rfl), k2 _ (.inl rfl), k1 _ (.inl rfl), hx]
  have hd3 : W3 (Proc.devRef .tc main_arg2) = dstw := by rw [k3 _ (.inr (.inl rfl)), k2 _ (.inr (.inr (.inl rfl))), k1 _ (.inr (.inr (.inl rfl))), hdw]
  have hr3 : W3 (Proc.devRef .tc main_arg6) = Wres := by rw [k3 _ (.inr (.inr rfl)), k2 _ (.inr (.inr (.inr (.inl rfl)))), k1 _ (.inr (.inr (.inr rfl))), hWr]
  have hs2 : W2 (Proc.devRef .tc main_arg1) = srcw := by rw [k2 _ (.inr (.inl rfl)), k1 _ (.inr (.inl rfl)), hs]
  have hs1 : W1 (Proc.devRef .tc main_arg1) = srcw := by rw [k1 _ (.inr (.inl rfl)), hs]
  have hd1 : W1 (Proc.devRef .tc main_arg2) = dstw := by rw [k1 _ (.inr (.inr (.inl rfl))), hdw]
  rw [afterO_v50 W3 (W3 (Proc.devRef .tc main_v44)) x Wres dstw rfl hx3 hr3 hd3 n hd d]
  unfold Cert.Gat.out
  refine congrArg₂ (· + ·) ?_ rfl
  refine Finset.sum_congr rfl fun e he => ?_
  have hde : (dstw (ix1 e)).toInt = (n.val : ℤ) := (Finset.mem_filter.mp he).2
  have hdr : Cert.Gat.InRange (dstw (ix1 e)) := by
    have := n.isLt
    exact ⟨by omega, by omega⟩
  subst hW3
  rw [afterE2_v44 W2 (W2 (Proc.devRef .tc main_v23)) (W2 (Proc.devRef .tc main_v1)) srcw rfl rfl hs2 e hd d (hin e)]
  unfold Cert.Gat.msg
  rw [Cert.Gat.headOf_lane]
  refine congrArg₂ (· * ·) ?_ ?_
  · rw [k2 _ (.inr (.inr (.inr (.inr rfl))))]
    subst hW1
    exact afterN_v1 W x Wfc hx hW _ hd d
  · refine Cert.Gat.attn_congr _ _ (fun h' => ?_) hd
    subst hW2
    rw [afterE1_v23 W1 (W1 (Proc.devRef .tc main_v4)) (W1 (Proc.devRef .tc main_v7)) srcw dstw rfl rfl hs1 hd1 e h' (hin e) hdr]
    unfold Cert.Gat.score
    subst hW1
    rw [afterN_v4 W x Wfc al hx hW hal _ h', afterN_v7 W x Wfc ar hx hW har _ h']

/-- No operation of the reference writes an argument: after all of them each argument buffer holds what it held. -/
theorem kept_arg0 (W : Valuation τ sig (Elt Ideal)) :
    StableHlo.after (ops (F := Ideal)) W (Proc.devRef .tc main_arg0) = W (Proc.devRef .tc main_arg0) :=
  StableHlo.after_of_forall_not_mem (b := Proc.devRef .tc main_arg0) _ _ (List.forall_iff_forall_mem.mp (by
    simp only [ops, opsN, opsE1, opsE2, opsO, List.cons_append, List.nil_append, List.append_assoc, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem kept_arg1 (W : Valuation τ sig (Elt Ideal)) :
    StableHlo.after (ops (F := Ideal)) W (Proc.devRef .tc main_arg1) = W (Proc.devRef .tc main_arg1) :=
  StableHlo.after_of_forall_not_mem (b := Proc.devRef .tc main_arg1) _ _ (List.forall_iff_forall_mem.mp (by
    simp only [ops, opsN, opsE1, opsE2, opsO, List.cons_append, List.nil_append, List.append_assoc, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem kept_arg2 (W : Valuation τ sig (Elt Ideal)) :
    StableHlo.after (ops (F := Ideal)) W (Proc.devRef .tc main_arg2) = W (Proc.devRef .tc main_arg2) :=
  StableHlo.after_of_forall_not_mem (b := Proc.devRef .tc main_arg2) _ _ (List.forall_iff_forall_mem.mp (by
    simp only [ops, opsN, opsE1, opsE2, opsO, List.cons_append, List.nil_append, List.append_assoc, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem kept_arg3 (W : Valuation τ sig (Elt Ideal)) :
    StableHlo.after (ops (F := Ideal)) W (Proc.devRef .tc main_arg3) = W (Proc.devRef .tc main_arg3) :=
  StableHlo.after_of_forall_not_mem (b := Proc.devRef .tc main_arg3) _ _ (List.forall_iff_forall_mem.mp (by
    simp only [ops, opsN, opsE1, opsE2, opsO, List.cons_append, List.nil_append, List.append_assoc, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem kept_arg4 (W : Valuation τ sig (Elt Ideal)) :
    StableHlo.after (ops (F := Ideal)) W (Proc.devRef .tc main_arg4) = W (Proc.devRef .tc main_arg4) :=
  StableHlo.after_of_forall_not_mem (b := Proc.devRef .tc main_arg4) _ _ (List.forall_iff_forall_mem.mp (by
    simp only [ops, opsN, opsE1, opsE2, opsO, List.cons_append, List.nil_append, List.append_assoc, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem kept_arg5 (W : Valuation τ sig (Elt Ideal)) :
    StableHlo.after (ops (F := Ideal)) W (Proc.devRef .tc main_arg5) = W (Proc.devRef .tc main_arg5) :=
  StableHlo.after_of_forall_not_mem (b := Proc.devRef .tc main_arg5) _ _ (List.forall_iff_forall_mem.mp (by
    simp only [ops, opsN, opsE1, opsE2, opsO, List.cons_append, List.nil_append, List.append_assoc, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem kept_arg6 (W : Valuation τ sig (Elt Ideal)) :
    StableHlo.after (ops (F := Ideal)) W (Proc.devRef .tc main_arg6) = W (Proc.devRef .tc main_arg6) :=
  StableHlo.after_of_forall_not_mem (b := Proc.devRef .tc main_arg6) _ _ (List.forall_iff_forall_mem.mp (by
    simp only [ops, opsN, opsE1, opsE2, opsO, List.cons_append, List.nil_append, List.append_assoc, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.ReferenceIdeal.RefValue

end
-- ==== Proof.PreSrc.lean ====
/- What the precondition says of the source words: every one names a node. -/
import proofs.«405722_j15779709845542_2_alg».proof.Proof.Gen.Pre_finite_inputs
import proofs.«405722_j15779709845542_2_alg».proof.Proof.GatSpec
import Idealize.ShloMosaic.Lib.StableHlo.Predicate
import Idealize.ShloMosaic.Lib.ReduceAll
import Idealize.ShloMosaic.Lib.ValueIdx

noncomputable section

namespace Cert.PreSrc

open Idealize.ShloMosaic Idealize.ShloMosaic.ValueIdx

/-- The precondition's last conjunct, decoded: every source word, read signed, lies in [0, 50000). -/
theorem src_inRange [Cert.Pre_finite_inputs.Facts]
    (a0 : FVec Ideal Cert.Pre_finite_inputs.S50000x64 .f32) (a1 a2 : IVec Cert.Pre_finite_inputs.S800000 32)
    (a3 : FVec Ideal Cert.Pre_finite_inputs.S64x64 .f32) (a4 a5 : FVec Ideal Cert.Pre_finite_inputs.S1x4x16 .f32)
    (a6 : FVec Ideal Cert.Pre_finite_inputs.S64x64 .f32)
    (h : Cert.Pre_finite_inputs.fn (F := Ideal) a0 a1 a2 a3 a4 a5 a6 = fun _ => 1#1) (e : Fin 800000) :
    Cert.Gat.InRange (a1 (ix1 e)) := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the chain of conjunctions ends in the test over all the source words
  have hall := (IntOp.andi_eq_one.1 h0).2
  -- which holds at every word
  have he := Host.reduce_andi_all _ _ _ _ _ hall (ix1 e)
  obtain ⟨h1, h2⟩ := IntOp.andi_eq_one.1 he
  have g1 := IntOp.cmpi_sge.1 h1
  have g2 := IntOp.cmpi_slt.1 h2
  -- a broadcast constant reads the constant
  change (0#32 : BitVec 32).toInt ≤ _ at g1
  change _ < (50000#32 : BitVec 32).toInt at g2
  rw [show (0#32 : BitVec 32).toInt = 0 from by decide] at g1
  rw [show (50000#32 : BitVec 32).toInt = 50000 from by decide] at g2
  exact ⟨g1, g2⟩

end Cert.PreSrc

end
-- ==== Proof.lean ====
/- The certificate of one graph-attention layer: the kernel program (two launches around row gathers and a scatter-add)
   against its plain reference, as extended reals.

   Both programs compute, per node, the sum over the edges ending there of the source's projected features weighted by a
   softmax over the four heads of the edge's leaky scores, plus a residual projection (the specification's G). The kernel
   program reaches the per-head logits and the per-lane weights through one-hot [64, 4] and [4, 64] matrices, whose zero
   entries make the extra terms products with zero; its gathers fill a row whose index is out of range, where the
   reference clamps, so the two agree where every source word names a node — the precondition's last conjunct — and an
   edge whose destination is out of range is dropped by both scatter-adds. No law used needs the inputs finite.

   The frames of the two kernel programs are the generated ones; the reference's frame is its run with the arguments
   read back; nothing was rewritten by the idealization, so there is nothing to preserve. -/
import proofs.«405722_j15779709845542_2_alg».proof.Defs
import proofs.«405722_j15779709845542_2_alg».proof.Proof.Gen.Kernel
import proofs.«405722_j15779709845542_2_alg».proof.Proof.Gen.Kernel.Frame
import proofs.«405722_j15779709845542_2_alg».proof.Proof.Gen.KernelIdeal
import proofs.«405722_j15779709845542_2_alg».proof.Proof.Gen.KernelIdeal.Frame
import proofs.«405722_j15779709845542_2_alg».proof.Proof.Gen.ReferenceIdeal
import proofs.«405722_j15779709845542_2_alg».proof.Proof.Gen.Pre_finite_inputs
import proofs.«405722_j15779709845542_2_alg».proof.Proof.KRun
import proofs.«405722_j15779709845542_2_alg».proof.Proof.KValue
import proofs.«405722_j15779709845542_2_alg».proof.Proof.RRun
import proofs.«405722_j15779709845542_2_alg».proof.Proof.RValue
import proofs.«405722_j15779709845542_2_alg».proof.Proof.PreSrc
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves every buffer at the fold of its operations, and no operation writes an argument. -/
theorem frame_ri : Cert.frame_ReferenceIdeal := fun m ρ _ =>
  (θ_run Cert.ReferenceIdeal.defs _ _).mono (fun _ h c =>
    ⟨(h c _).trans (Cert.ReferenceIdeal.RefValue.kept_arg0 _), (h c _).trans (Cert.ReferenceIdeal.RefValue.kept_arg1 _),
     (h c _).trans (Cert.ReferenceIdeal.RefValue.kept_arg2 _), (h c _).trans (Cert.ReferenceIdeal.RefValue.kept_arg3 _),
     (h c _).trans (Cert.ReferenceIdeal.RefValue.kept_arg4 _), (h c _).trans (Cert.ReferenceIdeal.RefValue.kept_arg5 _),
     (h c _).trans (Cert.ReferenceIdeal.RefValue.kept_arg6 _)⟩)
    (Cert.ReferenceIdeal.RefRun.run (F := Ideal) m ρ)

theorem preserves : Cert.preserves_Kernel_KernelIdeal := trivial

/-- Both runs end with the result array at the specification of the (agreeing) arguments. -/
theorem algebraic : Cert.algebraic_KernelIdeal_ReferenceIdeal := by
  intro m ρ m' ρ' hpre hagree
  have hin : ∀ (c : Dev Cert.KernelIdeal.nD) (e : Fin 800000),
      Cert.Gat.InRange ((m ((c.tc : Thread Cert.KernelIdeal.nD Cert.KernelIdeal.τ).loc Cert.KernelIdeal.main_arg1)) (ix1 e)) :=
    fun c e => Cert.PreSrc.src_inRange _ _ _ _ _ _ _ (hpre c) e
  refine ⟨fun c => Cert.Gat.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c =>
      ⟨(h c).1.trans (Cert.KernelIdeal.KValue.value m ρ c _ _ _ _ _ _ _ rfl rfl rfl rfl rfl rfl rfl (hin c)), (h c).2⟩)
      (Cert.KernelIdeal.RunResult.run_result (F := Ideal) m ρ)
  · refine (θ_run Cert.ReferenceIdeal.defs _ _).mono (fun _ h c =>
      ⟨(h c _).trans (Cert.ReferenceIdeal.RefValue.value _ _ _ _ _ _ _ _ (hagree c).1 (hagree c).2.1 (hagree c).2.2.1
          (hagree c).2.2.2.1 (hagree c).2.2.2.2.1 (hagree c).2.2.2.2.2.1 (hagree c).2.2.2.2.2.2 (hin c)),
       (h c _).trans (Cert.ReferenceIdeal.RefValue.kept_arg0 _), (h c _).trans (Cert.ReferenceIdeal.RefValue.kept_arg1 _),
       (h c _).trans (Cert.ReferenceIdeal.RefValue.kept_arg2 _), (h c _).trans (Cert.ReferenceIdeal.RefValue.kept_arg3 _),
       (h c _).trans (Cert.ReferenceIdeal.RefValue.kept_arg4 _), (h c _).trans (Cert.ReferenceIdeal.RefValue.kept_arg5 _),
       (h c _).trans (Cert.ReferenceIdeal.RefValue.kept_arg6 _)⟩)
      (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
